-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) (main_arg7 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S1600000x128 : Shape := ⟨2, ![1600000, 128]⟩
abbrev S100000x64 : Shape := ⟨2, ![100000, 64]⟩
abbrev S4000x128 : Shape := ⟨2, ![4000, 128]⟩
abbrev S4000x2 : Shape := ⟨2, ![4000, 2]⟩
abbrev S4000x64 : Shape := ⟨2, ![4000, 64]⟩
abbrev S4000x1 : Shape := ⟨2, ![4000, 1]⟩
abbrev S1x128 : Shape := ⟨2, ![1, 128]⟩
abbrev S1600000x64 : Shape := ⟨2, ![1600000, 64]⟩
abbrev S100x64 : Shape := ⟨2, ![100, 64]⟩
abbrev S100x1 : Shape := ⟨2, ![100, 1]⟩
abbrev S1x64 : Shape := ⟨2, ![1, 64]⟩
abbrev S4000x100 : Shape := ⟨2, ![4000, 100]⟩
abbrev S100 : Shape := ⟨1, ![100]⟩

abbrev nBuf : Space → Nat
  | .hbm => 69
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x2, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S100000x2, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x64, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100x64, .f32⟩
  | .local _ .vmem, ⟨0, _⟩ => ⟨S4000x128, .f32⟩
  | .local _ .vmem, ⟨1, _⟩ => ⟨S4000x128, .f32⟩
  | .local _ .vmem, ⟨2, _⟩ => ⟨S4000x2, .f32⟩
  | .local _ .vmem, ⟨3, _⟩ => ⟨S4000x2, .f32⟩
  | .local _ .vmem, ⟨4, _⟩ => ⟨S128, .f32⟩
  | .local _ .vmem, ⟨5, _⟩ => ⟨S128x128, .f32⟩
  | .local _ .vmem, ⟨6, _⟩ => ⟨S128x64, .f32⟩
  | .local _ .vmem, ⟨7, _⟩ => ⟨S4000x64, .bf16⟩
  | .local _ .vmem, ⟨8, _⟩ => ⟨S4000x64, .bf16⟩
  | .local _ .vmem, ⟨9, _⟩ => ⟨S4000x64, .f32⟩
  | .local _ .vmem, ⟨10, _⟩ => ⟨S4000x64, .f32⟩
  | .local _ .vmem, ⟨11, _⟩ => ⟨S4000x2, .f32⟩
  | .local _ .vmem, ⟨12, _⟩ => ⟨S4000x2, .f32⟩
  | .local _ .vmem, ⟨13, _⟩ => ⟨S64, .f32⟩
  | .local _ .vmem, ⟨14, _⟩ => ⟨S100x64, .f32⟩
  | .local _ .vmem, ⟨15, _⟩ => ⟨S100x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  inb_S4000x2_S4000x1_0_1 : ∀ a, (![0, 1] : Fin 2 → Nat) a + S4000x1.size a ≤ S4000x2.size a
  inb_S128x128_S128x128_0_0 : ∀ a, (![0, 0] : Fin 2 → Nat) a + S128x128.size a ≤ S128x128.size a
  h_S128x128 : 0 < S128x128.numel
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  inb_S100x64_S100x64_0_0 : ∀ a, (![0, 0] : Fin 2 → Nat) a + S100x64.size a ≤ S100x64.size a
  h_S100x64 : 0 < S100x64.numel
  inb_S100x1_S100x1_0_0 : ∀ a, (![0, 0] : Fin 2 → Nat) a + S100x1.size a ≤ S100x1.size a
  h_S100x1 : 0 < S100x1.numel
  shapeCasts_S100x1_S100x1 : S100x1.ShapeCasts S100x1
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  iota_S4000x100_d1_w32 : S4000x100.Iotas .tc 32 [1]
  broadcasts_S4000x1_S4000x100 : S4000x1.Broadcasts S4000x100
  natLt_1_32 : 1 < 32
  shapeCasts_S100x64_S100x64 : S100x64.ShapeCasts S100x64
  reduces_S4000x100_S100 : S4000x100.Reduces [0] S100
  shapeCasts_S100_S100x1 : S100.ShapeCasts S100x1
  broadcasts_S100x1_S100x64 : S100x1.Broadcasts S100x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x100_S4000x64_S100x64_0_0_1_1_n_n_wf : DotDims.WF S4000x100 S4000x64 S100x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S100000x2.size a
  hwx0_1 : ∀ i : grid0.Coords, EltTy.bits .f32 = 32 ∨ (Rect.block (s := S100000x2) S4000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .bf16 = 32 ∨ (Rect.block (s := S100000x64) S4000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x64.size a ≤ S100x64.size a
  hwx1_3 : ∀ i : grid1.Coords, EltTy.bits .f32 = 32 ∨ (Rect.block (s := S100x64) S100x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x100_S4000x64_S100x64_0_0_1_1_n_n : DotDims S4000x100 S4000x64 S100x64 where
  lhsContracting := [0]
  rhsContracting := [0]
  lhsNonContracting := [1]
  rhsNonContracting := [1]
  lhsBatch := []
  rhsBatch := []
  wf := dot_S4000x100_S4000x64_S100x64_0_0_1_1_n_n_wf

abbrev win0_0 : Pipeline.Window sig grid0 :=
  Pipeline.Window.ofSpec (Memref.whole main_v32) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S100x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100 : Shape := ⟨1, ![100]⟩
abbrev S100x64 : Shape := ⟨2, ![100, 64]⟩
abbrev S100x1 : Shape := ⟨2, ![100, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100, .f32⟩
  | .hbm, ⟨81, _⟩ => ⟨S100000x1, .i32⟩
  | .hbm, ⟨82, _⟩ => ⟨S100, .f32⟩
  | .hbm, ⟨83, _⟩ => ⟨S_, .f32⟩
  | .hbm, ⟨84, _⟩ => ⟨S100x64, .f32⟩
  | .hbm, ⟨85, _⟩ => ⟨S100000x1, .i32⟩
  | .hbm, ⟨86, _⟩ => ⟨S100x64, .f32⟩
  | .hbm, ⟨87, _⟩ => ⟨S_, .f32⟩
  | .hbm, ⟨88, _⟩ => ⟨S_, .f32⟩
  | .hbm, ⟨89, _⟩ => ⟨S100, .f32⟩
  | .hbm, ⟨90, _⟩ => ⟨S100, .f32⟩
  | .hbm, ⟨91, _⟩ => ⟨S100x1, .f32⟩
  | .hbm, ⟨92, _⟩ => ⟨S100x64, .f32⟩
  | .hbm, ⟨93, _⟩ => ⟨S100x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_cst : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100 : S_.BroadcastsInDim S100 (![] : Fin 0 → Fin S100.rank)
  bcast_S_S100x64 : S_.BroadcastsInDim S100x64 (![] : Fin 0 → Fin S100x64.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100_S100000x1_S100000_n_0_0_1_wf : ScatterDims.WF S100 S100000x1 S100000 [] [0] [0] 1
  scatter_S100x64_S100000x1_S100000x64_1_0_0_1_wf : ScatterDims.WF S100x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf

class Facts : Prop extends Facts₀ where

variable [Facts]
-- ==== Proof.KI.Proj.lean ====
/- The class-A half of region 0 (the fused projection kernel `cc0__proj_fused_kernel`, grid 25, five input windows
   and one output window written back at every point), stated at a PARAMETER `V`: the TensorCore's buffer contents when
   the region is entered. Per window its block at a point (`iblk0`); the rectangles of the body's accesses; what the body
   leaves in the output window's staging buffer as a closed function of the five input blocks (`out0_5`: the one store's
   payload laid over the buffer); the body's triple (`sound_kernel0`); the proof data (`dat0`) with its projections; and the
   library's body obligation (`body_obligation0`). Generic in the float interpretation `F`. -/
import proofs.«404963_j59098749993497_3_alg».proof.Proof.Gen.KernelIdeal.Launch
import proofs.«404963_j59098749993497_3_alg».proof.Proof.Gen.KernelIdeal.Skeleton
import proofs.«404963_j59098749993497_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof data
    whose array is `V`'s (`hA`) and whose body leaves the block in place (`hafter`): unfetched, the block index has not
    moved (windows 2, 3, 4 — the bias and the two weight matrices — are fetched at the first point only, and their
    index map is constant). The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [4000,128] block of aggregated features. -/
abbrev rA : Rect S4000x128 := Rect.unit (s := S4000x128) ![0, 0] S4000x128.size inb_S4000x128_S4000x128_0_0
/-- Column 0 of the [4000,2] block of norms (the source-side norm), -/
abbrev rSn : Rect S4000x2 := Rect.unit (s := S4000x2) ![0, 0] S4000x1.size inb_S4000x2_S4000x1_0_0
/-- and column 1 (the destination-side norm). -/
abbrev rDn : Rect S4000x2 := Rect.unit (s := S4000x2) ![0, 1] S4000x1.size inb_S4000x2_S4000x1_0_1
/-- The whole bias vector, -/
abbrev rB1 : Rect S128 := Rect.unit (s := S128) ![0] S128.size inb_S128_S128_0
/-- the whole first weight matrix, -/
abbrev rW1 : Rect S128x128 := Rect.unit (s := S128x128) ![0, 0] S128x128.size inb_S128x128_S128x128_0_0
/-- the whole second weight matrix, -/
abbrev rW2 : Rect S128x64 := Rect.unit (s := S128x64) ![0, 0] S128x64.size inb_S128x64_S128x64_0_0
/-- and the whole [4000,64] output block: the one store's rectangle. -/
abbrev rO : Rect S4000x64 := Rect.unit (s := S4000x64) ![0, 0] S4000x64.size inb_S4000x64_S4000x64_0_0

/-! ## What the body leaves in the output window's buffer -/

/-- Window 5's staging buffer after the body, from the five input windows' blocks: its one store as a piece, the
    payload the skeleton's (features; norms column 0; norms column 1; first weights; bias; second weights). -/
def out0_5 (x0 : Vec F S4000x128 .f32) (x1 : Vec F S4000x2 .f32) (x2 : Vec F S128 .f32) (x3 : Vec F S128x128 .f32) (x4 : Vec F S128x64 .f32) : Vec F S4000x64 .bf16 :=
  View.canon [⟨rO, k0_pay1 (View.ld x0 rA) (View.ld x1 rSn) (View.ld x1 rDn) (View.ld x3 rW1) (View.ld x2 rB1) (View.ld x4 rW2)⟩]

/-- The store is of the whole buffer (checked by evaluation), so it covers it. -/
theorem cover0_5 (p0 : Vec F S4000x64 .bf16) (y : S4000x64.Idx) :
    ∃ pc ∈ ([⟨rO, p0⟩] : List (View.Piece (Elt F) S4000x64 .bf16)), y ∈ pc.1.set :=
  View.cover_of_tiled [⟨rO, p0⟩] S4000x64.size (by rfl) y

/-! ## The body's triple -/

set_option maxHeartbeats 1000000 in
/-- The kernel body on whole staging memrefs, the five inputs' at read contents `x0 … x4` and the output's at anything,
    runs to the continuation holding the inputs' as they were and the output's at `out0_5` of the inputs': the printed
    function is its skeleton, which the executor runs load by load to the one store. -/
theorem sound_kernel0 (c : Dev nD) (E : Set ℕ) (i : grid0.Coords)
    (arg1 : Memref sig .tc .vmem S4000x128 .f32) (harg1 : arg1.IsWhole) (arg2 : Memref sig .tc .vmem S4000x2 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128x64 .f32) (harg5 : arg5.IsWhole) (arg6 : Memref sig .tc .vmem S4000x64 .bf16) (harg6 : arg6.IsWhole)
    (x0 : Vec F S4000x128 .f32) (x1 : Vec F S4000x2 .f32) (x2 : Vec F S128 .f32) (x3 : Vec F S128x128 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__proj_fused_kernel i arg1 harg1 arg2 harg2 arg3 harg3 arg4 harg4 arg5 harg5 arg6 harg6) K := by
  simp only [cc0__proj_fused_kernel_eq_skeleton]; unfold cc0__proj_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the five input blocks; the invariant the class's
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.ReadoutRuns.lean ====
/- The readout region (the second pallas_call of @main), first half: its windows' blocks read off the
   arrays as the region finds them, the closed forms of the body's two conditionals over the grid, the
   staging and scratch memrefs the body is called with, the region invariant opened at the scratch, and
   the body's run in each of the three control cases.

   The body accumulates, over the 25 blocks of 4000 rows, the per-graph sums (a one-hot matrix of the
   graph ids, transposed, times the normalised and biased rows) into the output block [100,64] and the
   per-graph row counts into a scratch [100,1]. At the first point both are zero-filled before the
   accumulation; at the last point the sums are divided by max(1, counts) after it. So the body has
   three cases: the first point (A), the points 1..23 (B), the last point (C). -/
import proofs.«404963_j59098749993497_3_alg».proof.Proof.Gen.KernelIdeal.Launch
import proofs.«404963_j59098749993497_3_alg».proof.Proof.Gen.KernelIdeal.Skeleton
import proofs.«404963_j59098749993497_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows' window (0) holds its block of 4000 rows at every point, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The norm-and-graph-id window (1) holds its block of 4000 rows at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window (2), fetched at the first point only, holds the whole bias at every point: unfetched, its
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, over the grid -/

/-- The zero-fill's condition (the first `scf.if`, inside the accumulating part): the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The final division's condition (the second `scf.if`, after the accumulating part, on the word that part
    returns): the grid coordinate is 24. -/
abbrev cond1_1 (i : grid1.Coords) : Prop := (Scalar.cmpi .ne (Scalar.extui (Scalar.cmpi .eq (BitVec.ofNat 32 (i 0).val) 24#32)) 0#32) = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## No window is ever idle: every case reads the three inputs and stores into the output -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-! ## The memrefs the body is called with -/

/-- The output window's one staging buffer, through which its contents are stated. -/
abbrev VO1_3 : View sig .tc .vmem S100x64 .f32 := (Memref.whole cc1_stg3_0 : Memref sig .tc .vmem S100x64 .f32).view
/-- Each window's current staging memref at point `t`, spelled as the pipeline passes it (`bodyAt1`), and its wholeness. -/
abbrev ms1_0 (t : Fin cfg1.N) : Memref sig .tc .vmem S4000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S100x64 .f32 := win1_3.stage (cfg1.slots t 3)
abbrev hs1_3 (t : Fin cfg1.N) : (ms1_3 t).IsWhole := hstage1_3 ((cfg1.slots t 3).cast nbuf1_3)
/-- The counts' scratch: a whole scoped buffer of the kernel's own, passed beside the windows. -/
abbrev scM1_0 : Memref sig .tc .vmem S100x1 .f32 := Memref.whole cc1_scratch0
/-- The same as a view: what the scratch holds between points is stated through it. -/
abbrev VS1_0 : View sig .tc .vmem S100x1 .f32 := scM1_0.view

/-- The class's region invariant with the counts' scratch as a memref owned at some contents: the other
    pallas_call's nine staging buffers at some contents each, the scratch, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case -/

set_option maxHeartbeats 1000000 in
/-- CASE A (the first point: the zero-fill is taken, the division is not). What the body's stores leave in the
    output's staging memref and in the counts' scratch, as pieces (last first), with the proof that on whole
    memrefs — the inputs' at their contents, the output's and the scratch at anything — the body runs to the
    continuation holding the inputs' as they were and the two with their pieces written. -/
noncomputable def kernelRun1_A (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) :
    Σ' (L3 : List (View.Piece (Elt F) S100x64 .f32)), { LS0 : List (View.Piece (Elt F) S100x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__readout_kernel i arg1 harg1 arg2 harg2 arg3 harg3 arg4 harg4 arg5 harg5) K } := by
  refine ⟨?_, ?_, fun E K => ?run⟩
  case run =>
    simp only [cc1__readout_kernel_eq_skeleton]; unfold cc1__readout_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- CASE B (the points 1..23: neither conditional is taken). The output's memref holds the running sums `xo3`
    and the scratch the running counts `xs0`, both read before they are covered. -/
noncomputable def kernelRun1_B (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) :
    Σ' (L3 : List (View.Piece (Elt F) S100x64 .f32)), { LS0 : List (View.Piece (Elt F) S100x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__readout_kernel i arg1 harg1 arg2 harg2 arg3 harg3 arg4 harg4 arg5 harg5) K } := by
  refine ⟨?_, ?_, fun E K => ?run⟩
  case run =>
    simp only [cc1__readout_kernel_eq_skeleton]; unfold cc1__readout_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- CASE C (the last point: the zero-fill is not taken, the division is). As case B, and then the sums are read
    back, divided by max(1, counts), and stored over themselves. -/
noncomputable def kernelRun1_C (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) :
    Σ' (L3 : List (View.Piece (Elt F) S100x64 .f32)), { LS0 : List (View.Piece (Elt F) S100x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__readout_kernel i arg1 harg1 arg2 harg2 arg3 harg3 arg4 harg4 arg5 harg5) K } := by
  refine ⟨?_, ?_, fun E K => ?run⟩
  case run =>
    simp only [cc1__readout_kernel_eq_skeleton]; unfold cc1__readout_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Readout.lean ====
/- The readout region (the second pallas_call of @main), second half: what each control case of the body leaves in
   the output's staging buffer and in the counts' scratch, what the two hold point by point (`outsAt1`: the
   accumulation over the 25 blocks of rows), the same in terms of the body's arithmetic (the zero fills, the
   accumulating update of the per-graph sums and of the per-graph counts, the final division by max(1, counts)),
   the pipeline's proof data, and the body obligation the launch theorem asks for.

   Everything is stated at a parameter `V`, the buffer contents when the region is entered. -/
import proofs.«404963_j59098749993497_3_alg».proof.Proof.KI.ReadoutRuns
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output's staging buffer and in the counts' scratch -/

/-- Case A's stores into the output's staging memref tile its block [100,64] (each store is of the whole block), so
    they cover it. -/
theorem cover1_A_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) (y : S100x64.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S100x64.size (by sl_kernel_rfl) y

/-- What case A leaves in the output's staging buffer: its pieces read back over junk. -/
def out1_A_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) : Vec F S100x64 .f32 :=
  VO1_3.read (Elt F) (VO1_3.writes (Elt F) VO1_3.junk (kernelRun1_A c i arg1 harg1 arg2 harg2 arg3 harg3 arg4 harg4 arg5 harg5 hc0 hc1 x0 x1 x2).1)

/-- Case A's stores into the counts' scratch [100,1] cover it (each store is of the whole scratch). -/
theorem scover1_A_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) (y : S100x1.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S100x1.size (by sl_kernel_rfl) y

/-- What case A leaves in the counts' scratch: its pieces read back over junk. -/
def sout1_A_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) : Vec F S100x1 .f32 :=
  VS1_0.read (Elt F) (VS1_0.writes (Elt F) VS1_0.junk (kernelRun1_A c i arg1 harg1 arg2 harg2 arg3 harg3 arg4 harg4 arg5 harg5 hc0 hc1 x0 x1 x2).2.1)

/-- Case B's stores into the output's staging memref tile its block [100,64] (each store is of the whole block), so
    they cover it. -/
theorem cover1_B_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) (y : S100x64.Idx) :
    ∃ pc ∈ (kernelRun1_B c i arg1 harg1 arg2 harg2 arg3 harg3 arg4 harg4 arg5 harg5 hc0 hc1 x0 x1 x2 xo3 xs0).1, y ∈ pc.1.set :=
  View.cover_of_tiledL (kernelRun1_B c i arg1 harg1 arg2 harg2 arg3 harg3 arg4 harg4 arg5 harg5 hc0 hc1 x0 x1 x2 xo3 xs0).1 S100x64.size (by sl_kernel_rfl) y

/-- What case B leaves in the output's staging buffer: its pieces read back over junk. -/
def out1_B_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) : Vec F S100x64 .f32 :=
  VO1_3.read (Elt F) (VO1_3.writes (Elt F) VO1_3.junk (kernelRun1_B c i arg1 harg1 arg2 harg2 arg3 harg3 arg4 harg4 arg5 harg5 hc0 hc1 x0 x1 x2 xo3 xs0).1)

/-- Case B's stores into the counts' scratch [100,1] cover it (each store is of the whole scratch). -/
theorem scover1_B_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) (y : S100x1.Idx) :
    ∃ pc ∈ (kernelRun1_B c i arg1 harg1 arg2 harg2 arg3 harg3 arg4 harg4 arg5 harg5 hc0 hc1 x0 x1 x2 xo3 xs0).2.1, y ∈ pc.1.set :=
  View.cover_of_tiledL (kernelRun1_B c i arg1 harg1 arg2 harg2 arg3 harg3 arg4 harg4 arg5 harg5 hc0 hc1 x0 x1 x2 xo3 xs0).2.1 S100x1.size (by sl_kernel_rfl) y

/-- What case B leaves in the counts' scratch: its pieces read back over junk. -/
def sout1_B_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) : Vec F S100x1 .f32 :=
  VS1_0.read (Elt F) (VS1_0.writes (Elt F) VS1_0.junk (kernelRun1_B c i arg1 harg1 arg2 harg2 arg3 harg3 arg4 harg4 arg5 harg5 hc0 hc1 x0 x1 x2 xo3 xs0).2.1)

/-- Case C's stores into the output's staging memref tile its block [100,64] (each store is of the whole block), so
    they cover it. -/
theorem cover1_C_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) (y : S100x64.Idx) :
    ∃ pc ∈ (kernelRun1_C c i arg1 harg1 arg2 harg2 arg3 harg3 arg4 harg4 arg5 harg5 hc0 hc1 x0 x1 x2 xo3 xs0).1, y ∈ pc.1.set :=
  View.cover_of_tiledL (kernelRun1_C c i arg1 harg1 arg2 harg2 arg3 harg3 arg4 harg4 arg5 harg5 hc0 hc1 x0 x1 x2 xo3 xs0).1 S100x64.size (by sl_kernel_rfl) y

/-- What case C leaves in the output's staging buffer: its pieces read back over junk. -/
def out1_C_3 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) : Vec F S100x64 .f32 :=
  VO1_3.read (Elt F) (VO1_3.writes (Elt F) VO1_3.junk (kernelRun1_C c i arg1 harg1 arg2 harg2 arg3 harg3 arg4 harg4 arg5 harg5 hc0 hc1 x0 x1 x2 xo3 xs0).1)

/-- Case C's stores into the counts' scratch [100,1] cover it (each store is of the whole scratch). -/
theorem scover1_C_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) (y : S100x1.Idx) :
    ∃ pc ∈ (kernelRun1_C c i arg1 harg1 arg2 harg2 arg3 harg3 arg4 harg4 arg5 harg5 hc0 hc1 x0 x1 x2 xo3 xs0).2.1, y ∈ pc.1.set :=
  View.cover_of_tiledL (kernelRun1_C c i arg1 harg1 arg2 harg2 arg3 harg3 arg4 harg4 arg5 harg5 hc0 hc1 x0 x1 x2 xo3 xs0).2.1 S100x1.size (by sl_kernel_rfl) y

/-- What case C leaves in the counts' scratch: its pieces read back over junk. -/
def sout1_C_0 (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) : Vec F S100x1 .f32 :=
  VS1_0.read (Elt F) (VS1_0.writes (Elt F) VS1_0.junk (kernelRun1_C c i arg1 harg1 arg2 harg2 arg3 harg3 arg4 harg4 arg5 harg5 hc0 hc1 x0 x1 x2 xo3 xs0).2.1)

/-! ## What the output's buffer and the scratch hold after each point -/

/-- THE ACCUMULATION. What the output's staging buffer (first component: the running per-graph sums; after the last
    point, the means) and the counts' scratch (second component) hold after the body at position `n`: the case the
    closed forms select at `n`, run at the point's memrefs and input blocks, over what this leaves at `n - 1` (the
    output's one buffer is not written back before the last point; the scratch is the kernel's own). -/
def outsAt1 (c : Dev nD) : (n : ℕ) → n < cfg1.N → Vec F S100x64 .f32 × Vec F S100x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 25 = 0 then
      if h1 : (n + 1) % 25 = 24 then
        False.elim (by have hN : n + 1 < 25 := lt_of_lt_of_eq hn (show cfg1.N = 25 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- `outsAt1` at the point of case A (the first): that case's contents. -/
theorem outsAt1_A (c : Dev nD) (t : Fin cfg1.N) (h0 : t.val % 25 = 0) (h1 : ¬t.val % 25 = 24) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B (1..23): that case's contents, over what the point before left. -/
theorem outsAt1_B (c : Dev nD) (t : Fin cfg1.N) (h0 : ¬t.val % 25 = 0) (h1 : ¬t.val % 25 = 24) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the point of case C (the last): that case's contents, over what the point before left. -/
theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The same in terms of the body's arithmetic -/

theorem hz2 : (![0, 0] : Fin 2 → Nat) = fun _ => 0 := funext fun a => by fin_cases a <;> rfl

/-- The body's loads of its inputs: column 0 (the destination norms) and column 1 (the graph ids, as floats) of the
    [4000,2] block, the whole [4000,64] block of aggregated rows, the whole bias. -/
abbrev rN0 : Rect S4000x2 := Rect.unit (s := S4000x2) ![0, 0] S4000x1.size inb_S4000x2_S4000x1_0_0
abbrev rN1 : Rect S4000x2 := Rect.unit (s := S4000x2) ![0, 1] S4000x1.size inb_S4000x2_S4000x1_0_1
abbrev rX : Rect S4000x64 := Rect.unit (s := S4000x64) ![0, 0] S4000x64.size inb_S4000x64_S4000x64_0_0
abbrev rB : Rect S64 := Rect.unit (s := S64) ![0] S64.size inb_S64_S64_0

/-- CASE A, the sums: the zero fill, read back, plus this block's per-graph sums (the update's store is the last and
    covers the block). -/
theorem out1_A_3_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) :
    out1_A_3 c i arg1 harg1 arg2 harg2 arg3 harg3 arg4 harg4 arg5 harg5 hc0 hc1 x0 x1 x2 = k1_pay5 (View.ld (S := S4000x2) x1 rN0) (View.ld (S := S4000x2) x1 rN1) (View.ld (S := S4000x64) x0 rX) (View.ld (S := S64) x2 rB) (k1_pay2 (F := F)) := by
  unfold out1_A_3
  rw [View.read_writes_eq_canon _ _ _ (cover1_A_3 c i arg1 harg1 arg2 harg2 arg3 harg3 arg4 harg4 arg5 harg5 hc0 hc1 x0 x1 x2)]
  unfold kernelRun1_A
  dsimp only
  sl_unfold_words
  rw [View.canon_cons_unit_zero (S := S100x64) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- CASE A, the counts: the zero fill, read back, plus this block's per-graph row counts. -/
theorem sout1_A_0_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : cond1_0 i) (hc1 : ¬cond1_1 i)
    (x0 : Vec F S4000x64 .f32) (x1 : Vec F S4000x2 .f32) (x2 : Vec F S64 .f32) :
    sout1_A_0 c i arg1 harg1 arg2 harg2 arg3 harg3 arg4 harg4 arg5 harg5 hc0 hc1 x0 x1 x2 = k1_pay6 (View.ld (S := S4000x2) x1 rN1) (k1_pay3 (F := F)) := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  sl_unfold_words
  rw [View.canon_cons_unit_zero (S := S100x1) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- CASE B, the sums: the running sums plus this block's. -/
theorem out1_B_3_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) :
    out1_B_3 c i arg1 harg1 arg2 harg2 arg3 harg3 arg4 harg4 arg5 harg5 hc0 hc1 x0 x1 x2 xo3 xs0 = k1_pay5 (View.ld (S := S4000x2) x1 rN0) (View.ld (S := S4000x2) x1 rN1) (View.ld (S := S4000x64) x0 rX) (View.ld (S := S64) x2 rB) xo3 := by
  unfold out1_B_3
  rw [View.read_writes_eq_canon _ _ _ (cover1_B_3 c i arg1 harg1 arg2 harg2 arg3 harg3 arg4 harg4 arg5 harg5 hc0 hc1 x0 x1 x2 xo3 xs0)]
  unfold kernelRun1_B
  dsimp only
  sl_unfold_words
  rw [View.canon_unit_zero (S := S100x64) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- CASE B, the counts: the running counts plus this block's. -/
theorem sout1_B_0_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : ¬cond1_1 i)
    (x0 : Vec F S4000x64 .f32) (x1 : Vec F S4000x2 .f32) (x2 : Vec F S64 .f32) (xo3 : Vec F S100x64 .f32) (xs0 : Vec F S100x1 .f32) :
    sout1_B_0 c i arg1 harg1 arg2 harg2 arg3 harg3 arg4 harg4 arg5 harg5 hc0 hc1 x0 x1 x2 xo3 xs0 = k1_pay6 (View.ld (S := S4000x2) x1 rN1) xs0 := by
  unfold sout1_B_0
  rw [View.read_writes_eq_canon _ _ _ (scover1_B_0 c i arg1 harg1 arg2 harg2 arg3 harg3 arg4 harg4 arg5 harg5 hc0 hc1 x0 x1 x2 xo3 xs0)]
  unfold kernelRun1_B
  dsimp only
  sl_unfold_words
  rw [View.canon_unit_zero (S := S100x1) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- CASE C, the output: the updated sums, read back, divided by max(1, the updated counts, read back). -/
theorem out1_C_3_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) :
    out1_C_3 c i arg1 harg1 arg2 harg2 arg3 harg3 arg4 harg4 arg5 harg5 hc0 hc1 x0 x1 x2 xo3 xs0 = k1_pay1 (k1_pay5 (View.ld (S := S4000x2) x1 rN0) (View.ld (S := S4000x2) x1 rN1) (View.ld (S := S4000x64) x0 rX) (View.ld (S := S64) x2 rB) xo3) (k1_pay6 (View.ld (S := S4000x2) x1 rN1) xs0) := by
  unfold out1_C_3
  rw [View.read_writes_eq_canon _ _ _ (cover1_C_3 c i arg1 harg1 arg2 harg2 arg3 harg3 arg4 harg4 arg5 harg5 hc0 hc1 x0 x1 x2 xo3 xs0)]
  unfold kernelRun1_C
  dsimp only
  sl_unfold_words
  rw [View.canon_cons_unit_zero (S := S100x64) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- CASE C, the counts: as in case B. -/
theorem sout1_C_0_eq (c : Dev nD) (i : grid1.Coords) (arg1 : Memref sig .tc .vmem S4000x64 .f32) (harg1 : arg1.IsWhole) (arg2 : Memref sig .tc .vmem S4000x2 .f32) (harg2 : arg2.IsWhole) (arg3 : Memref sig .tc .vmem S64 .f32) (harg3 : arg3.IsWhole) (arg4 : Memref sig .tc .vmem S100x64 .f32) (harg4 : arg4.IsWhole) (arg5 : Memref sig .tc .vmem S100x1 .f32) (harg5 : arg5.IsWhole) (hc0 : ¬cond1_0 i) (hc1 : cond1_1 i)
    (x0 : Vec F S4000x64 .f32) (x1 : Vec F S4000x2 .f32) (x2 : Vec F S64 .f32) (xo3 : Vec F S100x64 .f32) (xs0 : Vec F S100x1 .f32) :
    sout1_C_0 c i arg1 harg1 arg2 harg2 arg3 harg3 arg4 harg4 arg5 harg5 hc0 hc1 x0 x1 x2 xo3 xs0 = k1_pay6 (View.ld (S := S4000x2) x1 rN1) xs0 := by
  unfold sout1_C_0
  rw [View.read_writes_eq_canon _ _ _ (scover1_C_0 c i arg1 harg1 arg2 harg2 arg3 harg3 arg4 harg4 arg5 harg5 hc0 hc1 x0 x1 x2 xo3 xs0)]
  unfold kernelRun1_C
  dsimp only
  sl_unfold_words
  rw [View.canon_unit_zero (S := S100x1) hz2]
  simp only [View.readAt_eq_ld, harg1.read_unread, harg2.read_unread, harg3.read_unread, harg4.read_unread, harg5.read_unread, View.readCov_unit_zero (S := S100x64) _ hz2, View.readCov_unit_zero (S := S100x1) _ hz2, View.ld_unit_zero (S := S100x64) hz2, View.ld_unit_zero (S := S100x1) hz2]
  try rfl

/-- After the first point: the zero fills plus the first block's sums and counts. -/
theorem outsAt1_first (c : Dev nD) (h : 0 < cfg1.N) :
    outsAt1 V c 0 h = (k1_pay5 (View.ld (S := S4000x2) (iblk1 V c 1 ⟨0, h⟩) rN0) (View.ld (S := S4000x2) (iblk1 V c 1 ⟨0, h⟩) rN1) (View.ld (S := S4000x64) (iblk1 V c 0 ⟨0, h⟩) rX) (View.ld (S := S64) (iblk1 V c 2 ⟨0, h⟩) rB) (k1_pay2 (F := F)), k1_pay6 (View.ld (S := S4000x2) (iblk1 V c 1 ⟨0, h⟩) rN1) (k1_pay3 (F := F))) := by
  have e := outsAt1_A V c ⟨0, h⟩ rfl (by dsimp only; omega)
  rw [out1_A_3_eq, sout1_A_0_eq] at e
  exact e

/-- After a point 1..23: what the point before left plus this block's sums and counts. -/
theorem outsAt1_mid (c : Dev nD) (n : ℕ) (hn : n + 1 < cfg1.N) (hl : n + 1 ≠ 24) :
    outsAt1 V c (n + 1) hn = (k1_pay5 (View.ld (S := S4000x2) (iblk1 V c 1 ⟨n + 1, hn⟩) rN0) (View.ld (S := S4000x2) (iblk1 V c 1 ⟨n + 1, hn⟩) rN1) (View.ld (S := S4000x64) (iblk1 V c 0 ⟨n + 1, hn⟩) rX) (View.ld (S := S64) (iblk1 V c 2 ⟨n + 1, hn⟩) rB) (outsAt1 V c n (Nat.lt_of_succ_lt hn)).1, k1_pay6 (View.ld (S := S4000x2) (iblk1 V c 1 ⟨n + 1, hn⟩) rN1) (outsAt1 V c n (Nat.lt_of_succ_lt hn)).2) := by
  have hN : n + 1 < 25 := lt_of_lt_of_eq hn (show cfg1.N = 25 from N_1)
  have h0 : ¬(⟨n + 1, hn⟩ : Fin cfg1.N).val % 25 = 0 := by dsimp only; omega
  have h1 : ¬(⟨n + 1, hn⟩ : Fin cfg1.N).val % 25 = 24 := by dsimp only; omega
  have e := outsAt1_B V c ⟨n + 1, hn⟩ h0 h1
  rw [out1_B_3_eq, sout1_B_0_eq] at e
  exact e

/-- After the last point: the updated sums divided by max(1, the updated counts); the counts as updated. -/
theorem outsAt1_last (c : Dev nD) (hn : 24 < cfg1.N) :
    outsAt1 V c 24 hn = (k1_pay1 (k1_pay5 (View.ld (S := S4000x2) (iblk1 V c 1 ⟨24, hn⟩) rN0) (View.ld (S := S4000x2) (iblk1 V c 1 ⟨24, hn⟩) rN1) (View.ld (S := S4000x64) (iblk1 V c 0 ⟨24, hn⟩) rX) (View.ld (S := S64) (iblk1 V c 2 ⟨24, hn⟩) rB) (outsAt1 V c 23 (Nat.lt_of_succ_lt hn)).1) (k1_pay6 (View.ld (S := S4000x2) (iblk1 V c 1 ⟨24, hn⟩) rN1) (outsAt1 V c 23 (Nat.lt_of_succ_lt hn)).2), k1_pay6 (View.ld (S := S4000x2) (iblk1 V c 1 ⟨24, hn⟩) rN1) (outsAt1 V c 23 (Nat.lt_of_succ_lt hn)).2) := by
  have e := outsAt1_C V c ⟨24, hn⟩ (by dsimp only; omega) rfl
  rw [out1_C_3_eq, sout1_C_0_eq] at e
  exact e

/-! ## The region invariant, with the counts' scratch at named contents -/

/-- What the region invariant holds beside the counts' scratch: the other pallas_call's nine staging buffers at some
    contents each, and the generator register at some state. No case of the body touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

/-- The class's invariant hands out the scratch at some contents, beside the rest; -/
theorem PhiA1_open (c : Dev nD) :
    (Pipeline.ΦA spec1 c : sProp 𝕄) ⊢ iprop((∃ d, owns (c : Thread nD τ) scM1_0 fullShare d) ∗ others1 (F := F) c) := by
  rw [PhiA1_eq]; unfold others1
  iintro ⟨⟨H0, H1, H2, H3, H4, H5, H6, H7, H8, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hg

/-- and takes it back at any contents. -/
theorem PhiA1_close (c : Dev nD) :
    iprop((∃ d, owns (c : Thread nD τ) scM1_0 fullShare d) ∗ others1 (F := F) c) ⊢ (Pipeline.ΦA spec1 c : sProp 𝕄) := by
  rw [PhiA1_eq]; unfold others1
  iintro ⟨HS, H0, H1, H2, H3, H4, H5, H6, H7, H8, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- The region invariant before position `n`: before the first point the class's (the scratch at anything);
    afterwards the scratch at the counts the point before left (`outsAt1`'s second component), beside the rest. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c)

theorem PhiS1_zero (c : Dev nD) (n : ℕ) (h : n ≤ cfg1.N) (hz : n = 0) : PhiS1 V c n h = Pipeline.ΦA spec1 c := by
  subst hz; rfl

/-- After point `n` (before point `n + 1`): the scratch at that point's counts. -/
theorem PhiS1_succ (c : Dev nD) (n : ℕ) (hn : n < cfg1.N) :
    PhiS1 V c (n + 1) hn = iprop(owns (c : Thread nD τ) scM1_0 fullShare ((outsAt1 V c n hn).2) ∗ others1 (F := F) c) := rfl

/-- Before a point that is not the first: the scratch at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c) := by
  cases n with
  | zero => exact absurd rfl hz
  | succ n => rfl

/-! ## The pipeline's proof data -/

/-- The proof data of the readout pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point that is not the first the output's staging buffer holds what the body left at the point before: the
    buffer is written back at the last point only (`flush1_3`), and the window is live and uncut. -/
theorem before1_3_pos (c : Dev nD) (t : Fin cfg1.N) (h0 : ¬t.val % 25 = 0) (d) :
    (dat1 V c).before 3 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' memrefs hold their blocks; the closed forms say which case the point is in; at
    a point that is not the first the output's memref holds the sums and the invariant hands over the scratch at the
    counts the point before left, at the first point both are at anything; so the case's run applies, and the
    invariant takes the scratch back at this point's counts. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 25 := lt_of_lt_of_eq t.isLt (show cfg1.N = 25 from N_1)
  by_cases h0 : t.val % 25 = 0
  · by_cases h1 : t.val % 25 = 24
    · exfalso; omega
    · rw [outsAt1_A V c t h0 h1]
      unfold out1_A_3 sout1_A_0; (try dsimp only)
      have hz : t.val = 0 := by omega
      rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_open (F := F) c) $$ HΦ
      icases HΦ' with ⟨HS0, HR⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR]
      · isplitl [HS0]
        · unfold owns; iexists _; isplitr
          swap; · iexact HS0
          ipureintro; exact View.read_writes_of_cover _ _ _ _ _ (scover1_A_0 _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 _ _ _ _ _ _ _ _ _ _ _ _ _ _ _ _ _)
  · have hz : t.val ≠ 0 := fun e => h0 (by rw [e])
    by_cases h1 : t.val % 25 = 24
    · rw [outsAt1_C V c t h0 h1]
      simp only [before1_3_pos V c t h0]
      unfold out1_C_3 sout1_C_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, ⟨%es0, HS0⟩⟩
      isplitl [HS0 HR]
      · isplitl [HS0]
        · unfold owns; iexists _; isplitr
          swap; · iexact HS0
          ipureintro; exact View.read_writes_of_cover _ _ _ _ _ (scover1_C_0 _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 _ _ _ _ _ _ _ _ _ _ _ _ _ _ _ _ _ _ _)
    · rw [outsAt1_B V c t h0 h1]
      simp only [before1_3_pos V c t h0]
      unfold out1_B_3 sout1_B_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, ⟨%es0, HS0⟩⟩
      isplitl [HS0 HR]
      · isplitl [HS0]
        · unfold owns; iexists _; isplitr
          swap; · iexact HS0
          ipureintro; exact View.read_writes_of_cover _ _ _ _ _ (scover1_B_0 _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named counts are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_close (F := F) c)
  iintro ⟨HS0, HR⟩
  isplitl [HS0]
  · iexists _; iexact HS0
  iexact HR

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Run.lean ====
/-
  The whole run of the program on a core, segment by segment.

  Between two items of the program a core holds every unscoped buffer at known contents: the launch memory, then what
  each stretch of host operations computes from the contents before it, then — after a kernel region — the same
  contents with the region's arrays replaced by what its write-backs leave (an input array as it was entered, the
  output array at the blocks the grid points wrote back, in order). Each kernel region is entered with its arrays split
  out of those buffers and left with them put back; beside the buffers a core carries only its generator register,
  at some state, and nothing owed. Run from the launch to the return, this gives every weakly fair execution a final
  memory that holds each unscoped buffer at the last of these contents.
-/
import proofs.«404963_j59098749993497_3_alg».proof.Proof.Gen.KernelIdeal.Regions
import proofs.«404963_j59098749993497_3_alg».proof.Proof.KI.Proj
import proofs.«404963_j59098749993497_3_alg».proof.Proof.KI.Readout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two kernel regions -/

/-- A core's buffers when the first region is entered: the launch memory after the five stretches of host
    operations before it, read at the core's own references. -/
abbrev U5 : (c : Dev nD) → (b : Ref sig .tc) → Buf (Elt F) ((c : Thread nD τ).loc b) := fun c b => V5 m c b

/-- At the first region's exit: its arrays at what the pipeline leaves, every other buffer as entered. -/
def X6 (c : Dev nD) : Valuation τ sig (Elt F) :=
  Pipeline.withArrays spec0 c (V5 m c) fun w => (dat0 (U5 m) c).arrAt w cfg0.N
theorem X6_arr (c : Dev nD) (w : Fin cfg0.W) :
    X6 m c (Proc.devRef .tc (Pipeline.arrRef spec0 w)) = (dat0 (U5 m) c).arrAt w cfg0.N := by
  unfold X6; exact Pipeline.withArrays_arr spec0 launch0.win.arr_inj c _ _ w
theorem X6_of_ne (c : Dev nD) (b : Ref sig .tc) (hb : ∀ w, Pipeline.arrRef spec0 w ≠ b) :
    X6 m c (Proc.devRef .tc b) = V5 m c (Proc.devRef .tc b) := by
  unfold X6; exact Pipeline.withArrays_of_ne spec0 c _ _ b hb
/-- The same read at the core's own references. -/
abbrev U6 : (c : Dev nD) → (b : Ref sig .tc) → Buf (Elt F) ((c : Thread nD τ).loc b) := fun c b => X6 m c b
theorem hF0 (c : Dev nD) (w : Fin cfg0.W) : (dat0 (U5 m) c).arrAt w cfg0.N = U6 m c (Pipeline.arrRef spec0 w) :=
  (X6_arr m c w).symm
theorem hrest0 (c : Dev nD) : ∀ b, b ∉ Finset.univ.image (Pipeline.arrRef spec0) → U6 m c b = U5 m c b :=
  fun b hb => X6_of_ne m c b fun w e => hb (Finset.mem_image.mpr ⟨w, Finset.mem_univ _, e⟩)

/-- When the second region is entered: after the stretch of host operations between the two regions. -/
abbrev W7 : Dev nD → Valuation τ sig (Elt F) := fun c => StableHlo.after hostOps1 (X6 m c)
abbrev U7 : (c : Dev nD) → (b : Ref sig .tc) → Buf (Elt F) ((c : Thread nD τ).loc b) := fun c b => W7 m c b

/-- At the second region's exit, which is the program's end. -/
def X8 (c : Dev nD) : Valuation τ sig (Elt F) :=
  Pipeline.withArrays spec1 c (W7 m c) fun w => (dat1 (U7 m) c).arrAt w cfg1.N
theorem X8_arr (c : Dev nD) (w : Fin cfg1.W) :
    X8 m c (Proc.devRef .tc (Pipeline.arrRef spec1 w)) = (dat1 (U7 m) c).arrAt w cfg1.N := by
  unfold X8; exact Pipeline.withArrays_arr spec1 launch1.win.arr_inj c _ _ w
theorem X8_of_ne (c : Dev nD) (b : Ref sig .tc) (hb : ∀ w, Pipeline.arrRef spec1 w ≠ b) :
    X8 m c (Proc.devRef .tc b) = W7 m c (Proc.devRef .tc b) := by
  unfold X8; exact Pipeline.withArrays_of_ne spec1 c _ _ b hb
abbrev U8 : (c : Dev nD) → (b : Ref sig .tc) → Buf (Elt F) ((c : Thread nD τ).loc b) := fun c b => X8 m c b
theorem hF1 (c : Dev nD) (w : Fin cfg1.W) : (dat1 (U7 m) c).arrAt w cfg1.N = U8 m c (Pipeline.arrRef spec1 w) :=
  (X8_arr m c w).symm
theorem hrest1 (c : Dev nD) : ∀ b, b ∉ Finset.univ.image (Pipeline.arrRef spec1) → U8 m c b = U7 m c b :=
  fun b hb => X8_of_ne m c b fun w e => hb (Finset.mem_image.mpr ⟨w, Finset.mem_univ _, e⟩)

/-! ## The proof data of the two pipelines and what rides beside the buffers -/

/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (U5 m) c
  | ⟨1, _⟩ => fun c => dat1 (U7 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register at some state, and owes nothing. -/
abbrev R (c : Dev nD) : sProp 𝕄 := iprop((∃ r, prngReg c r) ∗ ∃ W, owes (c : Thread nD τ) (0 : CellTallies nD τ sig Unit) W)
/-- A stretch of host operations as a segment, from the contents before it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debt: every unscoped buffer at the final contents, the generator register at some state. -/
abbrev Tₙ (c : Dev nD) : sProp 𝕄 := iprop(StableHlo.held (c : Thread nD τ) (Pipeline.ucRefs τ sig) (X8 m c) ∗ ∃ r, prngReg c r)

/-! ## The two regions as segments -/

set_option backward.isDefEq.respectTransparency.types false in
/-- The projection region: entered from every unscoped buffer at the contents after the host operations before it,
    left with its output array at the blocks written back. Its arrays are split out of the buffers and put back; the
    generator register passes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The readout region: entered from the contents after the host operations between the regions, left at the
    program's final contents. Its invariant starts as the scoped buffers at anything with the generator register, and
    ends giving them back, the carried counts forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (U7 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (U7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's eight items in order: five stretches of host operations, the projection region, one more stretch,
    the readout region. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (X6 m)),
    .region (reg1 m) ]

/-- The program is the run of its segments. -/
theorem main_run (c : Dev nD) : main (F := F) c = Pipeline.Seg.run (segs m) := (main_chain c).trans (by chain_rfl)

/-- An unscoped reference of a core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with every counter at zero, every weakly fair execution of the program terminates
    without a fault, and the final memory holds every unscoped buffer of every core at the final contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h c => h c)

end Cert.KernelIdeal.Hand

end
-- ==== Proof.KI.Frame.lean ====
/-
  What the run leaves in the arguments and in the result.

  No stretch of host operations writes an argument array, and a kernel region changes only its output array: an
  argument a region stages through an input window is handed back as it was entered, and one it does not stage
  bypasses it. So, reading the final contents back through the regions and the stretches, every argument holds its
  launch contents. The result array is the readout region's output: it ends at the blocks that region wrote back.
-/
import proofs.«404963_j59098749993497_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer none of the five first stretches writes holds its launch contents when the first region is entered. -/
theorem V5_launch (c : Dev nD) (r : Ref sig .tc) (h1 : r ∉ hostOps0_W) (h2 : r ∉ hostOps0_1_W) (h3 : r ∉ hostOps0_2_W)
    (h4 : r ∉ hostOps0_3_W) (h5 : r ∉ hostOps0_4_W) : V5 m c (Proc.devRef .tc r) = m ((c : Thread nD τ).loc r) :=
  (V5_of m c r h5).trans <| (V4_of m c r h4).trans <| (V3_of m c r h3).trans <| (V2_of m c r h2).trans <| (V1_of m c r h1).trans rfl

/-- A buffer the stretch between the regions does not write is, at the second region's entry, as the first region left it. -/
theorem W7_keep (c : Dev nD) (r : Ref sig .tc) (h : r ∉ hostOps1_W) : W7 m c (Proc.devRef .tc r) = X6 m c (Proc.devRef .tc r) :=
  StableHlo.after_of_writes_sub hostOps1 _ hostOps1_writes h

/-- A buffer that is no array of either region and that no stretch writes ends as launched. -/
theorem X8_bypass (c : Dev nD) (r : Ref sig .tc) (h8 : ∀ w, Pipeline.arrRef spec1 w ≠ r) (h7 : r ∉ hostOps1_W)
    (h6 : ∀ w, Pipeline.arrRef spec0 w ≠ r) (h1 : r ∉ hostOps0_W) (h2 : r ∉ hostOps0_1_W) (h3 : r ∉ hostOps0_2_W)
    (h4 : r ∉ hostOps0_3_W) (h5 : r ∉ hostOps0_4_W) : X8 m c (Proc.devRef .tc r) = m ((c : Thread nD τ).loc r) :=
  (X8_of_ne m c r h8).trans <| (W7_keep m c r h7).trans <| (X6_of_ne m c r h6).trans (V5_launch m c r h1 h2 h3 h4 h5)

theorem X8_main_arg0 (c : Dev nD) : X8 m c (Proc.devRef .tc main_arg0) = m ((c : Thread nD τ).loc main_arg0) :=
  X8_bypass m c main_arg0 (by decide) (by decide) (by decide) (by decide) (by decide) (by decide) (by decide) (by decide)
theorem X8_main_arg5 (c : Dev nD) : X8 m c (Proc.devRef .tc main_arg5) = m ((c : Thread nD τ).loc main_arg5) :=
  X8_bypass m c main_arg5 (by decide) (by decide) (by decide) (by decide) (by decide) (by decide) (by decide) (by decide)
theorem X8_main_arg6 (c : Dev nD) : X8 m c (Proc.devRef .tc main_arg6) = m ((c : Thread nD τ).loc main_arg6) :=
  X8_bypass m c main_arg6 (by decide) (by decide) (by decide) (by decide) (by decide) (by decide) (by decide) (by decide)
theorem X8_main_arg7 (c : Dev nD) : X8 m c (Proc.devRef .tc main_arg7) = m ((c : Thread nD τ).loc main_arg7) :=
  X8_bypass m c main_arg7 (by decide) (by decide) (by decide) (by decide) (by decide) (by decide) (by decide) (by decide)

/-- An input array of the first region is handed back as entered. -/
theorem X6_input (c : Dev nD) (w : Fin cfg0.W) (hin : (cfg0.win w).isOut = false) :
    X6 m c (Proc.devRef .tc (Pipeline.arrRef spec0 w)) = V5 m c (Proc.devRef .tc (Pipeline.arrRef spec0 w)) :=
  (X6_arr m c w).trans (((dat0 (U5 m) c).arrAt_in w hin _).trans (A_eq0 (U5 m) c w))

/-- An input array of the second region is handed back as entered. -/
theorem X8_input (c : Dev nD) (w : Fin cfg1.W) (hin : (cfg1.win w).isOut = false) :
    X8 m c (Proc.devRef .tc (Pipeline.arrRef spec1 w)) = W7 m c (Proc.devRef .tc (Pipeline.arrRef spec1 w)) :=
  (X8_arr m c w).trans (((dat1 (U7 m) c).arrAt_in w hin _).trans (A_eq1 (U7 m) c w))

/-- The three weight and bias arrays the projection region stages. -/
theorem X8_main_arg2 (c : Dev nD) : X8 m c (Proc.devRef .tc main_arg2) = m ((c : Thread nD τ).loc main_arg2) :=
  (X8_of_ne m c main_arg2 (by decide)).trans <| (W7_keep m c main_arg2 (by decide)).trans <|
    (X6_input m c 2 rfl).trans (V5_launch m c main_arg2 (by decide) (by decide) (by decide) (by decide) (by decide))
theorem X8_main_arg1 (c : Dev nD) : X8 m c (Proc.devRef .tc main_arg1) = m ((c : Thread nD τ).loc main_arg1) :=
  (X8_of_ne m c main_arg1 (by decide)).trans <| (W7_keep m c main_arg1 (by decide)).trans <|
    (X6_input m c 3 rfl).trans (V5_launch m c main_arg1 (by decide) (by decide) (by decide) (by decide) (by decide))
theorem X8_main_arg3 (c : Dev nD) : X8 m c (Proc.devRef .tc main_arg3) = m ((c : Thread nD τ).loc main_arg3) :=
  (X8_of_ne m c main_arg3 (by decide)).trans <| (W7_keep m c main_arg3 (by decide)).trans <|
    (X6_input m c 4 rfl).trans (V5_launch m c main_arg3 (by decide) (by decide) (by decide) (by decide) (by decide))
/-- The bias array the readout region stages. -/
theorem X8_main_arg4 (c : Dev nD) : X8 m c (Proc.devRef .tc main_arg4) = m ((c : Thread nD τ).loc main_arg4) :=
  (X8_input m c 2 rfl).trans <| (W7_keep m c main_arg4 (by decide)).trans <|
    (X6_of_ne m c main_arg4 (by decide)).trans (V5_launch m c main_arg4 (by decide) (by decide) (by decide) (by decide) (by decide))

/-- The result array ends at what the readout region's write-backs leave. -/
theorem X8_result (c : Dev nD) : X8 m c (Proc.devRef .tc main_v45) = (dat1 (U7 m) c).arrAt 3 cfg1.N := X8_arr m c 3

/-- THE RUN, read at the result and the arguments: every weakly fair execution terminates without a fault, the result
    array ends at the readout region's written-back blocks and every argument array at its launch contents. -/
theorem run_result : θ_run defs (onTc (τ := τ) (main (F := F))) ⟨m, fun _ => 0, ρ⟩ (fun r => ∀ c : Dev nD,
      r.2.mem ((c.tc : Thread nD τ).loc main_v45) = (dat1 (U7 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v45 (by decide))).trans (X8_result m c),
     (h c _ (mem_uc main_arg0 (by decide))).trans (X8_main_arg0 m c),
     (h c _ (mem_uc main_arg1 (by decide))).trans (X8_main_arg1 m c),
     (h c _ (mem_uc main_arg2 (by decide))).trans (X8_main_arg2 m c),
     (h c _ (mem_uc main_arg3 (by decide))).trans (X8_main_arg3 m c),
     (h c _ (mem_uc main_arg4 (by decide))).trans (X8_main_arg4 m c),
     (h c _ (mem_uc main_arg5 (by decide))).trans (X8_main_arg5 m c),
     (h c _ (mem_uc main_arg6 (by decide))).trans (X8_main_arg6 m c),
     (h c _ (mem_uc main_arg7 (by decide))).trans (X8_main_arg7 m c)⟩) (run_all m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result m ρ)

end Cert.KernelIdeal.Hand

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.ProjPayload.lean ====
/-
  The projection kernel's arithmetic, read at an index, at the ideal values.
  One grid point of the projection takes a block x of 4000 rows of 128 features, the two columns s and t of per-row
  scale factors, the weight matrices W1 [128, 128] and W2 [128, 64] and the bias row b [128], and writes
      out[p, q] = (∑ k, max((∑ k', x[p, k'] · W1[k', k]) · s[p] + b[k], 0) · W2[k, q]) · t[p].
  The steps: a column [a, 1] broadcast along its rows reads the column's entry of that row; each of the two products
  into a zero accumulator reads as the plain matrix product's sum; the hidden layer (first product, row scaling, bias,
  cut at zero) at (p, k); then the payload (second product, row scaling) at (p, q). The changes of format on the way are
  the identity at the ideal values, and a cast to the same shape is the identity.
-/
import proofs.«404963_j59098749993497_3_alg».proof.Proof.Gen.KernelIdeal.Skeleton
import proofs.«404963_j59098749993497_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjPayload

open Cert.KernelIdeal Cert.KernelIdeal.Gen Idealize.ShloMosaic Idealize.ShloMosaic.ValueIdx

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product, [4000, 128] × [128, 128] into a zero accumulator, read at (p, k). -/
theorem prod1_apply (l : FVec Ideal S4000x128 .bf16) (r : FVec Ideal S128x128 .bf16) (p : Fin 4000) (k : Fin 128) :
    matmul dot_S4000x128_S128x128_S4000x128_1_0_0_1_n_n none l r (constant (F := Ideal) S4000x128 .f32 0x00000000#32) (ix2 p k)
      = ∑ k' : Fin 128, l (ix2 p k') * r (ix2 k' k) :=
  LibPlainDot.matmul_zero_apply (M := 4000) (K := 128) (N := 128) dot_S4000x128_S128x128_S4000x128_1_0_0_1_n_n_wf none l r p k

/-- The second product, [4000, 128] × [128, 64] into a zero accumulator, read at (p, q). -/
theorem prod2_apply (l : FVec Ideal S4000x128 .bf16) (r : FVec Ideal S128x64 .bf16) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) :=
  LibPlainDot.matmul_zero_apply (M := 4000) (K := 128) (N := 64) dot_S4000x128_S128x64_S4000x64_1_0_0_1_n_n_wf none l r p q

/-- THE HIDDEN LAYER of the projection: the rows x times the first weight matrix, each row scaled by its entry of the
    column s, the bias row b added, and the negative part cut off. -/
def hidden (x : Vec Ideal S4000x128 .f32) (s : Vec Ideal S4000x1 .f32) (w : Vec Ideal S128x128 .f32) (b : Vec Ideal S128 .f32) :
    FVec Ideal S4000x128 .f32 :=
  maximumf
    (addf
      (mulf
        (matmul dot_S4000x128_S128x128_S4000x128_1_0_0_1_n_n none
          (truncf .bf16 (shapeCast S4000x128 x shapeCasts_S4000x128_S4000x128) bitsLt_bf16_f32)
          (truncf .bf16 w bitsLt_bf16_f32) (constant (F := Ideal) S4000x128 .f32 0x00000000#32))
        (broadcastTo S4000x128 (shapeCast S4000x1 s shapeCasts_S4000x1_S4000x1) broadcasts_S4000x1_S4000x128))
      (broadcastTo S4000x128 (shapeCast S1x128 b shapeCasts_S128_S1x128) broadcasts_S1x128_S4000x128))
    (broadcast S4000x128 (Scalar.ofBits (F := Ideal) .f32 0x00000000#32))

/-- The hidden layer at (p, k): max((∑ k', x[p, k'] · w[k', k]) · s[p] + b[k], 0). -/
theorem hidden_apply (x : Vec Ideal S4000x128 .f32) (s : Vec Ideal S4000x1 .f32) (w : Vec Ideal S128x128 .f32) (b : Vec Ideal S128 .f32)
    (p : Fin 4000) (k : Fin 128) :
    hidden x s w b (ix2 p k)
      = max ((∑ k' : Fin 128, x (ix2 p k') * w (ix2 k' k)) * s (ix2 p (0 : Fin 1)) + b (ix1 k)) 0 := by
  have e1 := prod1_apply (truncf .bf16 (shapeCast S4000x128 x shapeCasts_S4000x128_S4000x128) bitsLt_bf16_f32)
    (truncf .bf16 w bitsLt_bf16_f32) p k
  have e2 : broadcastTo S4000x128 (shapeCast S4000x1 s shapeCasts_S4000x1_S4000x1) broadcasts_S4000x1_S4000x128 (ix2 p k)
      = s (ix2 p (0 : Fin 1)) :=
    (broadcastTo_a1_ab_apply _ _ p k).trans (congrFun (shapeCast_self s _) _)
  have e3 : broadcastTo S4000x128 (shapeCast S1x128 b shapeCasts_S128_S1x128) broadcasts_S1x128_S4000x128 (ix2 p k)
      = b (ix1 k) :=
    (broadcastTo_1b_ab_apply _ _ p k).trans (shapeCast_a_1a_apply b _ 0 k)
  have e4 : ∀ k' : Fin 128,
      (truncf .bf16 (shapeCast S4000x128 x shapeCasts_S4000x128_S4000x128) bitsLt_bf16_f32 : FVec Ideal S4000x128 .bf16) (ix2 p k')
        = x (ix2 p k') :=
    fun k' => congrFun (shapeCast_self x _) _
  unfold hidden
  rw [maximumf_apply, addf_apply, mulf_apply, broadcast_apply, e1, e2, e3]
  refine congrArg₂ max (congrArg₂ (· + ·) (congrArg₂ (· * ·) (Finset.sum_congr rfl fun k' _ => ?_) rfl) rfl) Ideal.ofBits_zero_f32
  exact congrArg₂ (· * ·) (e4 k') rfl

/-- The projection's payload is the hidden layer times the second weight matrix, each row scaled by its entry of the
    column t (the formats' narrowing is the identity at the ideal values). -/
theorem k0_pay1_eq (v0 : Vec Ideal S4000x128 .f32) (v2 v4 : Vec Ideal S4000x1 .f32) (v7 : Vec Ideal S128x128 .f32)
    (v12 : Vec Ideal S128 .f32) (v19 : Vec Ideal S128x64 .f32) :
    k0_pay1 (F := Ideal) v0 v2 v4 v7 v12 v19
      = truncf .bf16
          (mulf
            (matmul dot_S4000x128_S128x64_S4000x64_1_0_0_1_n_n none
              (truncf .bf16 (hidden v0 v4 v7 v12) bitsLt_bf16_f32) (truncf .bf16 v19 bitsLt_bf16_f32)
              (constant (F := Ideal) S4000x64 .f32 0x00000000#32))
            (broadcastTo S4000x64 (shapeCast S4000x1 v2 shapeCasts_S4000x1_S4000x1) broadcasts_S4000x1_S4000x64))
          bitsLt_bf16_f32 := rfl

/-- THE PROJECTION'S PAYLOAD AT (p, q):
    (∑ k, max((∑ k', v0[p, k'] · v7[k', k]) · v4[p] + v12[k], 0) · v19[k, q]) · v2[p]. -/
theorem k0_pay1_apply (v0 : Vec Ideal S4000x128 .f32) (v2 v4 : Vec Ideal S4000x1 .f32) (v7 : Vec Ideal S128x128 .f32)
    (v12 : Vec Ideal S128 .f32) (v19 : Vec Ideal S128x64 .f32) (p : Fin 4000) (q : Fin 64) :
    k0_pay1 (F := Ideal) v0 v2 v4 v7 v12 v19 (ix2 p q)
      = (∑ k : Fin 128, max ((∑ k' : Fin 128, v0 (ix2 p k') * v7 (ix2 k' k)) * v4 (ix2 p (0 : Fin 1)) + v12 (ix1 k)) 0
            * v19 (ix2 k q)) * v2 (ix2 p (0 : Fin 1)) := by
  have e1 := prod2_apply (truncf .bf16 (hidden v0 v4 v7 v12) bitsLt_bf16_f32) (truncf .bf16 v19 bitsLt_bf16_f32) p q
  have e2 : broadcastTo S4000x64 (shapeCast S4000x1 v2 shapeCasts_S4000x1_S4000x1) broadcasts_S4000x1_S4000x64 (ix2 p q)
      = v2 (ix2 p (0 : Fin 1)) :=
    (broadcastTo_a1_ab_apply _ _ p q).trans (congrFun (shapeCast_self v2 _) _)
  rw [k0_pay1_eq, truncf_apply, mulf_apply, e1, e2]
  refine congrArg₂ (· * ·) (Finset.sum_congr rfl fun k _ => ?_) rfl
  exact congrArg₂ (· * ·) (hidden_apply v0 v4 v7 v12 p k) rfl

end Cert.KernelIdeal.ProjPayload

end
-- ==== Proof.Spec.lean ====
/-
  The mathematics of the two programs, over the extended reals and literal sizes.

  A graph has 100000 nodes and 1600000 edges. Edge `e` reads node `srow e` (its source, as the row a gather takes) and
  adds into node `n` exactly when `dstI e = n` (its destination, read as a signed integer; an edge whose destination is
  no node adds nowhere). Node `r` belongs to graph `g` exactly when `gidI r = g`. One graph-convolution layer scales each
  node's features by a per-node weight, multiplies by a weight matrix, sums over incoming edges, scales by a second
  per-node weight and adds a bias. The reference multiplies first and sums over edges second; the kernel sums over
  edges first and multiplies second in layer one, and scales the rows after the product instead of before it in layer
  two. The readout averages the node outputs of each graph; the kernel does it with a 0/1 membership matrix, node
  tile by node tile.
-/
import Idealize.ShloMosaic.PureOps.Ideal

noncomputable section

namespace Cert.Spec

open Idealize.ShloMosaic

/-- The float word of 1.0, read at the ideal instance. -/
def one : EReal := Ideal.ofBits .f32 0x3F800000#32

/-- A matrix product, entry by entry. -/
def mm {N K C : Nat} (A : Fin N → Fin K → EReal) (B : Fin K → Fin C → EReal) (i : Fin N) (j : Fin C) : EReal :=
  ∑ k : Fin K, A i k * B k j

/-- How many edges have endpoint `n`, each counted as the word 1.0: the degree. -/
def deg (endI : Fin 1600000 → Int) (n : Fin 100000) : EReal :=
  ∑ _e ∈ Finset.univ.filter (fun e : Fin 1600000 => endI e = (n.val : Int)), one

/-- The degree normaliser: the reciprocal square root of the degree, the degree raised to at least 1.0. -/
def nrm (endI : Fin 1600000 → Int) (n : Fin 100000) : EReal := Ideal.rsqrt (max one (deg endI n))

section Graph
variable (srow : Fin 1600000 → Fin 100000) (dstI : Fin 1600000 → Int) (gidI : Fin 100000 → Int)

/-- The sum over the edges into node `n` of the source node's row of `M`. -/
def agg {C : Nat} (M : Fin 100000 → Fin C → EReal) (n : Fin 100000) (j : Fin C) : EReal :=
  ∑ e ∈ Finset.univ.filter (fun e : Fin 1600000 => dstI e = (n.val : Int)), M (srow e) j

variable (x : Fin 100000 → Fin 128 → EReal) (W1 : Fin 128 → Fin 128 → EReal) (b1 : Fin 128 → EReal)
  (W2 : Fin 128 → Fin 64 → EReal) (b2 : Fin 64 → EReal) (sn dn : Fin 100000 → EReal)

/-! ### The reference: multiply, then sum over edges -/

/-- Layer one of the reference, after the rectifier. -/
def h1Ref (n : Fin 100000) (j : Fin 128) : EReal :=
  max (agg srow dstI (mm (fun r k => x r k * sn r) W1) n j * dn n + b1 j) 0

/-- Layer two of the reference: the node outputs. -/
def outRef (n : Fin 100000) (j : Fin 64) : EReal :=
  agg srow dstI (mm (fun r k => h1Ref srow dstI x W1 b1 sn dn r k * sn r) W2) n j * dn n + b2 j

/-- The reference's readout: per graph, the sum of its nodes' outputs over the number of its nodes (at least 1.0). -/
def resultRef (g : Fin 100) (j : Fin 64) : EReal :=
  Ideal.div (∑ r ∈ Finset.univ.filter (fun r : Fin 100000 => gidI r = (g.val : Int)), outRef srow dstI x W1 b1 W2 b2 sn dn r j)
    (max one (∑ _r ∈ Finset.univ.filter (fun r : Fin 100000 => gidI r = (g.val : Int)), one))

/-! ### The kernel: sum over edges, then multiply -/

/-- The first edge sum of the kernel: the scaled input features summed over incoming edges. -/
def agg0Ker (n : Fin 100000) (k : Fin 128) : EReal := agg srow dstI (fun r k => x r k * sn r) n k

/-- Layer one of the kernel, after the rectifier, from its first edge sum `a0`. -/
def h1Ker (a0 : Fin 100000 → Fin 128 → EReal) (n : Fin 100000) (j : Fin 128) : EReal :=
  max (mm a0 W1 n j * dn n + b1 j) 0

/-- What the projection kernel writes, from the first edge sum `a0`: layer one, then layer two's product with its rows
    scaled afterwards. -/
def hw2Ker (a0 : Fin 100000 → Fin 128 → EReal) (n : Fin 100000) (j : Fin 64) : EReal :=
  mm (h1Ker W1 b1 dn a0) W2 n j * sn n

/-- The node outputs of the kernel from its second edge sum `a2`. -/
def outKer (a2 : Fin 100000 → Fin 64 → EReal) (n : Fin 100000) (j : Fin 64) : EReal := a2 n j * dn n + b2 j

/-- Membership of node `r` in graph `g`, as 1 or 0. -/
def member (r : Fin 100000) (g : Fin 100) : EReal := if gidI r = (g.val : Int) then 1 else 0

/-- Row `q` of node tile `t` (tiles of 4000 rows). -/
def tileRow (t : Fin 25) (q : Fin 4000) : Fin 100000 := ⟨4000 * t.val + q.val, by omega⟩

/-- What the readout kernel leaves, from the node outputs `o`: tile by tile the membership-weighted sums, divided
    by the membership counts raised to at least 1.0. -/
def readoutKer (o : Fin 100000 → Fin 64 → EReal) (g : Fin 100) (j : Fin 64) : EReal :=
  Ideal.div (∑ t : Fin 25, ∑ q : Fin 4000, member gidI (tileRow t q) g * o (tileRow t q) j)
    (max one (∑ t : Fin 25, ∑ q : Fin 4000, member gidI (tileRow t q) g))

/-- The kernel's result, end to end. -/
def resultKer (g : Fin 100) (j : Fin 64) : EReal :=
  readoutKer gidI
    (outKer b2 dn (agg srow dstI (hw2Ker W1 b1 W2 sn dn (agg0Ker srow dstI x sn)))) g j

end Graph

end Cert.Spec

end
-- ==== Proof.Args.lean ====
/-
  Reading the programs' argument arrays as the matrices, vectors and integer lists the mathematics speaks of.

  A float array of two axes is a matrix and one of one axis a vector, entry by entry. An array of 32-bit words is
  read as signed integers. The row a gather takes for an edge is its source word, with `100000` added when it is
  negative (the wrap-around of a negative index), read signed and clamped into the rows `0 … 99999`.
-/
import Idealize.ShloMosaic.PureOps.Ideal
import Idealize.ShloMosaic.Lib.ValueIdx

noncomputable section

namespace Cert.Args

open Idealize.ShloMosaic Idealize.ShloMosaic.ValueIdx

/-- A two-axis array read as a matrix. -/
def mat {a b : Nat} (X : (⟨2, ![a, b]⟩ : Shape).Idx → EReal) : Fin a → Fin b → EReal := fun i j => X (ix2 i j)

/-- A one-axis array read as a vector. -/
def vec {a : Nat} (X : (⟨1, ![a]⟩ : Shape).Idx → EReal) : Fin a → EReal := fun i => X (ix1 i)

/-- A one-axis array of words read as signed integers. -/
def sInt {a : Nat} (X : (⟨1, ![a]⟩ : Shape).Idx → BitVec 32) : Fin a → Int := fun e => (X (ix1 e)).toInt

/-- A source word with `100000` added when it is negative. -/
def wrapIdx (s : BitVec 32) : BitVec 32 := Scalar.select (IntOp.cmpi .slt s 0#32) (IntOp.addi s 100000#32) s

/-- The row of a 100000-row array that a gather takes for the source word `s`. -/
def wrapRow (s : BitVec 32) : Fin 100000 := ⟨min (wrapIdx s).toInt.toNat (100000 - 1), by omega⟩

/-- The gathered row of each edge. -/
def srow (src : (⟨1, ![1600000]⟩ : Shape).Idx → BitVec 32) : Fin 1600000 → Fin 100000 := fun e => wrapRow (src (ix1 e))

end Cert.Args

end
-- ==== Proof.ProjValue.lean ====
/- The projection region's output array after its 25 points, read at an index, at the ideal values: every row n of the
   [100000, 64] array holds
       (∑ k, max((∑ k', a[n, k'] · W1[k', k]) · nrm[n, 1] + b[k], 0) · W2[k, q]) · nrm[n, 0]
   of the arrays the region finds. The steps: the body's one store at (p, q) as that sum of its five input blocks
   (`out0_5_apply`: the payload at an index, the loads read where their rectangles say); each input block an array read
   at the block's offset (`idx_facts0`: the index maps decided over the grid — the row blocks move with the point, the
   bias and the weights stay); so what point t writes back is block t of ONE function of the arrays (`flushed5_eq`);
   the 25 row blocks cover the array (`cover5`: row n is in block n / 4000); hence the array (`final0`). -/
import proofs.«404963_j59098749993497_3_alg».proof.Proof.KI.Proj
import proofs.«404963_j59098749993497_3_alg».proof.Proof.ProjPayload
import proofs.«404963_j59098749993497_3_alg».proof.Proof.Spec
import proofs.«404963_j59098749993497_3_alg».proof.Proof.Args
import Idealize.ShloMosaic.Lib.Pipeline.Value
import Idealize.ShloMosaic.Lib.ValueIdx
import Idealize.ShloMosaic.Lib.Tactic

set_option maxRecDepth 16384

noncomputable section

open scoped BigOperators

namespace Cert.KernelIdeal.ProjValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- THE BODY'S STORE AT (p, q), from the five input blocks: the payload at that index, each load read where its rectangle
    says (the whole-block loads read the block; the two column loads read columns 0 and 1 of the norms' block). -/
theorem out0_5_apply (x0 : Vec Ideal S4000x128 .f32) (x1 : Vec Ideal S4000x2 .f32) (x2 : Vec Ideal S128 .f32)
    (x3 : Vec Ideal S128x128 .f32) (x4 : Vec Ideal S128x64 .f32) (p : Fin 4000) (q : Fin 64) :
    out0_5 x0 x1 x2 x3 x4 (ix2 p q)
      = (∑ k : Fin 128, max ((∑ k' : Fin 128, x0 (ix2 p k') * x3 (ix2 k' k)) * x1 (ix2 p (1 : Fin 2)) + x2 (ix1 k)) 0
            * x4 (ix2 k q)) * x1 (ix2 p (0 : Fin 2)) := by
  unfold out0_5
  rw [View.canon_unit_zero hz2]
  refine (ProjPayload.k0_pay1_apply _ _ _ _ _ _ p q).trans ?_
  rw [View.ld_unit_zero (S := S4000x128) hz2, View.ld_unit_zero (S := S128x128) hz2, View.ld_unit_zero (S := S128x64) hz2,
    View.ld_unit_zero (S := S128) hz1]
  have e0 : View.ld x1 rSn (ix2 p (0 : Fin 1)) = x1 (ix2 p (0 : Fin 2)) :=
    congrArg x1 (funext fun a => Fin.ext (by
      match a with
      | ⟨0, _⟩ => show 0 + 1 * p.val = p.val; omega
      | ⟨1, _⟩ => rfl))
  have e1 : View.ld x1 rDn (ix2 p (0 : Fin 1)) = x1 (ix2 p (1 : Fin 2)) :=
    congrArg x1 (funext fun a => Fin.ext (by
      match a with
      | ⟨0, _⟩ => show 0 + 1 * p.val = p.val; omega
      | ⟨1, _⟩ => rfl))
  rw [e0, e1]

/-! ## The index maps, decided over the grid -/

/-- The row blocks (features, norms, output) sit at the point's own row block; the bias and the two weight matrices are
    their whole arrays at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-! ## Each input block, an array read at the block's offset -/

/-- The features' block at point t is rows 4000 t … 4000 t + 3999 of the aggregated features. -/
theorem iblk0_0_apply (c : Dev nD) (t : Fin cfg0.N) (p : Fin 4000) (k : Fin 128) (n : Fin 100000) (hn : n.val = 4000 * t.val + p.val) :
    (iblk0 V c 0 t : Vec Ideal S4000x128 .f32) (ix2 p k) = (V c main_v32 : S100000x128.Idx → EReal) (ix2 n k) := by
  obtain ⟨e0, e1, -⟩ := idx_facts0 t
  show V c main_v32 (((cfg0.win 0).blk t).view.emb (ix2 p k)) = V c main_v32 (ix2 n k)
  congr 1
  funext a; apply Fin.ext
  match a with
  | ⟨0, _⟩ => show win0_0.index t (0 : Fin 2) * 4000 + 1 * p.val = n.val; rw [e0, hn]; omega
  | ⟨1, _⟩ => show win0_0.index t (1 : Fin 2) * 128 + 1 * k.val = k.val; rw [e1]; omega

/-- The norms' block at point t is the same rows of the two norm columns. -/
theorem iblk0_1_apply (c : Dev nD) (t : Fin cfg0.N) (p : Fin 4000) (k : Fin 2) (n : Fin 100000) (hn : n.val = 4000 * t.val + p.val) :
    (iblk0 V c 1 t : Vec Ideal S4000x2 .f32) (ix2 p k) = (V c main_v13 : S100000x2.Idx → EReal) (ix2 n k) := by
  obtain ⟨-, -, e0, e1, -⟩ := idx_facts0 t
  show V c main_v13 (((cfg0.win 1).blk t).view.emb (ix2 p k)) = V c main_v13 (ix2 n k)
  congr 1
  funext a; apply Fin.ext
  match a with
  | ⟨0, _⟩ => show win0_1.index t (0 : Fin 2) * 4000 + 1 * p.val = n.val; rw [e0, hn]; omega
  | ⟨1, _⟩ => show win0_1.index t (1 : Fin 2) * 2 + 1 * k.val = k.val; rw [e1]; omega

/-- The bias block is the bias, at every point. -/
theorem iblk0_2_apply (c : Dev nD) (t : Fin cfg0.N) (k : Fin 128) :
    (iblk0 V c 2 t : Vec Ideal S128 .f32) (ix1 k) = (V c main_arg2 : S128.Idx → EReal) (ix1 k) := by
  obtain ⟨-, -, -, -, e0, -⟩ := idx_facts0 t
  show V c main_arg2 (((cfg0.win 2).blk t).view.emb (ix1 k)) = V c main_arg2 (ix1 k)
  congr 1
  funext a; apply Fin.ext
  match a with
  | ⟨0, _⟩ => show win0_2.index t (0 : Fin 1) * 128 + 1 * k.val = k.val; rw [e0]; omega

/-- The first weights' block is the first weight matrix, at every point. -/
theorem iblk0_3_apply (c : Dev nD) (t : Fin cfg0.N) (k' : Fin 128) (k : Fin 128) :
    (iblk0 V c 3 t : Vec Ideal S128x128 .f32) (ix2 k' k) = (V c main_arg1 : S128x128.Idx → EReal) (ix2 k' k) := by
  obtain ⟨-, -, -, -, -, e0, e1, -⟩ := idx_facts0 t
  show V c main_arg1 (((cfg0.win 3).blk t).view.emb (ix2 k' k)) = V c main_arg1 (ix2 k' k)
  congr 1
  funext a; apply Fin.ext
  match a with
  | ⟨0, _⟩ => show win0_3.index t (0 : Fin 2) * 128 + 1 * k'.val = k'.val; rw [e0]; omega
  | ⟨1, _⟩ => show win0_3.index t (1 : Fin 2) * 128 + 1 * k.val = k.val; rw [e1]; omega

/-- The second weights' block is the second weight matrix, at every point. -/
theorem iblk0_4_apply (c : Dev nD) (t : Fin cfg0.N) (k : Fin 128) (q : Fin 64) :
    (iblk0 V c 4 t : Vec Ideal S128x64 .f32) (ix2 k q) = (V c main_arg3 : S128x64.Idx → EReal) (ix2 k q) := by
  obtain ⟨-, -, -, -, -, -, -, e0, e1, -⟩ := idx_facts0 t
  show V c main_arg3 (((cfg0.win 4).blk t).view.emb (ix2 k q)) = V c main_arg3 (ix2 k q)
  congr 1
  funext a; apply Fin.ext
  match a with
  | ⟨0, _⟩ => show win0_4.index t (0 : Fin 2) * 128 + 1 * k.val = k.val; rw [e0]; omega
  | ⟨1, _⟩ => show win0_4.index t (1 : Fin 2) * 64 + 1 * q.val = q.val; rw [e1]; omega

/-! ## The output array as one function of the arrays the region finds -/

/-- Row n, column q of the projection, from the five arrays: the row of aggregated features through the first weights,
    scaled by the row's second norm, the bias added, cut at zero, through the second weights, scaled by the row's first
    norm. -/
def projAt (A : S100000x128.Idx → EReal) (Nr : S100000x2.Idx → EReal) (B : S128.Idx → EReal) (W1 : S128x128.Idx → EReal)
    (W2 : S128x64.Idx → EReal) (n : Fin 100000) (q : Fin 64) : EReal :=
  (∑ k : Fin 128, max ((∑ k' : Fin 128, A (ix2 n k') * W1 (ix2 k' k)) * Nr (ix2 n (1 : Fin 2)) + B (ix1 k)) 0 * W2 (ix2 k q))
    * Nr (ix2 n (0 : Fin 2))

/-- The whole [100000, 64] array of it, of the arrays the region finds. -/
def projArr (c : Dev nD) : S100000x64.Idx → EReal := fun i =>
  projAt (V c main_v32) (V c main_v13) (V c main_arg2) (V c main_arg1) (V c main_arg3) (i 0) (i 1)

/-- What the body stores at (p, q) at point t is the projection of row 4000 t + p at column q. -/
theorem out_point (c : Dev nD) (t : Fin cfg0.N) (p : Fin 4000) (q : Fin 64) (n : Fin 100000) (hn : n.val = 4000 * t.val + p.val) :
    (out0_5 (iblk0 V c 0 t) (iblk0 V c 1 t) (iblk0 V c 2 t) (iblk0 V c 3 t) (iblk0 V c 4 t) : Vec Ideal S4000x64 .bf16) (ix2 p q)
      = projAt (V c main_v32) (V c main_v13) (V c main_arg2) (V c main_arg1) (V c main_arg3) n q := by
  rw [out0_5_apply]
  unfold projAt
  exact congrArg₂ (· * ·) (Finset.sum_congr rfl fun k _ => congrArg₂ (· * ·)
    (congrArg₂ max (congrArg₂ (· + ·) (congrArg₂ (· * ·)
      (Finset.sum_congr rfl fun k' _ => congrArg₂ (· * ·) (iblk0_0_apply V c t p k' n hn) (iblk0_3_apply V c t k' k))
      (iblk0_1_apply V c t p 1 n hn)) (iblk0_2_apply V c t k)) rfl)
    (iblk0_4_apply V c t k q)) (iblk0_1_apply V c t p 0 n hn)

/-! ## What each point writes back, and the array after the run -/

/-- WHAT POINT t WRITES BACK is block t of the projection array. -/
theorem flushed5_eq (c : Dev nD) (t : Fin cfg0.N) :
    (dat0 V c).flushed 5 t = ((cfg0.win 5).blk t).view.read (Elt Ideal) (projArr V c) := by
  show (cfg0.win 5).cut (grid0.coords t) ((dat0 V c).after 5 t) = _
  rw [after0_5]
  funext j
  obtain ⟨p, q, rfl⟩ : ∃ (p : Fin 4000) (q : Fin 64), j = ix2 p q := ⟨j 0, j 1, eq_ix2 j⟩
  obtain ⟨-, -, -, -, -, -, -, -, -, e0, e1⟩ := idx_facts0 t
  have ht : t.val < 25 := Nat.lt_of_lt_of_eq t.isLt (show cfg0.N = 25 from N_0)
  have hp : p.val < 4000 := p.isLt
  show out0_5 (iblk0 V c 0 t) (iblk0 V c 1 t) (iblk0 V c 2 t) (iblk0 V c 3 t) (iblk0 V c 4 t) (ix2 p q)
    = projArr V c (((cfg0.win 5).blk t).view.emb (ix2 p q))
  have hemb : ((cfg0.win 5).blk t).view.emb (ix2 p q) = (ix2 (⟨4000 * t.val + p.val, by omega⟩ : Fin 100000) q : S100000x64.Idx) := by
    funext a; apply Fin.ext
    match a with
    | ⟨0, _⟩ => show win0_5.index t (0 : Fin 2) * 4000 + 1 * p.val = 4000 * t.val + p.val; rw [e0]; omega
    | ⟨1, _⟩ => show win0_5.index t (1 : Fin 2) * 64 + 1 * q.val = q.val; rw [e1]; omega
  rw [hemb]
  exact out_point V c t p q _ rfl

/-- An index of the array is in point t's block iff each coordinate is in the block's range on its axis. -/
theorem mem_blk5 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v33).slice (win0_5.rect t)).set ↔ _
  rw [View.set_slice_whole, Rect.mem_set_unit]
  exact Iff.rfl

/-- The 25 row blocks cover the array: row n is in the block of point n / 4000, which writes back. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, e0, e1⟩ := idx_facts0 t
  refine ⟨t, flush0_5 t, ?_⟩
  rw [mem_blk5]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 64 ≤ (i 1).val ∧ (i 1).val < win0_5.index t (1 : Fin 2) * 64 + 64
    rw [e1]; omega

/-- THE ARRAY after the region's 25 points: the projection array. -/
theorem arr5_eq (c : Dev nD) : (dat0 V c).arrAt 5 cfg0.N = projArr V c :=
  (dat0 V c).arrAt_eq_of_cover 5 (projArr V c) (fun t _ => flushed5_eq V c t) cover5

/-- Read at row n, column q. -/
theorem final0 (c : Dev nD) (n : Fin 100000) (q : Fin 64) :
    ((dat0 (F := Ideal) V c).arrAt 5 cfg0.N : S100000x64.Idx → EReal) (ix2 n q)
      = projAt (V c main_v32) (V c main_v13) (V c main_arg2) (V c main_arg1) (V c main_arg3) n q := by
  rw [arr5_eq]; rfl

/-- The same function in the words of the shared mathematics: layer one from the first edge sum, then layer two's
    product with its rows scaled afterwards. -/
def projSpec (A : S100000x128.Idx → EReal) (Nr : S100000x2.Idx → EReal) (B : S128.Idx → EReal) (W1 : S128x128.Idx → EReal)
    (W2 : S128x64.Idx → EReal) (n : Fin 100000) (q : Fin 64) : EReal :=
  Cert.Spec.hw2Ker (Cert.Args.mat W1) (Cert.Args.vec B) (Cert.Args.mat W2) (fun r => Nr (ix2 r (0 : Fin 2)))
    (fun r => Nr (ix2 r (1 : Fin 2))) (Cert.Args.mat A) n q

theorem projAt_eq_projSpec (A : S100000x128.Idx → EReal) (Nr : S100000x2.Idx → EReal) (B : S128.Idx → EReal)
    (W1 : S128x128.Idx → EReal) (W2 : S128x64.Idx → EReal) (n : Fin 100000) (q : Fin 64) :
    projAt A Nr B W1 W2 n q = projSpec A Nr B W1 W2 n q := rfl

theorem final0_spec (c : Dev nD) (n : Fin 100000) (q : Fin 64) :
    ((dat0 (F := Ideal) V c).arrAt 5 cfg0.N : S100000x64.Idx → EReal) (ix2 n q)
      = projSpec (V c main_v32) (V c main_v13) (V c main_arg2) (V c main_arg1) (V c main_arg3) n q :=
  (final0 V c n q).trans (projAt_eq_projSpec _ _ _ _ _ n q)

end Cert.KernelIdeal.ProjValue

end
-- ==== Proof.ReadoutArr.lean ====
/- The readout's result array after the run. The output window of the second pallas_call has ONE block, the whole
   [100,64] array (its index map is constant), and is written back at the last grid point only; so the array ends
   holding what the body left in the staging buffer at point 24: the per-graph sums divided by max(1, counts). -/
import proofs.«404963_j59098749993497_3_alg».proof.Proof.KI.Readout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

-- the TensorCore's buffer contents when the region is entered
variable (V : (c : Dev nD) → (b : Ref sig .tc) → Buf (Elt F) ((c : Thread nD τ).loc b))

/-- The grid has a point 24 (its last). -/
theorem lt24 : 24 < cfg1.N := by rw [show cfg1.N = 25 from N_1]; decide

/-- What the body leaves in the output's staging buffer at the last point, as contents of the result array (the
    window's one block IS the array). -/
abbrev readout1 (c : Dev nD) : Buf (Elt F) ((c : Thread nD τ).loc main_v45) := (outsAt1 V c 24 lt24).1

/-- The output window's index map is constant: block (0, 0) at every point. -/
theorem idx_facts1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The one write-back, at the last point, writes `readout1`: block (0, 0) of the [100,64] array is the array. -/
theorem flushed1_3_eq (c : Dev nD) (t : Fin cfg1.N) (hf : (cfg1.win 3).flush t = true) :
    (dat1 V c).flushed 3 t = ((cfg1.win 3).blk t).view.read (Elt F) (readout1 V c) := by
  have hN : cfg1.N = 25 := N_1
  have h24 : t.val = 24 := by have := (flush1_3 t).mp hf; have := t.isLt; omega
  obtain rfl : t = ⟨24, lt24⟩ := Fin.ext h24
  show (cfg1.win 3).cut (grid1.coords ⟨24, lt24⟩) ((dat1 V c).after 3 ⟨24, lt24⟩) = _
  rw [after1_3]
  obtain ⟨e0, e1⟩ := idx_facts1_3 ⟨24, lt24⟩
  funext j
  have hj : ((cfg1.win 3).blk ⟨24, lt24⟩).view.emb j = j := by
    funext a; apply Fin.ext
    match a with
    | ⟨0, _⟩ => show win1_3.index ⟨24, lt24⟩ (0 : Fin 2) * 100 + 1 * (j 0).val = (j 0).val; omega
    | ⟨1, _⟩ => show win1_3.index ⟨24, lt24⟩ (1 : Fin 2) * 64 + 1 * (j 1).val = (j 1).val; omega
  show (outsAt1 V c 24 lt24).1 j = readout1 V c (((cfg1.win 3).blk ⟨24, lt24⟩).view.emb j)
  rw [hj]

/-- An index of the array is in point `t`'s block iff each coordinate is in the block's range on its axis. -/
theorem mem_blk1_3 (t : Fin cfg1.N) (i : S100x64.Idx) :
    i ∈ ((cfg1.win 3).blk t).view.set ↔ ∀ a : Fin 2, win1_3.index t a * S100x64.size a ≤ (i a).val ∧ (i a).val < win1_3.index t a * S100x64.size a + S100x64.size a := by
  show i ∈ ((View.whole main_v45).slice (win1_3.rect t)).set ↔ _
  rw [View.set_slice_whole, Rect.mem_set_unit]
  exact Iff.rfl

/-- Every index of the array lies in the block the last point writes back. -/
theorem covered1_3 (i : S100x64.Idx) :
    ∃ t : Fin cfg1.N, (cfg1.win 3).flush t = true ∧ i ∈ ((cfg1.win 3).blk t).view.set := by
  refine ⟨⟨24, lt24⟩, (flush1_3 _).mpr rfl, ?_⟩
  rw [mem_blk1_3]
  obtain ⟨e0, e1⟩ := idx_facts1_3 ⟨24, lt24⟩
  have hi0 : (i 0).val < 100 := (i 0).isLt
  have hi1 : (i 1).val < 64 := (i 1).isLt
  intro a
  match a with
  | ⟨0, _⟩ => show win1_3.index ⟨24, lt24⟩ (0 : Fin 2) * 100 ≤ (i 0).val ∧ (i 0).val < win1_3.index ⟨24, lt24⟩ (0 : Fin 2) * 100 + 100; omega
  | ⟨1, _⟩ => show win1_3.index ⟨24, lt24⟩ (1 : Fin 2) * 64 ≤ (i 1).val ∧ (i 1).val < win1_3.index ⟨24, lt24⟩ (1 : Fin 2) * 64 + 64; omega

/-- THE RESULT ARRAY after the run: what the last point left in the output's staging buffer. -/
theorem arrAt1_3 (c : Dev nD) : (dat1 V c).arrAt 3 cfg1.N = readout1 V c :=
  (dat1 V c).arrAt_eq_of_cover 3 (readout1 V c) (flushed1_3_eq V c) fun i => covered1_3 i

/-- The same, index by index. -/
theorem arrAt1_3_apply (c : Dev nD) (i : S100x64.Idx) :
    (dat1 V c).arrAt 3 cfg1.N i = (outsAt1 V c 24 lt24).1 i :=
  congrFun (arrAt1_3 V c) i

end Cert.KernelIdeal.Hand

end
-- ==== Proof.ReadoutPayload.lean ====
/-
  The readout kernel's arithmetic read at an index, at the extended reals.

  A tile of 4000 nodes carries, per node, its output row (the edge sum scaled by the destination weight, plus the bias)
  and its graph id stored as a float. The graph id is truncated to a signed integer and compared with the column
  counter: that gives a 4000 × 100 membership matrix of 0s and 1s. The transpose of the membership matrix times the node
  outputs is added into the 100 × 64 readout sums; the membership matrix's column sums are added into the 100 counts.
  At the last tile each readout sum is divided by its count raised to at least 1.0. Each of these values is read here at
  one index as a closed expression in the entries it was computed from. Three facts are general and stated at any
  extents: a column broadcast along the rows, a vector cast to a one-column matrix, and the product that contracts the
  first axis of both operands.
-/
import proofs.«404963_j59098749993497_3_alg».proof.Proof.Gen.KernelIdeal.Skeleton
import proofs.«404963_j59098749993497_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ReadoutPayload

open Cert.KernelIdeal Cert.KernelIdeal.Gen Idealize.ShloMosaic Idealize.ShloMosaic.ValueIdx

/-! ## A signed integer made a real and truncated back -/

/-- A signed 32-bit integer lies in the range the truncation clamps to, and a real that is an integer is its own
    floor and ceiling: the truncation returns the integer, whose word is the word we started from. -/
theorem fptosi_sitofp (b : BitVec 32) : Ideal.fptosi 32 (((b.toInt : ℝ) : EReal)) = b := by
  have hlo : -(2 ^ 31 : Int) ≤ b.toInt := by have := BitVec.le_toInt b; simpa using this
  have hhi : b.toInt < (2 ^ 31 : Int) := by have := BitVec.toInt_lt (x := b); simpa using this
  unfold Ideal.fptosi
  rw [Ideal.toIntClamped_coe, Int.floor_intCast, Int.ceil_intCast, ite_self]
  have e : max (-((2 ^ (32 - 1) : Nat) : Int)) (min (((2 ^ (32 - 1) : Nat) : Int) - 1) b.toInt) = b.toInt := by
    have h1 : ((2 ^ (32 - 1) : Nat) : Int) = 2 ^ 31 := by norm_num
    rw [h1, min_eq_right (by omega), max_eq_right hlo]
  rw [e, BitVec.ofInt_toInt]

/-! ## Two layout operations with a unit column, at any extents -/

section Layout
variable {α : Type}

/-- An [a, 1] column broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A product contracting the FIRST axis of both operands

The dimension numbers "contract the left operand's axis 0 with the right operand's axis 0, no batch axis" describe the
product of the transpose of a [K, M] matrix with a [K, N] matrix. At the ideal instance its entry (p, q) is the sum
over k of l[k, p] * r[k, q]. Stated for any extents and any proof of well-formedness. -/

/-- The dimension numbers of the product [K, M]ᵀ × [K, N] → [M, N], over any proof that they are well formed. -/
abbrev colDims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section ColDot
variable {M K N : Nat} (wf : DotDims.WF ⟨2, ![K, M]⟩ ⟨2, ![K, N]⟩ ⟨2, ![M, N]⟩ [0] [0] [1] [1] [] [])

/-- The left operand's row is the contraction index. -/
theorem lhs_row (j : (⟨2, ![M, N]⟩ : Shape).Idx) (k : (colDims M K N wf).contr.Idx) :
    ((colDims M K N wf).lhsIdx j k 0).val = (k ⟨0, Nat.one_pos⟩).val :=
  (colDims M K N wf).lhsIdx_val_of_single rfl j k

/-- The left operand's column is the result's row: axis 1 of the left operand is its one free axis. -/
theorem lhs_col (j : (⟨2, ![M, N]⟩ : Shape).Idx) (k : (colDims M K N wf).contr.Idx) :
    ((colDims M K N wf).lhsIdx j k 1).val = (j 0).val := by
  unfold DotDims.lhsIdx
  rw [dif_neg (show ¬(1 : Fin (⟨2, ![K, M]⟩ : Shape).rank) ∈ (colDims M K N wf).lhsBatch from List.not_mem_nil),
    dif_pos (show (1 : Fin (⟨2, ![K, M]⟩ : Shape).rank) ∈ (colDims M K N wf).lhsNonContracting from List.mem_singleton.mpr rfl)]
  rfl

/-- The right operand's row is the contraction index. -/
theorem rhs_row (j : (⟨2, ![M, N]⟩ : Shape).Idx) (k : (colDims M K N wf).contr.Idx) :
    ((colDims M K N wf).rhsIdx j k 0).val = (k ⟨0, Nat.one_pos⟩).val :=
  (colDims M K N wf).rhsIdx_val_of_single rfl j k

/-- The right operand's column is the result's column: axis 1 of the right operand is its one free axis. -/
theorem rhs_col (j : (⟨2, ![M, N]⟩ : Shape).Idx) (k : (colDims M K N wf).contr.Idx) :
    ((colDims M K N wf).rhsIdx j k 1).val = (j 1).val := by
  unfold DotDims.rhsIdx
  rw [dif_neg (show ¬(1 : Fin (⟨2, ![K, N]⟩ : Shape).rank) ∈ (colDims M K N wf).rhsBatch from List.not_mem_nil),
    dif_pos (show (1 : Fin (⟨2, ![K, N]⟩ : Shape).rank) ∈ (colDims M K N wf).rhsNonContracting from List.mem_singleton.mpr rfl)]
  rfl

/-- The contraction's sum over the one contracted axis, re-indexed by its coordinate k : Fin K: the operands are read
    at (k, p) and (k, q). -/
theorem sum_contr {β : Type} [AddCommMonoid β] (f : (⟨2, ![K, M]⟩ : Shape).Idx → (⟨2, ![K, N]⟩ : Shape).Idx → β)
    (p : Fin M) (q : Fin N) :
    ∑ k : (colDims M K N wf).contr.Idx, f ((colDims M K N wf).lhsIdx (ix2 p q) k) ((colDims M K N wf).rhsIdx (ix2 p q) k)
      = ∑ k : Fin K, f (ix2 k p) (ix2 k q) := by
  rw [← Equiv.sum_comp (contrEquiv1 (colDims M K N wf) K rfl rfl).symm]
  refine Finset.sum_congr rfl fun k _ => ?_
  have hk := contrEquiv1_symm_val (colDims M K N wf) K rfl rfl k
  have el : (colDims M K N wf).lhsIdx (ix2 p q) ((contrEquiv1 (colDims M K N wf) K rfl rfl).symm k) = ix2 k p :=
    funext fun a => Fin.ext (by
      match a with
      | ⟨0, _⟩ => exact (lhs_row wf _ _).trans hk
      | ⟨1, _⟩ => exact lhs_col wf _ _)
  have er : (colDims M K N wf).rhsIdx (ix2 p q) ((contrEquiv1 (colDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The vector unit's product into a zero accumulator, at the ideal instance, read at (p, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (colDims M K N wf) prec l r (constant ⟨2, ![M, N]⟩ .f32 0x00000000#32) (ix2 p q)
      = ∑ k : Fin K, l (ix2 k p) * r (ix2 k q) := by
  rw [Ideal.matmul_constant_zero_apply]
  exact sum_contr wf (fun a b => l a * r b) p q

end ColDot

/-! ## A sum over the rows, a column count, and the 0/1 word of an integer comparison -/

/-- A sum over axis 0 of an [a, b] array with the zero word as initial value reads, at column g, the sum over the
    rows r of the entry (r, g). -/
theorem multiReduction_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (g : Fin b) :
    multiReduction .add [0] ⟨1, ![b]⟩ src 0x00000000#32 h hφ hacc (ix1 g) = ∑ r : Fin a, src (ix2 r g) := by
  refine (Ideal.multiReduction_add_single src 0x00000000#32 h hφ hacc (ix1 g)).trans ?_
  refine Finset.sum_congr rfl fun r _ => congrArg src ?_
  funext ax
  match ax with
  | ⟨0, _⟩ => rfl
  | ⟨1, _⟩ => rfl

/-- The counter along axis 1 of an [a, b] array reads, at (r, g), the word of g. -/
theorem iota_axis1_apply {a b : ℕ} (h : (⟨2, ![a, b]⟩ : Shape).Iotas .tc 32 [1]) (r : Fin a) (g : Fin b) :
    iota .tc ⟨2, ![a, b]⟩ 32 [1] h (ix2 r g) = BitVec.ofNat 32 g.val := by
  show BitVec.ofNat 32 (0 * b + g.val) = _
  rw [Nat.zero_mul, Nat.zero_add]

/-- The one-bit answer of an integer equality test, widened to 32 bits and read as a signed integer, is the real 1
    where the words are equal and 0 where they differ. -/
theorem sitofp_extui_cmpi_eq (x y : BitVec 32) :
    FloatOps.sitofp (F := Ideal) .f32 ((IntOp.cmpi .eq x y).setWidth 32) = if x = y then (1 : EReal) else 0 := by
  show (((((BitVec.ofBool (x == y)).setWidth 32).toInt : ℝ)) : EReal) = _
  by_cases h : x = y
  · have hb : (x == y) = true := by rw [h]; exact beq_self_eq_true y
    have h1 : ((BitVec.ofBool true).setWidth 32).toInt = 1 := by decide
    rw [if_pos h, hb, h1]; norm_num
  · have hb : (x == y) = false := by simpa using h
    have h0 : ((BitVec.ofBool false).setWidth 32).toInt = 0 := by decide
    rw [if_neg h, hb, h0]; norm_num

/-- An integer comparison of two vectors reads, at an index, the comparison of the two entries. -/
theorem cmpi_apply {s : Shape} {w : Nat} (p : CmpIPredicate) (x y : IVec s w) (i : s.Idx) :
    cmpi p x y i = IntOp.cmpi p (x i) (y i) := rfl

/-- The truncation of a vector to signed integers reads, at an index, the truncation of the entry. -/
theorem fptosi_apply {s : Shape} {φ : FTy} (w : Nat) (x : FVec Ideal s φ) (i : s.Idx) :
    fptosi w x i = Ideal.fptosi w (x i) := rfl

/-! ## The readout kernel's payloads at an index -/

/-- The membership matrix of a tile: row r, column g holds 1 exactly when the graph id of row r, truncated to a signed
    integer, is the word of g. -/
theorem k1_pay4_apply (v5 : Vec Ideal S4000x1 .f32) (r : Fin 4000) (g : Fin 100) :
    k1_pay4 (F := Ideal) v5 (ix2 r g)
      = if Ideal.fptosi 32 (v5 (ix2 r (0 : Fin 1))) = BitVec.ofNat 32 g.val then (1 : EReal) else 0 := by
  unfold k1_pay4
  rw [sitofp_apply, extui_apply, cmpi_apply, sitofp_extui_cmpi_eq, broadcastTo_a1_ab_apply, iota_axis1_apply,
    fptosi_apply, shapeCast_self]

/-- The accumulated readout sums: the block already there plus, over the tile's rows, membership times the node
    output (the edge sum scaled by the destination weight, plus the bias). -/
theorem k1_pay5_apply (v3 v5 : Vec Ideal S4000x1 .f32) (v8 : Vec Ideal S4000x64 .f32) (v12 : Vec Ideal S64 .f32)
    (v22 : Vec Ideal S100x64 .f32) (g : Fin 100) (j : Fin 64) :
    k1_pay5 (F := Ideal) v3 v5 v8 v12 v22 (ix2 g j)
      = v22 (ix2 g j) + ∑ r : Fin 4000, k1_pay4 (F := Ideal) v5 (ix2 r g)
          * (v8 (ix2 r j) * v3 (ix2 r (0 : Fin 1)) + v12 (ix1 j)) := by
  unfold k1_pay5
  rw [addf_apply, shapeCast_self]
  refine congrArg (v22 (ix2 g j) + ·) ?_
  refine (matmul_zero_apply (M := 100) (K := 4000) (N := 64) dot_S4000x100_S4000x64_S100x64_0_0_1_1_n_n_wf
    (some .fp32) (k1_pay4 (F := Ideal) v5) _ g j).trans ?_
  refine Finset.sum_congr rfl fun r _ => congrArg (k1_pay4 (F := Ideal) v5 (ix2 r g) * ·) ?_
  rw [addf_apply, mulf_apply, shapeCast_self, shapeCast_self, broadcastTo_a1_ab_apply, broadcastTo_1b_ab_apply,
    shapeCast_a_1a_apply]

/-- The accumulated membership counts: the counts already there plus the number of the tile's rows in graph g. -/
theorem k1_pay6_apply (v5 : Vec Ideal S4000x1 .f32) (v28 : Vec Ideal S100x1 .f32) (g : Fin 100) :
    k1_pay6 (F := Ideal) v5 v28 (ix2 g (0 : Fin 1))
      = v28 (ix2 g (0 : Fin 1)) + ∑ r : Fin 4000, k1_pay4 (F := Ideal) v5 (ix2 r g) := by
  unfold k1_pay6
  rw [shapeCast_self, addf_apply, shapeCast_a_a1_apply]
  exact congrArg (v28 (ix2 g (0 : Fin 1)) + ·) (multiReduction_rows_apply (k1_pay4 (F := Ideal) v5) _ _ _ g)

/-- The final division: each readout sum over its graph's count raised to at least 1.0. -/
theorem k1_pay1_apply (v36 : Vec Ideal S100x64 .f32) (v38 : Vec Ideal S100x1 .f32) (g : Fin 100) (j : Fin 64) :
    k1_pay1 (F := Ideal) v36 v38 (ix2 g j)
      = Ideal.div (v36 (ix2 g j)) (max Cert.Spec.one (v38 (ix2 g (0 : Fin 1)))) := by
  unfold k1_pay1
  rw [divf_apply, shapeCast_self, broadcastTo_a1_ab_apply, maximumf_apply, broadcast_apply]
  rfl

/-- The zero word splat over the readout sums is 0 everywhere. -/
theorem k1_pay2_apply (i : S100x64.Idx) : k1_pay2 (F := Ideal) i = 0 := by
  unfold k1_pay2
  rw [broadcast_apply]
  exact Ideal.ofBits_zero_f32

/-- The zero word splat over the counts is 0 everywhere. -/
theorem k1_pay3_apply (i : S100x1.Idx) : k1_pay3 (F := Ideal) i = 0 := by
  unfold k1_pay3
  rw [shapeCast_self, broadcast_apply]
  exact Ideal.ofBits_zero_f32

end Cert.KernelIdeal.ReadoutPayload

end
-- ==== Proof.ReadoutValue.lean ====
/-
  The readout region's result array after the run, as one function of the arrays the region reads.

  The region walks the 100000 nodes in 25 tiles of 4000. At each tile it adds, into a 100 × 64 block of sums, the
  membership-weighted node outputs of the tile (a node's output is its edge sum scaled by its destination weight,
  plus the bias; a node belongs to graph g when its graph id, truncated to a signed integer, is g), and into 100
  counts the number of the tile's nodes in each graph. Both start from zero at the first tile. After the last tile
  each sum is divided by its count raised to at least 1.0, and that block is the result array.

  So the sums after tile n are the sum of the tiles' contributions up to n: a running sum, proved once for any
  commutative addition. What a tile contributes is read off the arrays: a tile's block is the array at rows
  4000 t + q. The comparison the kernel makes is between 32-bit words and the specification's between integers; for
  a graph number below 100 the two agree.
-/
import proofs.«404963_j59098749993497_3_alg».proof.Proof.KI.Readout
import proofs.«404963_j59098749993497_3_alg».proof.Proof.ReadoutArr
import proofs.«404963_j59098749993497_3_alg».proof.Proof.ReadoutPayload
import proofs.«404963_j59098749993497_3_alg».proof.Proof.Args

set_option maxRecDepth 16384

noncomputable section

namespace Cert.KernelIdeal.ReadoutValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The result, in the specification's words

The readout of the node outputs: node outputs are the second edge sum scaled by the destination weight plus the bias;
the graph id of a node is column 1 of the norm-and-id array truncated to a signed integer; the destination weight is
column 0 of it. -/

/-- The readout kernel's result from the three arrays it reads. -/
def readSpec (A2 : S100000x64.Idx → EReal) (DG : S100000x2.Idx → EReal) (B2 : S64.Idx → EReal) (g : Fin 100) (j : Fin 64) :
    EReal :=
  Cert.Spec.readoutKer (fun r => (Ideal.fptosi 32 (DG (ix2 r (1 : Fin 2)))).toInt)
    (Cert.Spec.outKer (Cert.Args.vec B2) (fun r => DG (ix2 r (0 : Fin 2))) (Cert.Args.mat A2)) g j

/-- A 32-bit word is the word of a number below 100 exactly when, read signed, it is that number. -/
theorem word_eq_iff_toInt (b : BitVec 32) (g : Fin 100) : b = BitVec.ofNat 32 g.val ↔ b.toInt = (g.val : Int) := by
  have hg : (BitVec.ofNat 32 g.val).toInt = (g.val : Int) := by
    have := g.isLt
    simp only [BitVec.toInt_eq_toNat_cond, BitVec.toNat_ofNat]
    split <;> omega
  constructor
  · rintro rfl; exact hg
  · intro h; exact BitVec.toInt_inj.mp (h.trans hg.symm)

/-! ## A running sum -/

/-- A quantity that starts at 0 plus the first term and then grows by one term per step is, after step n, the sum of
    the terms up to n. -/
theorem running_sum {M : Type} [AddCommMonoid M] {N : ℕ} (a : Fin N → M) (s : (n : ℕ) → n < N → M)
    (h0 : ∀ h : 0 < N, s 0 h = 0 + a ⟨0, h⟩)
    (hs : ∀ (n : ℕ) (h : n + 1 < N), s (n + 1) h = s n (Nat.lt_of_succ_lt h) + a ⟨n + 1, h⟩) :
    ∀ (n : ℕ) (h : n < N), s n h = ∑ t : Fin (n + 1), a ⟨t.val, Nat.lt_of_lt_of_le t.isLt h⟩
  | 0, h => by rw [h0 h, zero_add, Fin.sum_univ_one]; rfl
  | n + 1, h => by
    rw [hs n h, running_sum a s h0 hs n _]
    exact (Fin.sum_univ_castSucc (fun t : Fin (n + 1 + 1) => a ⟨t.val, Nat.lt_of_lt_of_le t.isLt h⟩)).symm

/-! ## One tile's contribution, over the entries it reads -/

section Tile
variable (A2 : S100000x64.Idx → EReal) (DG : S100000x2.Idx → EReal) (B2 : S64.Idx → EReal)

/-- What one tile adds to the readout sum of graph g, column j. -/
def tileSum (t : Fin 25) (g : Fin 100) (j : Fin 64) : EReal :=
  ∑ q : Fin 4000, Cert.Spec.member (fun r => (Ideal.fptosi 32 (DG (ix2 r (1 : Fin 2)))).toInt) (Cert.Spec.tileRow t q) g
    * Cert.Spec.outKer (Cert.Args.vec B2) (fun r => DG (ix2 r (0 : Fin 2))) (Cert.Args.mat A2) (Cert.Spec.tileRow t q) j

/-- What one tile adds to the count of graph g. -/
def tileCount (t : Fin 25) (g : Fin 100) : EReal :=
  ∑ q : Fin 4000, Cert.Spec.member (fun r => (Ideal.fptosi 32 (DG (ix2 r (1 : Fin 2)))).toInt) (Cert.Spec.tileRow t q) g

/-- The result is the sum of the tiles' sums over the sum of the tiles' counts raised to at least 1.0. -/
theorem readSpec_eq (g : Fin 100) (j : Fin 64) :
    readSpec A2 DG B2 g j = Ideal.div (∑ t : Fin 25, tileSum A2 DG B2 t g j) (max Cert.Spec.one (∑ t : Fin 25, tileCount DG t g)) := rfl

/-- The membership entry the kernel computes at a row is the specification's membership of the node the row holds. -/
theorem pay4_eq_member (t : Fin 25) (v5 : Vec Ideal S4000x1 .f32)
    (h5 : ∀ q : Fin 4000, v5 (ix2 q (0 : Fin 1)) = DG (ix2 (Cert.Spec.tileRow t q) (1 : Fin 2))) (q : Fin 4000) (g : Fin 100) :
    k1_pay4 (F := Ideal) v5 (ix2 q g)
      = Cert.Spec.member (fun r => (Ideal.fptosi 32 (DG (ix2 r (1 : Fin 2)))).toInt) (Cert.Spec.tileRow t q) g := by
  rw [ReadoutPayload.k1_pay4_apply, h5]
  unfold Cert.Spec.member
  exact if_congr (word_eq_iff_toInt _ g) rfl rfl

/-- The accumulating store's sums at one point, from what the loads read: the block before plus the tile's sum. -/
theorem point_sum (t : Fin 25) (v3 v5 : Vec Ideal S4000x1 .f32) (v8 : Vec Ideal S4000x64 .f32)
    (v12 : Vec Ideal S64 .f32) (prev : Vec Ideal S100x64 .f32)
    (h3 : ∀ q : Fin 4000, v3 (ix2 q (0 : Fin 1)) = DG (ix2 (Cert.Spec.tileRow t q) (0 : Fin 2)))
    (h5 : ∀ q : Fin 4000, v5 (ix2 q (0 : Fin 1)) = DG (ix2 (Cert.Spec.tileRow t q) (1 : Fin 2)))
    (h8 : ∀ (q : Fin 4000) (j : Fin 64), v8 (ix2 q j) = A2 (ix2 (Cert.Spec.tileRow t q) j))
    (h12 : ∀ j : Fin 64, v12 (ix1 j) = B2 (ix1 j)) (g : Fin 100) (j : Fin 64) :
    k1_pay5 (F := Ideal) v3 v5 v8 v12 prev (ix2 g j) = prev (ix2 g j) + tileSum A2 DG B2 t g j := by
  rw [ReadoutPayload.k1_pay5_apply]
  refine congrArg (prev (ix2 g j) + ·) (Finset.sum_congr rfl fun q _ => ?_)
  rw [pay4_eq_member DG t v5 h5, h3, h8, h12]
  rfl

/-- The accumulating store's counts at one point: the counts before plus the tile's count. -/
theorem point_count (t : Fin 25) (v5 : Vec Ideal S4000x1 .f32) (prev : Vec Ideal S100x1 .f32)
    (h5 : ∀ q : Fin 4000, v5 (ix2 q (0 : Fin 1)) = DG (ix2 (Cert.Spec.tileRow t q) (1 : Fin 2))) (g : Fin 100) :
    k1_pay6 (F := Ideal) v5 prev (ix2 g (0 : Fin 1)) = prev (ix2 g (0 : Fin 1)) + tileCount DG t g := by
  rw [ReadoutPayload.k1_pay6_apply]
  exact congrArg (prev (ix2 g (0 : Fin 1)) + ·) (Finset.sum_congr rfl fun q _ => pay4_eq_member DG t v5 h5 q g)

end Tile

/-! ## The windows' blocks read off their arrays

A block's coordinate in its array is the block index times the block size plus the coordinate inside the block. The
block indices at a grid point are decided once over the grid. -/

variable (V : (c : Dev nD) → (b : Ref sig .tc) → Buf (Elt Ideal) ((c : Thread nD τ).loc b))

/-- The tile a grid point works on: the point's number, as one of the 25 tiles. -/
def tile (t : Fin cfg1.N) : Fin 25 := ⟨t.val, Nat.lt_of_lt_of_eq t.isLt (N_1 : cfg1.N = 25)⟩

/-- The node rows' window: block (t, 0). -/
theorem idx1_0 : ∀ t : Fin cfg1.N, win1_0.index t 0 = t.val ∧ win1_0.index t 1 = 0 :=
  (by decide +kernel : ∀ t : Fin grid1.N, win1_0.index t 0 = t.val ∧ win1_0.index t 1 = 0)
/-- The norm-and-id window: block (t, 0). -/
theorem idx1_1 : ∀ t : Fin cfg1.N, win1_1.index t 0 = t.val ∧ win1_1.index t 1 = 0 :=
  (by decide +kernel : ∀ t : Fin grid1.N, win1_1.index t 0 = t.val ∧ win1_1.index t 1 = 0)
/-- The bias window: the one block. -/
theorem idx1_2 : ∀ t : Fin cfg1.N, win1_2.index t 0 = 0 :=
  (by decide +kernel : ∀ t : Fin grid1.N, win1_2.index t 0 = 0)

/-- The node rows' block at point t, read at (q, j), is the array at row 4000 t + q. -/
theorem iblk1_0_apply (c : Dev nD) (t : Fin cfg1.N) (q : Fin 4000) (j : Fin 64) :
    (iblk1 (F := Ideal) V c 0 t : S4000x64.Idx → EReal) (ix2 q j)
      = (V c main_v44 : S100000x64.Idx → EReal) (ix2 (Cert.Spec.tileRow (tile t) q) j) := by
  unfold iblk1
  rw [View.read_apply]
  show V c main_v44 _ = _
  congr 1
  funext a
  apply Fin.ext
  match a with
  | ⟨0, _⟩ => show win1_0.index t 0 * 4000 + 1 * q.val = 4000 * t.val + q.val; rw [(idx1_0 t).1]; omega
  | ⟨1, _⟩ => show win1_0.index t 1 * 64 + 1 * j.val = j.val; rw [(idx1_0 t).2]; omega

/-- The norm-and-id block at point t, read at (q, k), is the array at row 4000 t + q. -/
theorem iblk1_1_apply (c : Dev nD) (t : Fin cfg1.N) (q : Fin 4000) (k : Fin 2) :
    (iblk1 (F := Ideal) V c 1 t : S4000x2.Idx → EReal) (ix2 q k)
      = (V c main_v17 : S100000x2.Idx → EReal) (ix2 (Cert.Spec.tileRow (tile t) q) k) := by
  unfold iblk1
  rw [View.read_apply]
  show V c main_v17 _ = _
  congr 1
  funext a
  apply Fin.ext
  match a with
  | ⟨0, _⟩ => show win1_1.index t 0 * 4000 + 1 * q.val = 4000 * t.val + q.val; rw [(idx1_1 t).1]; omega
  | ⟨1, _⟩ => show win1_1.index t 1 * 2 + 1 * k.val = k.val; rw [(idx1_1 t).2]; omega

/-- The bias block at any point is the whole bias. -/
theorem iblk1_2_apply (c : Dev nD) (t : Fin cfg1.N) (j : Fin 64) :
    (iblk1 (F := Ideal) V c 2 t : S64.Idx → EReal) (ix1 j) = (V c main_arg4 : S64.Idx → EReal) (ix1 j) := by
  unfold iblk1
  rw [View.read_apply]
  show V c main_arg4 _ = _
  congr 1
  funext a
  apply Fin.ext
  match a with
  | ⟨0, _⟩ => show win1_2.index t 0 * 64 + 1 * j.val = j.val; rw [idx1_2 t]; omega

/-! ## The two column loads of a [4000, 2] block -/

/-- The load of column 0 reads, at (q, ·), the block at (q, 0). -/
theorem ld_col0_apply (X : S4000x2.Idx → EReal)
    (inb : ∀ a, (![0, 0] : Fin 2 → Nat) a + S4000x1.size a ≤ S4000x2.size a) (q : Fin 4000) (u : Fin 1) :
    (View.ld (Val := Elt Ideal) (e' := .f32) X (Rect.unit (s := S4000x2) ![0, 0] S4000x1.size inb) : S4000x1.Idx → EReal) (ix2 q u)
      = X (ix2 q (0 : Fin 2)) := by
  show X _ = X _
  congr 1
  funext a
  apply Fin.ext
  have hu : u.val = 0 := by omega
  match a with
  | ⟨0, _⟩ => show 0 + 1 * q.val = q.val; omega
  | ⟨1, _⟩ => show 0 + 1 * u.val = 0; omega

/-- The load of column 1 reads, at (q, ·), the block at (q, 1). -/
theorem ld_col1_apply (X : S4000x2.Idx → EReal)
    (inb : ∀ a, (![0, 1] : Fin 2 → Nat) a + S4000x1.size a ≤ S4000x2.size a) (q : Fin 4000) (u : Fin 1) :
    (View.ld (Val := Elt Ideal) (e' := .f32) X (Rect.unit (s := S4000x2) ![0, 1] S4000x1.size inb) : S4000x1.Idx → EReal) (ix2 q u)
      = X (ix2 q (1 : Fin 2)) := by
  show X _ = X _
  congr 1
  funext a
  apply Fin.ext
  have hu : u.val = 0 := by omega
  match a with
  | ⟨0, _⟩ => show 0 + 1 * q.val = q.val; omega
  | ⟨1, _⟩ => show 1 + 1 * u.val = 1; omega

/-! ## What the body's loads read at a grid point -/

theorem hz1 : (![0] : Fin 1 → Nat) = fun _ => 0 := funext fun a => by fin_cases a; rfl

/-- Column 0 of the norm-and-id block at point p: the destination weights of the tile's nodes. -/
theorem v3_at (c : Dev nD) (p : Fin cfg1.N) (q : Fin 4000) :
    (View.ld (S := S4000x2) (iblk1 (F := Ideal) V c 1 p) rN0 : S4000x1.Idx → EReal) (ix2 q (0 : Fin 1))
      = (V c main_v17 : S100000x2.Idx → EReal) (ix2 (Cert.Spec.tileRow (tile p) q) (0 : Fin 2)) :=
  (ld_col0_apply _ _ q 0).trans (iblk1_1_apply V c p q 0)

/-- Column 1 of the norm-and-id block at point p: the graph ids of the tile's nodes. -/
theorem v5_at (c : Dev nD) (p : Fin cfg1.N) (q : Fin 4000) :
    (View.ld (S := S4000x2) (iblk1 (F := Ideal) V c 1 p) rN1 : S4000x1.Idx → EReal) (ix2 q (0 : Fin 1))
      = (V c main_v17 : S100000x2.Idx → EReal) (ix2 (Cert.Spec.tileRow (tile p) q) (1 : Fin 2)) :=
  (ld_col1_apply _ _ q 0).trans (iblk1_1_apply V c p q 1)

/-- The node rows' block at point p, loaded whole. -/
theorem v8_at (c : Dev nD) (p : Fin cfg1.N) (q : Fin 4000) (j : Fin 64) :
    (View.ld (S := S4000x64) (iblk1 (F := Ideal) V c 0 p) rX : S4000x64.Idx → EReal) (ix2 q j)
      = (V c main_v44 : S100000x64.Idx → EReal) (ix2 (Cert.Spec.tileRow (tile p) q) j) :=
  (congrFun (View.ld_unit_zero (S := S4000x64) hz2 _ _) _).trans (iblk1_0_apply V c p q j)

/-- The bias, loaded whole. -/
theorem v12_at (c : Dev nD) (p : Fin cfg1.N) (j : Fin 64) :
    (View.ld (S := S64) (iblk1 (F := Ideal) V c 2 p) rB : S64.Idx → EReal) (ix1 j)
      = (V c main_arg4 : S64.Idx → EReal) (ix1 j) :=
  (congrFun (View.ld_unit_zero (S := S64) hz1 _ _) _).trans (iblk1_2_apply V c p j)

/-- The accumulating store's sums at point p over any block before: that block plus the tile's sum. -/
theorem sums_step (c : Dev nD) (p : Fin cfg1.N) (prev : Vec Ideal S100x64 .f32) (g : Fin 100) (j : Fin 64) :
    k1_pay5 (F := Ideal) (View.ld (S := S4000x2) (iblk1 V c 1 p) rN0) (View.ld (S := S4000x2) (iblk1 V c 1 p) rN1)
        (View.ld (S := S4000x64) (iblk1 V c 0 p) rX) (View.ld (S := S64) (iblk1 V c 2 p) rB) prev (ix2 g j)
      = prev (ix2 g j) + tileSum (V c main_v44) (V c main_v17) (V c main_arg4) (tile p) g j :=
  point_sum (V c main_v44) (V c main_v17) (V c main_arg4) (tile p) _ _ _ _ prev
    (v3_at V c p) (v5_at V c p) (v8_at V c p) (v12_at V c p) g j

/-- The accumulating store's counts at point p over any counts before: those counts plus the tile's count. -/
theorem counts_step (c : Dev nD) (p : Fin cfg1.N) (prev : Vec Ideal S100x1 .f32) (g : Fin 100) :
    k1_pay6 (F := Ideal) (View.ld (S := S4000x2) (iblk1 V c 1 p) rN1) prev (ix2 g (0 : Fin 1))
      = prev (ix2 g (0 : Fin 1)) + tileCount (V c main_v17) (tile p) g :=
  point_count (V c main_v17) (tile p) _ prev (v5_at V c p) g

/-! ## The running sums and counts over the points before the last -/

theorem lt_N_of_lt_24 {n : ℕ} (h : n < 24) : n < cfg1.N := by rw [show cfg1.N = 25 from N_1]; omega

/-- After point n < 24 the output's buffer holds, at (g, j), the sum of the tiles' sums up to n. -/
theorem sums_upto (c : Dev nD) (g : Fin 100) (j : Fin 64) (n : ℕ) (h : n < 24) :
    (outsAt1 (F := Ideal) V c n (lt_N_of_lt_24 h)).1 (ix2 g j)
      = ∑ t : Fin (n + 1), tileSum (V c main_v44) (V c main_v17) (V c main_arg4) ⟨t.val, by have := t.isLt; omega⟩ g j :=
  running_sum (N := 24) (fun t => tileSum (V c main_v44) (V c main_v17) (V c main_arg4) ⟨t.val, by have := t.isLt; omega⟩ g j)
    (fun n h => (outsAt1 (F := Ideal) V c n (lt_N_of_lt_24 h)).1 (ix2 g j))
    (fun h => by
      show (outsAt1 (F := Ideal) V c 0 _).1 (ix2 g j) = _
      rw [outsAt1_first]; dsimp only
      rw [sums_step, ReadoutPayload.k1_pay2_apply]
      rfl)
    (fun n h => by
      show (outsAt1 (F := Ideal) V c (n + 1) _).1 (ix2 g j) = (outsAt1 (F := Ideal) V c n _).1 (ix2 g j) + _
      rw [outsAt1_mid V c n (lt_N_of_lt_24 h) (by omega)]; dsimp only
      rw [sums_step]
      rfl)
    n h

/-- After point n < 24 the scratch holds, at g, the sum of the tiles' counts up to n. -/
theorem counts_upto (c : Dev nD) (g : Fin 100) (n : ℕ) (h : n < 24) :
    (outsAt1 (F := Ideal) V c n (lt_N_of_lt_24 h)).2 (ix2 g (0 : Fin 1))
      = ∑ t : Fin (n + 1), tileCount (V c main_v17) ⟨t.val, by have := t.isLt; omega⟩ g :=
  running_sum (N := 24) (fun t => tileCount (V c main_v17) ⟨t.val, by have := t.isLt; omega⟩ g)
    (fun n h => (outsAt1 (F := Ideal) V c n (lt_N_of_lt_24 h)).2 (ix2 g (0 : Fin 1)))
    (fun h => by
      show (outsAt1 (F := Ideal) V c 0 _).2 (ix2 g (0 : Fin 1)) = _
      rw [outsAt1_first]; dsimp only
      rw [counts_step, ReadoutPayload.k1_pay3_apply]
      rfl)
    (fun n h => by
      show (outsAt1 (F := Ideal) V c (n + 1) _).2 (ix2 g (0 : Fin 1)) = (outsAt1 (F := Ideal) V c n _).2 (ix2 g (0 : Fin 1)) + _
      rw [outsAt1_mid V c n (lt_N_of_lt_24 h) (by omega)]; dsimp only
      rw [counts_step]
      rfl)
    n h

/-! ## The last point -/

/-- After the last point the output's buffer holds the result. -/
theorem last_eq (c : Dev nD) (hn : 24 < cfg1.N) (g : Fin 100) (j : Fin 64) :
    (outsAt1 (F := Ideal) V c 24 hn).1 (ix2 g j) = readSpec (V c main_v44) (V c main_v17) (V c main_arg4) g j := by
  rw [outsAt1_last]; dsimp only
  rw [ReadoutPayload.k1_pay1_apply, sums_step, counts_step,
    sums_upto V c g j 23 (by omega), counts_upto V c g 23 (by omega), readSpec_eq]
  congr 1
  · exact (Fin.sum_univ_castSucc (fun t : Fin 25 => tileSum (V c main_v44) (V c main_v17) (V c main_arg4) t g j)).symm
  · congr 1
    exact (Fin.sum_univ_castSucc (fun t : Fin 25 => tileCount (V c main_v17) t g)).symm

/-! ## The result array after the run -/

/-- THE READOUT'S RESULT. The result array after the run is the specification's readout of the node outputs: the
    array ends holding what the last point left in the output's buffer, which is the sum of all 25 tiles' sums over
    the sum of their counts raised to at least 1.0. -/
theorem final1 (c : Dev nD) (g : Fin 100) (j : Fin 64) :
    ((Cert.KernelIdeal.Hand.dat1 (F := Ideal) V c).arrAt 3 cfg1.N : S100x64.Idx → EReal) (ix2 g j)
      = readSpec (V c main_v44) (V c main_v17) (V c main_arg4) g j :=
  (arrAt1_3_apply V c (ix2 g j)).trans (last_eq V c lt24 g j)

end Cert.KernelIdeal.ReadoutValue

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.HostStages.lean ====
/-
  What the kernel program's host operations compute before its first kernel region, read at an index, at the ideal
  instance, in the words of the specification.

  The degree of a node is a scatter-add of the word 1.0 over the edges' endpoint words into zeros: the count, in units
  of 1.0, of the edges whose endpoint, read signed, is that node. A clip raises it to at least 1.0 (the maximum with a
  broadcast scalar) and the normaliser is its reciprocal square root. The source and destination normalisers are laid
  side by side as the two columns of one array, and the destination normaliser beside the nodes' graph ids converted
  to floats as the two columns of another. Every stretch of host operations is first read from ANY contents of the
  buffers; the stages then follow stretch by stretch from the launch contents, an array a stretch does not write
  being the same array one stretch earlier.
-/
import proofs.«404963_j59098749993497_3_alg».proof.Proof.Gen.KernelIdeal.Regions
import proofs.«404963_j59098749993497_3_alg».proof.Proof.Spec
import proofs.«404963_j59098749993497_3_alg».proof.Proof.Args
import proofs.«404963_j59098749993497_3_alg».proof.Proof.LibIndex
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostStages

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The argument arrays, read as the mathematics reads them -/

/-- The node features, as a matrix. -/
abbrev xA : Fin 100000 → Fin 128 → EReal :=
  Cert.Args.mat (m ((c : Thread nD τ).loc main_arg0) : S100000x128.Idx → EReal)
/-- The edges' source words. -/
abbrev srcA : S1600000.Idx → BitVec 32 := m ((c : Thread nD τ).loc main_arg5)
/-- The edges' destination words. -/
abbrev dstA : S1600000.Idx → BitVec 32 := m ((c : Thread nD τ).loc main_arg6)
/-- The nodes' graph-id words. -/
abbrev gidA : S100000.Idx → BitVec 32 := m ((c : Thread nD τ).loc main_arg7)

/-! ## Broadcasts and a two-column concatenation read at an index (any sizes) -/

section Readers
variable {α : Type}

/-- A scalar broadcast to any shape reads the scalar everywhere. -/
theorem bcast0_apply {T : Shape} (h : (⟨0, ![]⟩ : Shape).BroadcastsInDim T ![]) (x : (⟨0, ![]⟩ : Shape).Idx → α)
    (j : T.Idx) : broadcastInDim T ![] h x j = x ix0 :=
  broadcastInDim_apply _ h x j ix0 fun a => a.elim0

/-- A vector made a one-column matrix reads, at `(t, 0)`, the vector at `t`. -/
theorem bcastCol_apply {N : Nat} (h : (⟨1, ![N]⟩ : Shape).BroadcastsInDim ⟨2, ![N, 1]⟩ ![0])
    (x : (⟨1, ![N]⟩ : Shape).Idx → α) (t : Fin N) (u : Fin 1) :
    broadcastInDim ⟨2, ![N, 1]⟩ ![0] h x (ix2 t u) = x (ix1 t) := by
  refine broadcastInDim_apply _ h x _ (ix1 t) fun a => ?_
  match a with
  | ⟨0, _⟩ =>
    show t.val = if N = 1 then 0 else t.val
    split
    · have := t.isLt; omega
    · rfl

/-- A one-column matrix broadcast along its rows reads, at `(r, k)`, the column at `r`. -/
theorem bcastRows_apply {N C : Nat} (h : (⟨2, ![N, 1]⟩ : Shape).BroadcastsInDim ⟨2, ![N, C]⟩ ![0, 1])
    (x : (⟨2, ![N, 1]⟩ : Shape).Idx → α) (r : Fin N) (k : Fin C) :
    broadcastInDim ⟨2, ![N, C]⟩ ![0, 1] h x (ix2 r k) = x (ix2 r (0 : Fin 1)) := by
  refine broadcastInDim_apply _ h x _ (ix2 r (0 : Fin 1)) fun a => ?_
  match a with
  | ⟨0, _⟩ =>
    show r.val = if N = 1 then 0 else r.val
    split
    · have := r.isLt; omega
    · rfl
  | ⟨1, _⟩ => rfl

/-- Two one-column matrices laid side by side: column 0 is the first. -/
theorem concatCols_apply0 {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h _ rfl (ix2 n (0 : Fin 1)) fun d => by
    match d with
    | ⟨0, _⟩ => rfl
    | ⟨1, _⟩ => rfl

/-- Two one-column matrices laid side by side: column 1 is the second. -/
theorem concatCols_apply1 {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h _ rfl rfl (ix2 n (0 : Fin 1))
    (fun d hd => by
      match d with
      | ⟨0, _⟩ => rfl
      | ⟨1, _⟩ => exact absurd rfl hd)
    rfl

end Readers

/-! ## The elementwise host operations of these stretches read at an index, at the ideal instance -/

/-- The host's reciprocal square root reads the ideal one of the element. -/
theorem hostRsqrt_apply {s : Shape} (x : FVec Ideal s .f32) (i : s.Idx) : Host.rsqrt x i = Ideal.rsqrt (x i) := rfl

/-- An integer array converted to floats reads each word as the signed integer it is, exactly. -/
theorem sitofpI_apply {s : Shape} (x : IVec s 32) (i : s.Idx) :
    (sitofp (F := Ideal) .f32 x) i = (((x i).toInt : ℝ) : EReal) := rfl

/-! ## The degree count

The scatter-add of the broadcast word 1.0 into the broadcast zero word, by an array of edge-endpoint words: at node
`n`, one word 1.0 per edge whose endpoint, read signed, is `n`. -/

/-- At the ideal instance the host's accumulating scatter is the exact sum, whatever its dimension numbers. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The degree scatters' dimension numbers: 1600000 scalars accumulated into 100000 places, update `t` at the place
    its start index `idx[t, 0]` names. -/
theorem degDims_eq : scatter_S100000_S1600000x1_S1600000_n_0_0_1
    = Cert.LibIndex.vecScatterDims 100000 1600000 scatter_S100000_S1600000x1_S1600000_n_0_0_1_wf := rfl

theorem degScatter_apply (idx : S1600000.Idx → BitVec 32) (n : Fin 100000) :
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32))
        : S100000.Idx → EReal) (ix1 n)
      = Cert.Spec.deg (Cert.Args.sInt idx) n := by
  rw [hostScatterAdd_eq, degDims_eq, Cert.LibIndex.vecScatterAdd_apply, bcast0_apply, constant_apply,
    Ideal.ofBits_zero_f32, zero_add]
  unfold Cert.Spec.deg
  refine Finset.sum_congr (Finset.filter_congr fun t _ => ?_) fun t _ => ?_
  · rw [bcastCol_apply]; rfl
  · rw [bcast0_apply, constant_apply]; rfl
/-! ## Each stretch of host operations, from any contents `W` -/

section Stretches
variable (W : Valuation τ sig (Elt Ideal))

/-- Stretch 0: the source-degree count. -/
theorem s0_v3 : (StableHlo.after hostOps0 W (Proc.devRef .tc main_v3) : S100000.Idx → EReal)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg5) : S1600000.Idx → BitVec 32))
        (broadcastInDim S1600000 ![] bcast_S_S1600000 (constant (F := Ideal) S_ .f32 0x3F800000#32)) := by
  after_results
/-- Stretch 0: the array of ones the counts add up. -/
theorem s0_v0 : (StableHlo.after hostOps0 W (Proc.devRef .tc main_v0) : S1600000.Idx → EReal)
    = broadcastInDim S1600000 ![] bcast_S_S1600000 (constant (F := Ideal) S_ .f32 0x3F800000#32) := by
  after_results
/-- Stretch 0: the scalar 1.0 the first clip raises to. -/
theorem s0_cst1 : (StableHlo.after hostOps0 W (Proc.devRef .tc main_cst_1) : S_.Idx → EReal)
    = constant (F := Ideal) S_ .f32 0x3F800000#32 := by
  after_results

/-- Stretch 1: the first clip, the maximum with the broadcast scalar. -/
theorem s1_v4 : (StableHlo.after hostOps0_1 W (Proc.devRef .tc main_v4) : S100000.Idx → EReal)
    = (maximumf (F := Ideal) (φ := .f32) (broadcastInDim S100000 ![] bcast_S_S100000 (W (Proc.devRef .tc main_cst_1) : S_.Idx → EReal))
        (W (Proc.devRef .tc main_v3) : S100000.Idx → EReal) : S100000.Idx → EReal) := by
  after_results
  simp only [StableHlo.TRef.ofBuf, StableHlo.TRef.toBuf, cast_eq, id_eq]

/-- Stretch 2: the destination-degree count, from the array of ones already there. -/
theorem s2_v7 : (StableHlo.after hostOps0_2 W (Proc.devRef .tc main_v7) : S100000.Idx → EReal)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg6) : S1600000.Idx → BitVec 32))
        (W (Proc.devRef .tc main_v0) : S1600000.Idx → EReal) := by
  after_results
/-- Stretch 2: the scalar 1.0 the second clip raises to. -/
theorem s2_cst3 : (StableHlo.after hostOps0_2 W (Proc.devRef .tc main_cst_3) : S_.Idx → EReal)
    = constant (F := Ideal) S_ .f32 0x3F800000#32 := by
  after_results

/-- Stretch 3: the second clip. -/
theorem s3_v8 : (StableHlo.after hostOps0_3 W (Proc.devRef .tc main_v8) : S100000.Idx → EReal)
    = (maximumf (F := Ideal) (φ := .f32) (broadcastInDim S100000 ![] bcast_S_S100000 (W (Proc.devRef .tc main_cst_3) : S_.Idx → EReal))
        (W (Proc.devRef .tc main_v7) : S100000.Idx → EReal) : S100000.Idx → EReal) := by
  after_results
  simp only [StableHlo.TRef.ofBuf, StableHlo.TRef.toBuf, cast_eq, id_eq]

/-- Stretch 4: the source normaliser, the reciprocal square root of the clipped source degrees. -/
theorem s4_v9 : (StableHlo.after hostOps0_4 W (Proc.devRef .tc main_v9) : S100000.Idx → EReal)
    = (Host.rsqrt (F := Ideal) (φ := .f32) (W (Proc.devRef .tc main_v4) : S100000.Idx → EReal) : S100000.Idx → EReal) := by
  after_results
/-- Stretch 4: the destination normaliser. -/
theorem s4_v10 : (StableHlo.after hostOps0_4 W (Proc.devRef .tc main_v10) : S100000.Idx → EReal)
    = (Host.rsqrt (F := Ideal) (φ := .f32) (W (Proc.devRef .tc main_v8) : S100000.Idx → EReal) : S100000.Idx → EReal) := by
  after_results
/-- Stretch 4: the two normalisers side by side, source then destination. -/
theorem s4_v13 : (StableHlo.after hostOps0_4 W (Proc.devRef .tc main_v13) : S100000x2.Idx → EReal)
    = concatenate S100000x2 1
        [⟨S100000x1, broadcastInDim S100000x1 ![0] bcast_S100000_S100000x1_0
            (Host.rsqrt (F := Ideal) (φ := .f32) (W (Proc.devRef .tc main_v4) : S100000.Idx → EReal) : S100000.Idx → EReal)⟩,
         ⟨S100000x1, broadcastInDim S100000x1 ![0] bcast_S100000_S100000x1_0
            (Host.rsqrt (F := Ideal) (φ := .f32) (W (Proc.devRef .tc main_v8) : S100000.Idx → EReal) : S100000.Idx → EReal)⟩]
        concatenates_S100000x1_S100000x1_S100000x2_d1 := by
  after_results
/-- Stretch 4: the destination normaliser beside the graph ids as floats. -/
theorem s4_v17 : (StableHlo.after hostOps0_4 W (Proc.devRef .tc main_v17) : S100000x2.Idx → EReal)
    = concatenate S100000x2 1
        [⟨S100000x1, broadcastInDim S100000x1 ![0] bcast_S100000_S100000x1_0
            (Host.rsqrt (F := Ideal) (φ := .f32) (W (Proc.devRef .tc main_v8) : S100000.Idx → EReal) : S100000.Idx → EReal)⟩,
         ⟨S100000x1, broadcastInDim S100000x1 ![0] bcast_S100000_S100000x1_0
            (sitofp (F := Ideal) .f32 (W (Proc.devRef .tc main_arg7) : S100000.Idx → BitVec 32) : S100000.Idx → EReal)⟩]
        concatenates_S100000x1_S100000x1_S100000x2_d1 := by
  after_results

end Stretches

/-! ## The stages, from the launch contents

Stretch by stretch: each array a later stage reads is either written by the stretch just before (read through that
stretch's equation) or untouched by it (the same array one stretch earlier). -/

/-- After stretch 0, node `n`'s source degree. -/
theorem V1_v3_apply (n : Fin 100000) :
    (V1 m c (Proc.devRef .tc main_v3) : S100000.Idx → EReal) (ix1 n) = Cert.Spec.deg (Cert.Args.sInt (srcA m c)) n :=
  (congrFun (s0_v3 (V0 m c)) (ix1 n)).trans (degScatter_apply _ n)

/-- After the first clip, the source degree raised to at least 1.0. -/
theorem V2_v4_apply (n : Fin 100000) :
    (V2 m c (Proc.devRef .tc main_v4) : S100000.Idx → EReal) (ix1 n)
      = max Cert.Spec.one (Cert.Spec.deg (Cert.Args.sInt (srcA m c)) n) := by
  rw [show (V2 m c (Proc.devRef .tc main_v4) : S100000.Idx → EReal) = _ from s1_v4 (V1 m c),
    maximumf_apply, bcast0_apply, V1_v3_apply,
    show (V1 m c (Proc.devRef .tc main_cst_1) : S_.Idx → EReal) = _ from s0_cst1 (V0 m c), constant_apply]
  rfl

/-- The second count reads the array of ones and the destination words where stretch 0 and the launch left them. -/
theorem V3_v7_apply (n : Fin 100000) :
    (V3 m c (Proc.devRef .tc main_v7) : S100000.Idx → EReal) (ix1 n) = Cert.Spec.deg (Cert.Args.sInt (dstA m c)) n := by
  have h0 : (V2 m c (Proc.devRef .tc main_v0) : S1600000.Idx → EReal)
      = broadcastInDim S1600000 ![] bcast_S_S1600000 (constant (F := Ideal) S_ .f32 0x3F800000#32) :=
    (V2_of m c main_v0 (by decide)).trans (s0_v0 (V0 m c))
  have h6 : (V2 m c (Proc.devRef .tc main_arg6) : S1600000.Idx → BitVec 32) = dstA m c :=
    (V2_of m c main_arg6 (by decide)).trans (V1_of m c main_arg6 (by decide))
  rw [show (V3 m c (Proc.devRef .tc main_v7) : S100000.Idx → EReal) = _ from s2_v7 (V2 m c), h0, h6]
  exact degScatter_apply _ n

/-- After the second clip, the destination degree raised to at least 1.0. -/
theorem V4_v8_apply (n : Fin 100000) :
    (V4 m c (Proc.devRef .tc main_v8) : S100000.Idx → EReal) (ix1 n)
      = max Cert.Spec.one (Cert.Spec.deg (Cert.Args.sInt (dstA m c)) n) := by
  rw [show (V4 m c (Proc.devRef .tc main_v8) : S100000.Idx → EReal) = _ from s3_v8 (V3 m c),
    maximumf_apply, bcast0_apply, V3_v7_apply,
    show (V3 m c (Proc.devRef .tc main_cst_3) : S_.Idx → EReal) = _ from s2_cst3 (V2 m c), constant_apply]
  rfl

/-- The clipped source degree is still there after the second count and clip. -/
theorem V4_v4_apply (n : Fin 100000) :
    (V4 m c (Proc.devRef .tc main_v4) : S100000.Idx → EReal) (ix1 n)
      = max Cert.Spec.one (Cert.Spec.deg (Cert.Args.sInt (srcA m c)) n) := by
  rw [show (V4 m c (Proc.devRef .tc main_v4) : S100000.Idx → EReal) = V2 m c (Proc.devRef .tc main_v4) from
    (V4_of m c main_v4 (by decide)).trans (V3_of m c main_v4 (by decide))]
  exact V2_v4_apply m c n

/-- THE SOURCE NORMALISER. -/
theorem stage_v9 (n : Fin 100000) :
    (V5 m c (Proc.devRef .tc main_v9) : S100000.Idx → EReal) (ix1 n) = Cert.Spec.nrm (Cert.Args.sInt (srcA m c)) n := by
  rw [show (V5 m c (Proc.devRef .tc main_v9) : S100000.Idx → EReal) = _ from s4_v9 (V4 m c),
    hostRsqrt_apply, V4_v4_apply]
  rfl

/-- THE DESTINATION NORMALISER. -/
theorem stage_v10 (n : Fin 100000) :
    (V5 m c (Proc.devRef .tc main_v10) : S100000.Idx → EReal) (ix1 n) = Cert.Spec.nrm (Cert.Args.sInt (dstA m c)) n := by
  rw [show (V5 m c (Proc.devRef .tc main_v10) : S100000.Idx → EReal) = _ from s4_v10 (V4 m c),
    hostRsqrt_apply, V4_v8_apply]
  rfl

/-- THE NORMS ARRAY of the projection kernel: column 0 the source normaliser, column 1 the destination normaliser. -/
theorem stage_v13 (n : Fin 100000) :
    (V5 m c (Proc.devRef .tc main_v13) : S100000x2.Idx → EReal) (ix2 n (0 : Fin 2))
        = Cert.Spec.nrm (Cert.Args.sInt (srcA m c)) n
      ∧ (V5 m c (Proc.devRef .tc main_v13) : S100000x2.Idx → EReal) (ix2 n (1 : Fin 2))
        = Cert.Spec.nrm (Cert.Args.sInt (dstA m c)) n := by
  rw [show (V5 m c (Proc.devRef .tc main_v13) : S100000x2.Idx → EReal) = _ from s4_v13 (V4 m c)]
  constructor
  · rw [concatCols_apply0, bcastCol_apply, hostRsqrt_apply, V4_v4_apply]; rfl
  · rw [concatCols_apply1, bcastCol_apply, hostRsqrt_apply, V4_v8_apply]; rfl

/-- THE NORMS ARRAY of the readout kernel: column 0 the destination normaliser, column 1 the node's graph id, the
    signed integer as a float. -/
theorem stage_v17 (n : Fin 100000) :
    (V5 m c (Proc.devRef .tc main_v17) : S100000x2.Idx → EReal) (ix2 n (0 : Fin 2))
        = Cert.Spec.nrm (Cert.Args.sInt (dstA m c)) n
      ∧ (V5 m c (Proc.devRef .tc main_v17) : S100000x2.Idx → EReal) (ix2 n (1 : Fin 2))
        = (((gidA m c (ix1 n)).toInt : ℝ) : EReal) := by
  have h7 : (V4 m c (Proc.devRef .tc main_arg7) : S100000.Idx → BitVec 32) = gidA m c :=
    (V4_of m c main_arg7 (by decide)).trans <| (V3_of m c main_arg7 (by decide)).trans <|
      (V2_of m c main_arg7 (by decide)).trans (V1_of m c main_arg7 (by decide))
  rw [show (V5 m c (Proc.devRef .tc main_v17) : S100000x2.Idx → EReal) = _ from s4_v17 (V4 m c)]
  constructor
  · rw [concatCols_apply0, bcastCol_apply, hostRsqrt_apply, V4_v8_apply]; rfl
  · rw [concatCols_apply1, bcastCol_apply, sitofpI_apply, h7]

end Cert.KernelIdeal.HostStages

end
-- ==== Proof.HostStages2.lean ====
/-
  The host stretch between the two kernels, read at an index.

  Between the projection kernel and the readout kernel the program takes, for every edge, the row of the projected
  features that the edge's source word names (the word with 100000 added when it is negative, then read signed and
  clamped into the rows), widens the row's float format (the identity on extended reals), and adds the row into the
  row its destination word names, starting from zeros; an edge whose destination word is no row adds nowhere. Entry
  (n, j) of the result is therefore the sum over the edges into node n of entry j of their source rows: the second
  edge sum of the specification. Two small facts beside it: the stretch leaves every reference it does not write as
  it was, and so do the five stretches before the first kernel.
-/
import proofs.«404963_j59098749993497_3_alg».proof.Proof.Gen.KernelIdeal.Regions
import proofs.«404963_j59098749993497_3_alg».proof.Proof.Spec
import proofs.«404963_j59098749993497_3_alg».proof.Proof.Args
import proofs.«404963_j59098749993497_3_alg».proof.Proof.LibIndex
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostStages

open Cert.KernelIdeal Cert.KernelIdeal.Gen Idealize.ShloMosaic Idealize.ShloMosaic.ValueIdx Idealize.ShloMosaic.TcCoe

open Cert.Spec Cert.Args Cert.LibIndex

/-! ## The program's scatter and gather are the ones read at an index

The dimension-number records the program prints are, field by field, the records the index lemmas are stated for. -/

/-- The second edge sum's scatter: 1600000 rows of 64 into 100000. -/
theorem dims_scatter2 : scatter_S100000x64_S1600000x1_S1600000x64_1_0_0_1
    = rowScatterDims 100000 1600000 64 scatter_S100000x64_S1600000x1_S1600000x64_1_0_0_1_wf := rfl

/-- The second edge sum's gather: 1600000 rows of 64 out of 100000. -/
theorem dims_gather2 : gather_S100000x64_S1600000x1_S1600000x64_1_0_n_n_0_1_164
    = rowGatherDims 100000 1600000 64 gather_S100000x64_S1600000x1_S1600000x64_1_0_n_n_0_1_164_wf := rfl

/-- An accumulating scatter of rows whose record is the one the index lemma is stated for: at the ideal instance, the
    exact sum. -/
theorem scatterAdd_rows {N T H w : Nat} (wf : ScatterDims.WF ⟨2, ![N, H]⟩ ⟨2, ![T, 1]⟩ ⟨2, ![T, H]⟩ [1] [0] [0] 1)
    (d : ScatterDims ⟨2, ![N, H]⟩ ⟨2, ![T, 1]⟩ ⟨2, ![T, H]⟩) (hd : d = rowScatterDims N T H wf)
    (x : (⟨2, ![N, H]⟩ : Shape).Idx → EReal) (idx : IVec ⟨2, ![T, 1]⟩ w) (upd : (⟨2, ![T, H]⟩ : Shape).Idx → EReal) :
    Host.scatterAdd (F := Ideal) (φ := .f32) d x idx upd = Ideal.hostScatterAdd (rowScatterDims N T H wf) x idx upd := by
  subst hd; rfl

/-! ## The pieces of the stretch, each read at an index -/

/-- A list of edge words broadcast to a one-column array, read at row `t`: the word of edge `t`. -/
theorem col_apply (A : IVec S1600000 32) (t : Fin 1600000) :
    broadcastInDim S1600000x1 ![0] bcast_S1600000_S1600000x1_0 A (ix2 t (0 : Fin 1)) = A (ix1 t) := by
  refine broadcastInDim_apply ![0] bcast_S1600000_S1600000x1_0 A (ix2 t (0 : Fin 1)) (ix1 t) ?_
  intro a
  match a with
  | ⟨0, _⟩ =>
    show t.val = if (1600000 : ℕ) = 1 then 0 else t.val
    rw [if_neg (by decide)]

/-- The edge sum accumulates into zeros. -/
theorem zeros_apply (n : Fin 100000) (j : Fin 64) :
    broadcastInDim S100000x64 ![] bcast_S_S100000x64 (constant (F := Ideal) S_ FTy.f32 0x00000000#32) (ix2 n j) = 0 :=
  Ideal.ofBits_zero_f32

/-- The wrapped source word of edge `t`: 100000 added when the word is negative. -/
theorem wrapped_apply (A5 : IVec S1600000 32) (t : Fin 1600000) :
    select (cmpi CmpIPredicate.slt A5 (broadcastInDim S1600000 ![] bcast_S_S1600000 (constantI S_ 32 0#32)))
        (addi A5 (broadcastInDim S1600000 ![] bcast_S_S1600000 (constantI S_ 32 100000#32))) A5 (ix1 t)
      = wrapIdx (A5 (ix1 t)) := rfl

/-- THE GATHER, converted: edge `t` takes the row of the projected features its wrapped, clamped source word names;
    widening the float format is the identity on extended reals. -/
theorem gathered_apply (X : FVec Ideal S100000x64 .bf16) (A5 : IVec S1600000 32) (t : Fin 1600000) (j : Fin 64) :
    extf FTy.f32
        (Host.gather gather_S100000x64_S1600000x1_S1600000x64_1_0_n_n_0_1_164 X
          (broadcastInDim S1600000x1 ![0] bcast_S1600000_S1600000x1_0
            (select (cmpi CmpIPredicate.slt A5 (broadcastInDim S1600000 ![] bcast_S_S1600000 (constantI S_ 32 0#32)))
              (addi A5 (broadcastInDim S1600000 ![] bcast_S_S1600000 (constantI S_ 32 100000#32))) A5)))
        bitsLt_bf16_f32 (ix2 t j)
      = mat X (srow A5 t) j := by
  rw [extf_apply, dims_gather2, rowGather_apply (by omega)]
  refine congrArg (fun r => X (ix2 r j)) (Fin.ext ?_)
  show min (broadcastInDim S1600000x1 ![0] bcast_S1600000_S1600000x1_0
        (select (cmpi CmpIPredicate.slt A5 (broadcastInDim S1600000 ![] bcast_S_S1600000 (constantI S_ 32 0#32)))
          (addi A5 (broadcastInDim S1600000 ![] bcast_S_S1600000 (constantI S_ 32 100000#32))) A5)
        (ix2 t (0 : Fin 1))).toInt.toNat (100000 - 1)
      = min (wrapIdx (A5 (ix1 t))).toInt.toNat (100000 - 1)
  rw [col_apply, wrapped_apply]

/-- THE SECOND EDGE SUM, as a function of the three arrays it reads: entry `(n, j)` of the scatter-add into zeros
    is the sum, over the edges whose destination word read signed is `n`, of entry `j` of the row of `X` the
    edge's source word names. An edge whose destination is no row adds nowhere. -/
theorem edgeSum_apply (X : FVec Ideal S100000x64 .bf16) (A5 A6 : IVec S1600000 32) (n : Fin 100000) (j : Fin 64) :
    Host.scatterAdd (F := Ideal) scatter_S100000x64_S1600000x1_S1600000x64_1_0_0_1
        (broadcastInDim S100000x64 ![] bcast_S_S100000x64 (constant (F := Ideal) S_ FTy.f32 0x00000000#32))
        (broadcastInDim S1600000x1 ![0] bcast_S1600000_S1600000x1_0 A6)
        (extf FTy.f32
          (Host.gather gather_S100000x64_S1600000x1_S1600000x64_1_0_n_n_0_1_164 X
            (broadcastInDim S1600000x1 ![0] bcast_S1600000_S1600000x1_0
              (select (cmpi CmpIPredicate.slt A5 (broadcastInDim S1600000 ![] bcast_S_S1600000 (constantI S_ 32 0#32)))
                (addi A5 (broadcastInDim S1600000 ![] bcast_S_S1600000 (constantI S_ 32 100000#32))) A5)))
          bitsLt_bf16_f32)
        (ix2 n j)
      = agg (srow A5) (sInt A6) (mat X) n j := by
  rw [scatterAdd_rows _ _ dims_scatter2, rowScatterAdd_apply, zeros_apply, zero_add]
  unfold agg
  refine Finset.sum_congr (Finset.filter_congr fun t _ => ?_) fun t _ => gathered_apply X A5 t j
  rw [col_apply]
  rfl

/-! ## The stretch between the two kernels -/

/-- After the host stretch between the two kernels, its last result holds the second edge sum of what the first
    kernel wrote, by the source and destination words of the edges. -/
theorem stage_v44 (W : Valuation τ sig (Elt Ideal)) (n : Fin 100000) (j : Fin 64) :
    (StableHlo.after hostOps1 W (Proc.devRef .tc main_v44) : S100000x64.Idx → EReal) (ix2 n j)
      = Cert.Spec.agg (Cert.Args.srow (W (Proc.devRef .tc main_arg5))) (Cert.Args.sInt (W (Proc.devRef .tc main_arg6)))
          (Cert.Args.mat (W (Proc.devRef .tc main_v33) : S100000x64.Idx → EReal)) n j := by
  show StableHlo.after hostOps1 W (Proc.devRef .tc main_v44) (ix2 n j) = _
  after_results
  exact edgeSum_apply (W (Proc.devRef .tc main_v33)) (W (Proc.devRef .tc main_arg5)) (W (Proc.devRef .tc main_arg6)) n j

/-- A reference the host stretch between the two kernels does not write keeps its contents. -/
theorem after1_keep (W : Valuation τ sig (Elt Ideal)) (b : Ref sig .tc) (h : b ∉ hostOps1_W) :
    StableHlo.after hostOps1 W (Proc.devRef .tc b) = W (Proc.devRef .tc b) :=
  StableHlo.after_of_writes_sub hostOps1 _ hostOps1_writes h

/-- A reference none of the five host stretches before the first kernel writes still holds its launch contents
    when that kernel starts. -/
theorem V5_keep (m : (ℓ : Loc nD τ sig) → Buf (Elt Ideal) ℓ) (c : Dev nD) (r : Ref sig .tc)
    (h1 : r ∉ hostOps0_W) (h2 : r ∉ hostOps0_1_W) (h3 : r ∉ hostOps0_2_W) (h4 : r ∉ hostOps0_3_W)
    (h5 : r ∉ hostOps0_4_W) :
    V5 m c (Proc.devRef .tc r) = m ((c : Thread nD τ).loc r) :=
  (V5_of m c r h5).trans <| (V4_of m c r h4).trans <| (V3_of m c r h3).trans <| (V2_of m c r h2).trans <|
    (V1_of m c r h1).trans rfl

end Cert.KernelIdeal.HostStages

end
-- ==== Proof.HostStages3.lean ====
/-
  The kernel program's first edge sum, as the host operations before the first kernel leave it.

  The fifth stretch of host operations takes the reciprocal square root of the clipped source degrees (the source
  normaliser), scales every row of the features by its node's normaliser, narrows the products to the shorter float
  format and widens them back (both the identity on extended reals), takes for every edge the row of its source node
  (the source word wrapped when negative, then clamped into the rows) and adds that row into the row of the edge's
  destination node, an edge whose destination word names no node adding nowhere. Entry `(n, k)` of the result is
  therefore the sum, over the edges into `n`, of the scaled feature `k` of the edge's source node: `agg0Ker`. As for
  the other stretches, the stretch is first read from ANY contents of the buffers, then from the launch contents.
-/
import proofs.«404963_j59098749993497_3_alg».proof.Proof.HostStages

noncomputable section

namespace Cert.KernelIdeal.HostStages

open Cert.KernelIdeal Cert.KernelIdeal.Gen Idealize.ShloMosaic Idealize.ShloMosaic.ValueIdx Idealize.ShloMosaic.TcCoe
open Cert.Spec Cert.Args Cert.LibIndex

/-! ## The gather and the scatter of the fifth stretch -/

/-- The gather's dimension numbers: 1600000 rows of 128 taken out of 100000. -/
theorem v32_dims_gather : gather_S100000x128_S1600000x1_S1600000x128_1_0_n_n_0_1_1128
    = rowGatherDims 100000 1600000 128 gather_S100000x128_S1600000x1_S1600000x128_1_0_n_n_0_1_1128_wf := rfl

/-- The scatter's dimension numbers: 1600000 rows of 128 accumulated into 100000. -/
theorem v32_dims_scatter : scatter_S100000x128_S1600000x1_S1600000x128_1_0_0_1
    = rowScatterDims 100000 1600000 128 scatter_S100000x128_S1600000x1_S1600000x128_1_0_0_1_wf := rfl

/-- A row gather whose start indices are the wrapped source words takes, for edge `t`, the row `srow src t`. -/
theorem v32_gather_row {α : Type} {C : Nat}
    (wf : GatherDims.WF ⟨2, ![100000, C]⟩ ⟨2, ![1600000, 1]⟩ ⟨2, ![1600000, C]⟩ [1] [0] [] [0] [] 1 ![1, C])
    (X : (⟨2, ![100000, C]⟩ : Shape).Idx → α) (idx : IVec ⟨2, ![1600000, 1]⟩ 32) (src : S1600000.Idx → BitVec 32)
    (hidx : ∀ t : Fin 1600000, idx (ix2 t (0 : Fin 1)) = wrapIdx (src (ix1 t))) (t : Fin 1600000) (k : Fin C) :
    Host.gather (rowGatherDims 100000 1600000 C wf) X idx (ix2 t k) = X (ix2 (srow src t) k) := by
  rw [rowGather_apply (by omega)]
  refine congrArg (fun r => X (ix2 r k)) (Fin.ext ?_)
  show min (idx (ix2 t (0 : Fin 1))).toInt.toNat (100000 - 1) = min (wrapIdx (src (ix1 t))).toInt.toNat (100000 - 1)
  rw [hidx]

/-- The wrapped source words as the fifth stretch computes them, in a one-column array: 100000 is added to a
    negative word. -/
theorem v32_wrapped (src : S1600000.Idx → BitVec 32) (t : Fin 1600000) :
    broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)
        (ix2 t (0 : Fin 1))
      = wrapIdx (src (ix1 t)) := by
  rw [bcastCol_apply, select_apply]
  rfl

/-! ## The fifth stretch, from any contents `W` of the buffers -/

/-- Stretch 4 leaves the first edge sum: every node collects, over the edges into it, the features of the edge's
    source node scaled by the reciprocal square root of what the stretch finds as that node's clipped degree. -/
theorem v32_stretch (W : Valuation τ sig (Elt Ideal)) (x : S100000x128.Idx → EReal) (src dst : S1600000.Idx → BitVec 32)
    (d4 : S100000.Idx → EReal) (hx : W (Proc.devRef .tc main_arg0) = x) (hsrc : W (Proc.devRef .tc main_arg5) = src)
    (hdst : W (Proc.devRef .tc main_arg6) = dst) (hd : W (Proc.devRef .tc main_v4) = d4) (n : Fin 100000) (k : Fin 128) :
    @Eq EReal (StableHlo.after hostOps0_4 W (Proc.devRef .tc main_v32) (ix2 n k))
      (agg (srow src) (sInt dst) (fun r k => mat x r k * Ideal.rsqrt (d4 (ix1 r))) n k) := by
  after_results_simp
  rw [hx, hsrc, hdst, hd, hostScatterAdd_eq, v32_dims_scatter, rowScatterAdd_apply, bcast0_apply, constant_apply,
    Ideal.ofBits_zero_f32, zero_add]
  unfold agg
  refine Finset.sum_congr (Finset.filter_congr fun t _ => ?_) fun t _ => ?_
  · -- the destination of edge t: its destination word, read signed
    rw [bcastCol_apply]; rfl
  · -- the row edge t adds: row (srow t) of the scaled features, unchanged by the two format changes
    rw [extf_apply, v32_dims_gather, v32_gather_row _ _ _ src (v32_wrapped src), truncf_apply, mulf_apply,
      bcastRows_apply, bcastCol_apply, hostRsqrt_apply]
    rfl

/-! ## From the launch contents -/

variable (m : (ℓ : Loc nD τ sig) → Buf (Elt Ideal) ℓ) (c : Dev nD)

/-- A buffer none of the first four stretches writes still holds its launch contents when the fifth starts. -/
theorem v32_launch (r : Ref sig .tc) (h1 : r ∉ hostOps0_W) (h2 : r ∉ hostOps0_1_W) (h3 : r ∉ hostOps0_2_W)
    (h4 : r ∉ hostOps0_3_W) : V4 m c (Proc.devRef .tc r) = m ((c : Thread nD τ).loc r) :=
  (V4_of m c r h4).trans <| (V3_of m c r h3).trans <| (V2_of m c r h2).trans <| (V1_of m c r h1).trans rfl

/-- THE FIRST EDGE SUM OF THE KERNEL PROGRAM, as the first kernel finds it. -/
theorem stage_v32 (n : Fin 100000) (k : Fin 128) :
    (V5 m c (Proc.devRef .tc main_v32) : S100000x128.Idx → EReal) (ix2 n k)
      = agg0Ker (srow (m ((c : Thread nD τ).loc main_arg5))) (sInt (m ((c : Thread nD τ).loc main_arg6)))
          (mat (m ((c : Thread nD τ).loc main_arg0))) (nrm (sInt (m ((c : Thread nD τ).loc main_arg5)))) n k := by
  refine (v32_stretch (V4 m c) _ _ _ _
    (v32_launch m c main_arg0 (by decide) (by decide) (by decide) (by decide))
    (v32_launch m c main_arg5 (by decide) (by decide) (by decide) (by decide))
    (v32_launch m c main_arg6 (by decide) (by decide) (by decide) (by decide)) rfl n k).trans ?_
  unfold agg0Ker
  refine congrArg (fun M => agg (srow (m ((c : Thread nD τ).loc main_arg5))) (sInt (m ((c : Thread nD τ).loc main_arg6))) M n k)
    (funext fun r => funext fun k' => ?_)
  rw [V4_v4_apply m c r]
  rfl

/-- The same, with the array named at its literal type first. -/
theorem stage_v32_show (n : Fin 100000) (k : Fin 128) :
    (show S100000x128.Idx → EReal from V5 m c (Proc.devRef .tc main_v32)) (ix2 n k)
      = agg0Ker (srow (m ((c : Thread nD τ).loc main_arg5))) (sInt (m ((c : Thread nD τ).loc main_arg6)))
          (mat (m ((c : Thread nD τ).loc main_arg0))) (nrm (sInt (m ((c : Thread nD τ).loc main_arg5)))) n k :=
  stage_v32 m c n k

end Cert.KernelIdeal.HostStages

end
-- ==== Proof.KernelValue.lean ====
/-
  The kernel's result, entry by entry, in the words of the specification.

  The program's result array is what the readout region's write-backs leave. That is the readout (membership-weighted
  sums tile by tile, divided by the counts) of the node outputs built from the second edge sum; the second edge sum is
  the stretch of host operations between the regions applied to the projection's output array; the projection's output
  is layer one and layer two's product from the first edge sum, the normalisers and the weights; and the first edge sum
  and the normaliser arrays are what the host operations before the projection compute from the launch arguments. Every
  other buffer on the way holds its launch contents. Composed, as equalities of the functions each stage is fed, this
  is `resultKer` of the launch arguments.
-/
import proofs.«404963_j59098749993497_3_alg».proof.Proof.KI.Frame
import proofs.«404963_j59098749993497_3_alg».proof.Proof.ProjValue
import proofs.«404963_j59098749993497_3_alg».proof.Proof.ReadoutValue
import proofs.«404963_j59098749993497_3_alg».proof.Proof.HostStages
import proofs.«404963_j59098749993497_3_alg».proof.Proof.HostStages2
import proofs.«404963_j59098749993497_3_alg».proof.Proof.HostStages3
import proofs.«404963_j59098749993497_3_alg».proof.Proof.ReadoutPayload
import proofs.«404963_j59098749993497_3_alg».proof.Proof.Spec
import proofs.«404963_j59098749993497_3_alg».proof.Proof.Args
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
  Idealize.ShloMosaic.ValueIdx

/-- THE COMPOSITION, over arrays alone. Let A be the first edge sum of the scaled features, Nr the two columns of
    normalisers (source, destination), P the projection's output computed from A, Nr and the first layer's weights, A2 the
    edge sum of P's rows, DG the destination normalisers beside the graph words as reals. Then the readout of A2 is the
    kernel's result, end to end. -/
theorem compose (src dst : S1600000.Idx → BitVec 32) (gid : S100000.Idx → BitVec 32) (X : S100000x128.Idx → EReal)
    (W1 : S128x128.Idx → EReal) (B1 : S128.Idx → EReal) (W2 : S128x64.Idx → EReal) (B2 : S64.Idx → EReal)
    (A : S100000x128.Idx → EReal) (Nr : S100000x2.Idx → EReal) (P A2 : S100000x64.Idx → EReal) (DG : S100000x2.Idx → EReal)
    (hA : ∀ n k, A (ix2 n k) = Spec.agg0Ker (Args.srow src) (Args.sInt dst) (Args.mat X) (Spec.nrm (Args.sInt src)) n k)
    (hNr : ∀ n, Nr (ix2 n (0 : Fin 2)) = Spec.nrm (Args.sInt src) n ∧ Nr (ix2 n (1 : Fin 2)) = Spec.nrm (Args.sInt dst) n)
    (hP : ∀ n q, P (ix2 n q) = ProjValue.projSpec A Nr B1 W1 W2 n q)
    (hA2 : ∀ n j, A2 (ix2 n j) = Spec.agg (Args.srow src) (Args.sInt dst) (Args.mat P) n j)
    (hDG : ∀ n, DG (ix2 n (0 : Fin 2)) = Spec.nrm (Args.sInt dst) n
      ∧ DG (ix2 n (1 : Fin 2)) = (((gid (ix1 n)).toInt : ℝ) : EReal))
    (g : Fin 100) (j : Fin 64) :
    ReadoutValue.readSpec A2 DG B2 g j
      = Spec.resultKer (Args.srow src) (Args.sInt dst) (Args.sInt gid) (Args.mat X) (Args.mat W1) (Args.vec B1) (Args.mat W2)
          (Args.vec B2) (Spec.nrm (Args.sInt src)) (Spec.nrm (Args.sInt dst)) g j := by
  have hgid : (fun r => (Ideal.fptosi 32 (DG (ix2 r (1 : Fin 2)))).toInt) = Args.sInt gid := funext fun r => by
    rw [(hDG r).2, ReadoutPayload.fptosi_sitofp]; rfl
  have hdn : (fun r => DG (ix2 r (0 : Fin 2))) = Spec.nrm (Args.sInt dst) := funext fun r => (hDG r).1
  have hsn' : (fun r => Nr (ix2 r (0 : Fin 2))) = Spec.nrm (Args.sInt src) := funext fun r => (hNr r).1
  have hdn' : (fun r => Nr (ix2 r (1 : Fin 2))) = Spec.nrm (Args.sInt dst) := funext fun r => (hNr r).2
  have hA' : Args.mat A = Spec.agg0Ker (Args.srow src) (Args.sInt dst) (Args.mat X) (Spec.nrm (Args.sInt src)) :=
    funext fun n => funext fun k => hA n k
  have hP' : Args.mat P = Spec.hw2Ker (Args.mat W1) (Args.vec B1) (Args.mat W2) (Spec.nrm (Args.sInt src)) (Spec.nrm (Args.sInt dst))
      (Spec.agg0Ker (Args.srow src) (Args.sInt dst) (Args.mat X) (Spec.nrm (Args.sInt src))) :=
    funext fun n => funext fun q => by
      show P (ix2 n q) = _
      rw [hP n q]; unfold ProjValue.projSpec; rw [hsn', hdn', hA']
  have hA2' : Args.mat A2 = Spec.agg (Args.srow src) (Args.sInt dst)
      (Spec.hw2Ker (Args.mat W1) (Args.vec B1) (Args.mat W2) (Spec.nrm (Args.sInt src)) (Spec.nrm (Args.sInt dst))
        (Spec.agg0Ker (Args.srow src) (Args.sInt dst) (Args.mat X) (Spec.nrm (Args.sInt src)))) :=
    funext fun n => funext fun j => by
      show A2 (ix2 n j) = _
      rw [hA2 n j, hP']
  unfold ReadoutValue.readSpec Spec.resultKer
  rw [hgid, hdn, hA2']

variable (m : (ℓ : Loc nD τ sig) → Buf (Elt Ideal) ℓ) (c : Dev nD)

/-! ## The buffers the composition reads, traced back through the run -/

/-- The second normaliser array reaches the readout region as the host operations before the projection left it: the
    stretch between the regions does not write it and the projection region does not stage it. -/
theorem U7_v17 : Hand.U7 m c main_v17 = V5 m c main_v17 :=
  (Hand.W7_keep m c main_v17 (by decide)).trans (Hand.X6_of_ne m c main_v17 (by decide))

/-- The second bias reaches the readout region as launched. -/
theorem U7_arg4 : Hand.U7 m c main_arg4 = m ((c.tc : Thread nD τ).loc main_arg4) :=
  (Hand.W7_keep m c main_arg4 (by decide)).trans <| (Hand.X6_of_ne m c main_arg4 (by decide)).trans
    (Hand.V5_launch m c main_arg4 (by decide) (by decide) (by decide) (by decide) (by decide))

/-- The edges' source words leave the projection region as launched. -/
theorem X6_arg5 : Hand.X6 m c (Proc.devRef .tc main_arg5) = m ((c.tc : Thread nD τ).loc main_arg5) :=
  (Hand.X6_of_ne m c main_arg5 (by decide)).trans
    (Hand.V5_launch m c main_arg5 (by decide) (by decide) (by decide) (by decide) (by decide))

/-- The edges' destination words leave the projection region as launched. -/
theorem X6_arg6 : Hand.X6 m c (Proc.devRef .tc main_arg6) = m ((c.tc : Thread nD τ).loc main_arg6) :=
  (Hand.X6_of_ne m c main_arg6 (by decide)).trans
    (Hand.V5_launch m c main_arg6 (by decide) (by decide) (by decide) (by decide) (by decide))

/-- The projection's output array leaves its region at the blocks written back. -/
theorem X6_v33 : Hand.X6 m c (Proc.devRef .tc main_v33) = (Hand.dat0 (Hand.U5 m) c).arrAt 5 cfg0.N := Hand.X6_arr m c 5

/-- The first layer's weights and bias and the second layer's weights enter the projection region as launched. -/
theorem U5_arg1 : Hand.U5 m c main_arg1 = m ((c.tc : Thread nD τ).loc main_arg1) :=
  Hand.V5_launch m c main_arg1 (by decide) (by decide) (by decide) (by decide) (by decide)
theorem U5_arg2 : Hand.U5 m c main_arg2 = m ((c.tc : Thread nD τ).loc main_arg2) :=
  Hand.V5_launch m c main_arg2 (by decide) (by decide) (by decide) (by decide) (by decide)
theorem U5_arg3 : Hand.U5 m c main_arg3 = m ((c.tc : Thread nD τ).loc main_arg3) :=
  Hand.V5_launch m c main_arg3 (by decide) (by decide) (by decide) (by decide) (by decide)

/-! ## The result -/

/-- THE KERNEL'S RESULT IN THE WORDS OF THE SPECIFICATION: the entry (g, j) of what the readout region's write-backs
    leave is `resultKer` of the launch arguments read as matrices, vectors and signed integers, with the two normalisers
    the reciprocal square roots of the source and destination degrees. -/
theorem result_value (g : Fin 100) (j : Fin 64) :
    ((Hand.dat1 (F := Ideal) (Hand.U7 m) c).arrAt 3 cfg1.N : S100x64.Idx → EReal) (ix2 g j)
      = Spec.resultKer (Args.srow (m ((c.tc : Thread nD τ).loc main_arg5))) (Args.sInt (m ((c.tc : Thread nD τ).loc main_arg6)))
          (Args.sInt (m ((c.tc : Thread nD τ).loc main_arg7))) (Args.mat (m ((c.tc : Thread nD τ).loc main_arg0)))
          (Args.mat (m ((c.tc : Thread nD τ).loc main_arg1))) (Args.vec (m ((c.tc : Thread nD τ).loc main_arg2)))
          (Args.mat (m ((c.tc : Thread nD τ).loc main_arg3))) (Args.vec (m ((c.tc : Thread nD τ).loc main_arg4)))
          (Spec.nrm (Args.sInt (m ((c.tc : Thread nD τ).loc main_arg5)))) (Spec.nrm (Args.sInt (m ((c.tc : Thread nD τ).loc main_arg6)))) g j := by
  refine (ReadoutValue.final1 (Hand.U7 m) c g j).trans ?_
  rw [U7_arg4 m c]
  refine compose (m ((c.tc : Thread nD τ).loc main_arg5)) (m ((c.tc : Thread nD τ).loc main_arg6)) (m ((c.tc : Thread nD τ).loc main_arg7))
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (V5 m c main_v32) (V5 m c main_v13) (Hand.X6 m c (Proc.devRef .tc main_v33)) (Hand.U7 m c main_v44) (Hand.U7 m c main_v17)
    (fun n k => HostStages.stage_v32 m c n k) (fun n => HostStages.stage_v13 m c n) ?hP ?hA2 ?hDG g j
  case hP =>
    intro n q
    refine (congrFun (X6_v33 m c) (ix2 n q)).trans ((ProjValue.final0_spec (Hand.U5 m) c n q).trans ?_)
    rw [U5_arg1 m c, U5_arg2 m c, U5_arg3 m c]
  case hA2 =>
    intro n j
    refine (HostStages.stage_v44 (Hand.X6 m c) n j).trans ?_
    rw [X6_arg5 m c, X6_arg6 m c]
  case hDG =>
    intro n
    rw [U7_v17 m c]
    exact HostStages.stage_v17 m c n

end Cert.KernelIdeal.KernelValue

end
-- ==== Proof.RefSide.lean ====
/-
  The reference program's run and its stages read at an index, as generated; the facts about the reference's
  value that the bridge needs are stated over them.
-/
import proofs.«404963_j59098749993497_3_alg».proof.Proof.Gen.ReferenceIdeal.Run
import proofs.«404963_j59098749993497_3_alg».proof.Proof.Gen.ReferenceIdeal.Read
-- ==== Proof.RefStages1.lean ====
/-
  The reference, first half, stage by stage in the words of the specification.

  Each lemma reads ONE named stage of the reference at an index. The degree of a node is a scatter-add of the word 1.0
  over the edges' endpoint words into zeros, so it is the count (in units of 1.0) of the edges whose endpoint, read
  signed, is that node; the normaliser is the reciprocal square root of the degree raised to at least 1.0. Layer one
  scales the features' rows by the source normaliser, multiplies by the first weight matrix, takes for every edge the
  row of its (wrapped, clamped) source node, adds these rows into the edges' destination nodes, scales the rows by the
  destination normaliser, adds the bias and rectifies: that is `h1Ref`.
-/
import proofs.«404963_j59098749993497_3_alg».proof.Proof.RefSide
import proofs.«404963_j59098749993497_3_alg».proof.Proof.Spec
import proofs.«404963_j59098749993497_3_alg».proof.Proof.Args
import proofs.«404963_j59098749993497_3_alg».proof.Proof.LibIndex
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Spec Cert.Args Cert.LibIndex

/-! ## The accumulating scatters and the row gathers of the program are the ones read at an index

The program's dimension-number records are, field by field, the records the index lemmas are stated for. -/

/-- An accumulating scatter of scalars whose record is the library's: at the ideal instance, the exact sum. -/
theorem scatterAdd_vec_eq {N T w : Nat} (wf : ScatterDims.WF ⟨1, ![N]⟩ ⟨2, ![T, 1]⟩ ⟨1, ![T]⟩ [] [0] [0] 1)
    (d : ScatterDims ⟨1, ![N]⟩ ⟨2, ![T, 1]⟩ ⟨1, ![T]⟩) (hd : d = vecScatterDims N T wf)
    (x : (⟨1, ![N]⟩ : Shape).Idx → EReal) (idx : IVec ⟨2, ![T, 1]⟩ w) (upd : (⟨1, ![T]⟩ : Shape).Idx → EReal) :
    Host.scatterAdd (F := Ideal) (φ := .f32) d x idx upd = Ideal.hostScatterAdd (vecScatterDims N T wf) x idx upd := by
  subst hd; rfl

/-- An accumulating scatter of rows whose record is the library's: at the ideal instance, the exact sum. -/
theorem scatterAdd_row_eq {N T H w : Nat} (wf : ScatterDims.WF ⟨2, ![N, H]⟩ ⟨2, ![T, 1]⟩ ⟨2, ![T, H]⟩ [1] [0] [0] 1)
    (d : ScatterDims ⟨2, ![N, H]⟩ ⟨2, ![T, 1]⟩ ⟨2, ![T, H]⟩) (hd : d = rowScatterDims N T H wf)
    (x : (⟨2, ![N, H]⟩ : Shape).Idx → EReal) (idx : IVec ⟨2, ![T, 1]⟩ w) (upd : (⟨2, ![T, H]⟩ : Shape).Idx → EReal) :
    Host.scatterAdd (F := Ideal) (φ := .f32) d x idx upd = Ideal.hostScatterAdd (rowScatterDims N T H wf) x idx upd := by
  subst hd; rfl

/-- The degree scatters: 1600000 scalars into 100000 places. -/
theorem dims_deg : scatter_S100000_S1600000x1_S1600000_n_0_0_1
    = vecScatterDims 100000 1600000 scatter_S100000_S1600000x1_S1600000_n_0_0_1_wf := rfl

/-- Layer one's gather: 1600000 rows of 128 out of 100000. -/
theorem dims_gather1 : gather_S100000x128_S1600000x1_S1600000x128_1_0_n_n_0_1_1128
    = rowGatherDims 100000 1600000 128 gather_S100000x128_S1600000x1_S1600000x128_1_0_n_n_0_1_1128_wf := rfl

/-- Layer one's scatter: 1600000 rows of 128 into 100000. -/
theorem dims_scatter1 : scatter_S100000x128_S1600000x1_S1600000x128_1_0_0_1
    = rowScatterDims 100000 1600000 128 scatter_S100000x128_S1600000x1_S1600000x128_1_0_0_1_wf := rfl

variable (x0 : S100000x128.Idx → EReal) (x1 : S128x128.Idx → EReal) (x2 : S128.Idx → EReal)
  (x5 x6 : S1600000.Idx → BitVec 32)

/-! ## Degrees and normalisers -/

/-- The updates of a degree scatter: the word 1.0 at every edge. -/
theorem ones_edges (e : Fin 1600000) : val_main_v0 (F := Ideal) (ix1 e) = one := by
  rw [val_main_v0_apply]; rfl

/-- The source degrees accumulate into zeros. -/
theorem zeros_deg_src (n : Fin 100000) : val_main_v1 (F := Ideal) (ix1 n) = 0 := by
  rw [val_main_v1_apply, val_main_cst_0_apply]; exact Ideal.ofBits_zero_f32

/-- The destination degrees accumulate into zeros. -/
theorem zeros_deg_dst (n : Fin 100000) : val_main_v5 (F := Ideal) (ix1 n) = 0 := by
  rw [val_main_v5_apply, val_main_cst_2_apply]; exact Ideal.ofBits_zero_f32

/-- The start index of edge `e` in the source-degree scatter is its source word, read signed. -/
theorem src_int_deg (e : Fin 1600000) :
    (val_main_v2 (F := Ideal) x5 (ix2 e (0 : Fin 1))).toInt = sInt x5 e := by
  have h : idx_main_v2 (ix2 e (0 : Fin 1)) = ix1 e := funext fun a => by match a with | ⟨0, _⟩ => rfl
  rw [val_main_v2_apply, h]; rfl

/-- The start index of edge `e` in the destination-degree scatter is its destination word, read signed. -/
theorem dst_int_deg (e : Fin 1600000) :
    (val_main_v6 (F := Ideal) x6 (ix2 e (0 : Fin 1))).toInt = sInt x6 e := by
  have h : idx_main_v6 (ix2 e (0 : Fin 1)) = ix1 e := funext fun a => by match a with | ⟨0, _⟩ => rfl
  rw [val_main_v6_apply, h]; rfl

/-- THE SOURCE DEGREE: the scatter-add of 1.0 by source word is the count of the edges out of the node. -/
theorem deg_src (n : Fin 100000) : val_main_v3 (F := Ideal) x5 (ix1 n) = deg (sInt x5) n := by
  unfold val_main_v3
  rw [scatterAdd_vec_eq _ _ dims_deg, vecScatterAdd_apply, zeros_deg_src, zero_add]
  unfold deg
  simp only [src_int_deg, ones_edges]

/-- THE DESTINATION DEGREE: the scatter-add of 1.0 by destination word is the count of the edges into the node. -/
theorem deg_dst (n : Fin 100000) : val_main_v7 (F := Ideal) x6 (ix1 n) = deg (sInt x6) n := by
  unfold val_main_v7
  rw [scatterAdd_vec_eq _ _ dims_deg, vecScatterAdd_apply, zeros_deg_dst, zero_add]
  unfold deg
  simp only [dst_int_deg, ones_edges]

/-- The lower bound of the first clip: the word 1.0 at every node. -/
theorem one_clip_src (n : Fin 100000) : val_main_call0_v1 (F := Ideal) (ix1 n) = one := by
  rw [val_main_call0_v1_apply]; rfl

/-- The lower bound of the second clip: the word 1.0 at every node. -/
theorem one_clip_dst (n : Fin 100000) : val_main_call1_v1 (F := Ideal) (ix1 n) = one := by
  rw [val_main_call1_v1_apply]; rfl

/-- THE SOURCE NORMALISER: clip to at least 1.0, then the reciprocal square root. -/
theorem nrm_src (n : Fin 100000) : val_main_v9 (F := Ideal) x5 (ix1 n) = nrm (sInt x5) n := by
  rw [val_main_v9_apply, val_main_v4_apply, deg_src, one_clip_src, Ideal.hostUnary_rsqrt_def, Ideal.maximumf_def]
  rfl

/-- THE DESTINATION NORMALISER. -/
theorem nrm_dst (n : Fin 100000) : val_main_v10 (F := Ideal) x6 (ix1 n) = nrm (sInt x6) n := by
  rw [val_main_v10_apply, val_main_v8_apply, deg_dst, one_clip_dst, Ideal.hostUnary_rsqrt_def, Ideal.maximumf_def]
  rfl

/-! ## Layer one -/

/-- The source normaliser spread along the 128 feature columns. -/
theorem sn_cols128 (r : Fin 100000) (k : Fin 128) : val_main_v12 (F := Ideal) x5 (ix2 r k) = nrm (sInt x5) r := by
  have h : idx_main_v11 (idx_main_v12 (ix2 r k)) = ix1 r := funext fun a => by match a with | ⟨0, _⟩ => rfl
  rw [val_main_v12_apply, val_main_v11_apply, h, nrm_src]

/-- The features with every row scaled by its node's source normaliser. -/
theorem scaled1 (r : Fin 100000) (k : Fin 128) :
    val_main_v13 (F := Ideal) x0 x5 (ix2 r k) = mat x0 r k * nrm (sInt x5) r := by
  rw [val_main_v13_apply, sn_cols128]; rfl

/-- THE FIRST PRODUCT: the scaled features times the first weight matrix. -/
theorem xw1 (r : Fin 100000) (j : Fin 128) :
    val_main_v14 (F := Ideal) x0 x1 x5 (ix2 r j)
      = mm (fun r k => mat x0 r k * nrm (sInt x5) r) (mat x1) r j := by
  rw [val_main_v14_apply]
  unfold mm
  refine Finset.sum_congr rfl fun k _ => ?_
  have hl : lidx_main_v14 (ix2 r j) k = ix2 r k :=
    funext fun a => by match a with | ⟨0, _⟩ => rfl | ⟨1, _⟩ => rfl
  have hr : ridx_main_v14 (ix2 r j) k = ix2 k j :=
    funext fun a => by match a with | ⟨0, _⟩ => rfl | ⟨1, _⟩ => rfl
  rw [hl, hr, scaled1]; rfl

/-- The wrapped source word of edge `e`: 100000 added when the word is negative. -/
theorem wrapped1 (e : Fin 1600000) :
    val_main_v20 (F := Ideal) x5 (ix2 e (0 : Fin 1)) = wrapIdx (x5 (ix1 e)) := by
  have h : idx_main_v20 (ix2 e (0 : Fin 1)) = ix1 e := funext fun a => by match a with | ⟨0, _⟩ => rfl
  rw [val_main_v20_apply, h, val_main_v19_apply, val_main_v16_apply, val_main_v18_apply, val_main_v15_apply,
    val_main_v17_apply]
  rfl

/-- THE FIRST GATHER: edge `e` takes the row of its source node. -/
theorem gathered1 (e : Fin 1600000) (j : Fin 128) :
    val_main_v21 (F := Ideal) x0 x1 x5 (ix2 e j)
      = mm (fun r k => mat x0 r k * nrm (sInt x5) r) (mat x1) (srow x5 e) j := by
  unfold val_main_v21
  rw [dims_gather1, rowGather_apply (by omega), ← xw1]
  refine congrArg (fun r => val_main_v14 (F := Ideal) x0 x1 x5 (ix2 r j)) (Fin.ext ?_)
  show min (val_main_v20 (F := Ideal) x5 (ix2 e (0 : Fin 1))).toInt.toNat (100000 - 1)
    = min (wrapIdx (x5 (ix1 e))).toInt.toNat (100000 - 1)
  rw [wrapped1]

/-- The first edge sum accumulates into zeros. -/
theorem zeros_agg1 (n : Fin 100000) (j : Fin 128) : val_main_v22 (F := Ideal) (ix2 n j) = 0 := by
  rw [val_main_v22_apply, val_main_cst_5_apply]; exact Ideal.ofBits_zero_f32

/-- The start index of edge `e` in the first edge sum is its destination word, read signed. -/
theorem dst_int1 (e : Fin 1600000) :
    (val_main_v23 (F := Ideal) x6 (ix2 e (0 : Fin 1))).toInt = sInt x6 e := by
  have h : idx_main_v23 (ix2 e (0 : Fin 1)) = ix1 e := funext fun a => by match a with | ⟨0, _⟩ => rfl
  rw [val_main_v23_apply, h]; rfl

/-- THE FIRST EDGE SUM: every node collects the gathered rows of the edges into it. -/
theorem agg1 (n : Fin 100000) (j : Fin 128) :
    val_main_v24 (F := Ideal) x0 x1 x5 x6 (ix2 n j)
      = agg (srow x5) (sInt x6) (mm (fun r k => mat x0 r k * nrm (sInt x5) r) (mat x1)) n j := by
  unfold val_main_v24
  rw [scatterAdd_row_eq _ _ dims_scatter1, rowScatterAdd_apply, zeros_agg1, zero_add]
  unfold agg
  simp only [dst_int1, gathered1]

/-- The destination normaliser spread along the 128 columns. -/
theorem dn_cols128 (n : Fin 100000) (j : Fin 128) : val_main_v26 (F := Ideal) x6 (ix2 n j) = nrm (sInt x6) n := by
  have h : idx_main_v25 (idx_main_v26 (ix2 n j)) = ix1 n := funext fun a => by match a with | ⟨0, _⟩ => rfl
  rw [val_main_v26_apply, val_main_v25_apply, h, nrm_dst]

/-- The first bias spread along the 100000 rows. -/
theorem b1_rows (n : Fin 100000) (j : Fin 128) : val_main_v29 (F := Ideal) x2 (ix2 n j) = vec x2 j := by
  have h : idx_main_v28 (idx_main_v29 (ix2 n j)) = ix1 j := funext fun a => by match a with | ⟨0, _⟩ => rfl
  rw [val_main_v29_apply, val_main_v28_apply, h]; rfl

/-- The rectifier's floor: zero everywhere. -/
theorem zeros_relu (n : Fin 100000) (j : Fin 128) : val_main_call2_v0 (F := Ideal) (ix2 n j) = 0 := by
  rw [val_main_call2_v0_apply, val_main_call2_cst_apply]; exact Ideal.ofBits_zero_f32

/-- LAYER ONE OF THE REFERENCE, after the rectifier. -/
theorem h1_at (n : Fin 100000) (j : Fin 128) :
    val_main_v31 (F := Ideal) x0 x1 x2 x5 x6 (ix2 n j)
      = h1Ref (srow x5) (sInt x6) (mat x0) (mat x1) (vec x2) (nrm (sInt x5)) (nrm (sInt x6)) n j := by
  rw [val_main_v31_apply, val_main_v30_apply, val_main_v27_apply, agg1, dn_cols128, b1_rows, zeros_relu]
  rfl

end Cert.ReferenceIdeal.RefValue

end
-- ==== Proof.RefStages2.lean ====
/-
  The reference, second half, stage by stage in the words of the specification.

  Layer two scales layer one's rows by the source normaliser, multiplies by the second weight matrix, takes for every
  edge the row of its source node, adds these rows into the edges' destination nodes, scales by the destination
  normaliser and adds the second bias: that is `outRef`. The readout adds every node's output row into the row of its
  graph (the graph word read signed; a node whose word names no graph adds nowhere), counts each graph's nodes in units
  of 1.0 the same way, raises the counts to at least 1.0 and divides: that is `resultRef`.
-/
import proofs.«404963_j59098749993497_3_alg».proof.Proof.RefSide
import proofs.«404963_j59098749993497_3_alg».proof.Proof.Spec
import proofs.«404963_j59098749993497_3_alg».proof.Proof.Args
import proofs.«404963_j59098749993497_3_alg».proof.Proof.LibIndex
import proofs.«404963_j59098749993497_3_alg».proof.Proof.RefStages1
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Spec Cert.Args Cert.LibIndex

/-- Layer two's gather: 1600000 rows of 64 out of 100000. -/
theorem dims_gather2 : gather_S100000x64_S1600000x1_S1600000x64_1_0_n_n_0_1_164
    = rowGatherDims 100000 1600000 64 gather_S100000x64_S1600000x1_S1600000x64_1_0_n_n_0_1_164_wf := rfl

/-- Layer two's scatter: 1600000 rows of 64 into 100000. -/
theorem dims_scatter2 : scatter_S100000x64_S1600000x1_S1600000x64_1_0_0_1
    = rowScatterDims 100000 1600000 64 scatter_S100000x64_S1600000x1_S1600000x64_1_0_0_1_wf := rfl

/-- The node count: 100000 scalars into 100 places. -/
theorem dims_count : scatter_S100_S100000x1_S100000_n_0_0_1
    = vecScatterDims 100 100000 scatter_S100_S100000x1_S100000_n_0_0_1_wf := rfl

/-- The readout's sum: 100000 rows of 64 into 100. -/
theorem dims_readout : scatter_S100x64_S100000x1_S100000x64_1_0_0_1
    = rowScatterDims 100 100000 64 scatter_S100x64_S100000x1_S100000x64_1_0_0_1_wf := rfl

variable (x0 : S100000x128.Idx → EReal) (x1 : S128x128.Idx → EReal) (x2 : S128.Idx → EReal)
  (x3 : S128x64.Idx → EReal) (x4 : S64.Idx → EReal) (x5 x6 : S1600000.Idx → BitVec 32) (x7 : S100000.Idx → BitVec 32)

/-! ## Layer two -/

/-- The source normaliser spread along the 128 columns of layer one's output. -/
theorem sn_cols128_two (r : Fin 100000) (k : Fin 128) : val_main_v33 (F := Ideal) x5 (ix2 r k) = nrm (sInt x5) r := by
  have h : idx_main_v32 (idx_main_v33 (ix2 r k)) = ix1 r := funext fun a => by match a with | ⟨0, _⟩ => rfl
  rw [val_main_v33_apply, val_main_v32_apply, h, nrm_src]

/-- Layer one's output with every row scaled by its node's source normaliser. -/
theorem scaled2 (r : Fin 100000) (k : Fin 128) :
    val_main_v34 (F := Ideal) x0 x1 x2 x5 x6 (ix2 r k) = h1Ref (srow x5) (sInt x6) (mat x0) (mat x1) (vec x2) (nrm (sInt x5)) (nrm (sInt x6)) r k * nrm (sInt x5) r := by
  rw [val_main_v34_apply, h1_at, sn_cols128_two]; rfl

/-- THE SECOND PRODUCT: the scaled layer-one output times the second weight matrix. -/
theorem hw2 (r : Fin 100000) (j : Fin 64) :
    val_main_v35 (F := Ideal) x0 x1 x2 x3 x5 x6 (ix2 r j)
      = mm (fun r k => h1Ref (srow x5) (sInt x6) (mat x0) (mat x1) (vec x2) (nrm (sInt x5)) (nrm (sInt x6)) r k * nrm (sInt x5) r) (mat x3) r j := by
  rw [val_main_v35_apply]
  unfold mm
  refine Finset.sum_congr rfl fun k _ => ?_
  have hl : lidx_main_v35 (ix2 r j) k = ix2 r k :=
    funext fun a => by match a with | ⟨0, _⟩ => rfl | ⟨1, _⟩ => rfl
  have hr : ridx_main_v35 (ix2 r j) k = ix2 k j :=
    funext fun a => by match a with | ⟨0, _⟩ => rfl | ⟨1, _⟩ => rfl
  rw [hl, hr, scaled2]; rfl

/-- The wrapped source word of edge `e`, as layer two computes it again. -/
theorem wrapped2 (e : Fin 1600000) :
    val_main_v41 (F := Ideal) x5 (ix2 e (0 : Fin 1)) = wrapIdx (x5 (ix1 e)) := by
  have h : idx_main_v41 (ix2 e (0 : Fin 1)) = ix1 e := funext fun a => by match a with | ⟨0, _⟩ => rfl
  rw [val_main_v41_apply, h, val_main_v40_apply, val_main_v37_apply, val_main_v39_apply, val_main_v36_apply,
    val_main_v38_apply]
  rfl

/-- THE SECOND GATHER: edge `e` takes the row of its source node. -/
theorem gathered2 (e : Fin 1600000) (j : Fin 64) :
    val_main_v42 (F := Ideal) x0 x1 x2 x3 x5 x6 (ix2 e j)
      = mm (fun r k => h1Ref (srow x5) (sInt x6) (mat x0) (mat x1) (vec x2) (nrm (sInt x5)) (nrm (sInt x6)) r k * nrm (sInt x5) r) (mat x3) (srow x5 e) j := by
  unfold val_main_v42
  rw [dims_gather2, rowGather_apply (by omega), ← hw2]
  refine congrArg (fun r => val_main_v35 (F := Ideal) x0 x1 x2 x3 x5 x6 (ix2 r j)) (Fin.ext ?_)
  show min (val_main_v41 (F := Ideal) x5 (ix2 e (0 : Fin 1))).toInt.toNat (100000 - 1)
    = min (wrapIdx (x5 (ix1 e))).toInt.toNat (100000 - 1)
  rw [wrapped2]

/-- The second edge sum accumulates into zeros. -/
theorem zeros_agg2 (n : Fin 100000) (j : Fin 64) : val_main_v43 (F := Ideal) (ix2 n j) = 0 := by
  rw [val_main_v43_apply, val_main_cst_8_apply]; exact Ideal.ofBits_zero_f32

/-- The start index of edge `e` in the second edge sum is its destination word, read signed. -/
theorem dst_int2 (e : Fin 1600000) :
    (val_main_v44 (F := Ideal) x6 (ix2 e (0 : Fin 1))).toInt = sInt x6 e := by
  have h : idx_main_v44 (ix2 e (0 : Fin 1)) = ix1 e := funext fun a => by match a with | ⟨0, _⟩ => rfl
  rw [val_main_v44_apply, h]; rfl

/-- THE SECOND EDGE SUM. -/
theorem agg2 (n : Fin 100000) (j : Fin 64) :
    val_main_v45 (F := Ideal) x0 x1 x2 x3 x5 x6 (ix2 n j)
      = agg (srow x5) (sInt x6) (mm (fun r k => h1Ref (srow x5) (sInt x6) (mat x0) (mat x1) (vec x2) (nrm (sInt x5)) (nrm (sInt x6)) r k * nrm (sInt x5) r) (mat x3)) n j := by
  unfold val_main_v45
  rw [scatterAdd_row_eq _ _ dims_scatter2, rowScatterAdd_apply, zeros_agg2, zero_add]
  unfold agg
  simp only [dst_int2, gathered2]

/-- The destination normaliser spread along the 64 output columns. -/
theorem dn_cols64 (n : Fin 100000) (j : Fin 64) : val_main_v47 (F := Ideal) x6 (ix2 n j) = nrm (sInt x6) n := by
  have h : idx_main_v46 (idx_main_v47 (ix2 n j)) = ix1 n := funext fun a => by match a with | ⟨0, _⟩ => rfl
  rw [val_main_v47_apply, val_main_v46_apply, h, nrm_dst]

/-- The second bias spread along the 100000 rows. -/
theorem b2_rows (n : Fin 100000) (j : Fin 64) : val_main_v50 (F := Ideal) x4 (ix2 n j) = vec x4 j := by
  have h : idx_main_v49 (idx_main_v50 (ix2 n j)) = ix1 j := funext fun a => by match a with | ⟨0, _⟩ => rfl
  rw [val_main_v50_apply, val_main_v49_apply, h]; rfl

/-- THE NODE OUTPUTS OF THE REFERENCE. -/
theorem out_at (n : Fin 100000) (j : Fin 64) :
    val_main_v51 (F := Ideal) x0 x1 x2 x3 x4 x5 x6 (ix2 n j) = outRef (srow x5) (sInt x6) (mat x0) (mat x1) (vec x2) (mat x3) (vec x4) (nrm (sInt x5)) (nrm (sInt x6)) n j := by
  rw [val_main_v51_apply, val_main_v48_apply, agg2, dn_cols64, b2_rows]
  rfl

/-! ## The readout -/

/-- The updates of the node count: the word 1.0 at every node. -/
theorem ones_nodes (r : Fin 100000) : val_main_v52 (F := Ideal) (ix1 r) = one := by
  rw [val_main_v52_apply]; rfl

/-- The node counts accumulate into zeros. -/
theorem zeros_count (g : Fin 100) : val_main_v53 (F := Ideal) (ix1 g) = 0 := by
  rw [val_main_v53_apply, val_main_cst_10_apply]; exact Ideal.ofBits_zero_f32

/-- The start index of node `r` in the node count is its graph word, read signed. -/
theorem gid_int_count (r : Fin 100000) :
    (val_main_v54 (F := Ideal) x7 (ix2 r (0 : Fin 1))).toInt = sInt x7 r := by
  have h : idx_main_v54 (ix2 r (0 : Fin 1)) = ix1 r := funext fun a => by match a with | ⟨0, _⟩ => rfl
  rw [val_main_v54_apply, h]; rfl

/-- THE NODE COUNT of graph `g`, in units of 1.0. -/
theorem count_at (g : Fin 100) :
    val_main_v55 (F := Ideal) x7 (ix1 g)
      = ∑ _r ∈ Finset.univ.filter (fun r : Fin 100000 => sInt x7 r = (g.val : Int)), one := by
  unfold val_main_v55
  rw [scatterAdd_vec_eq _ _ dims_count, vecScatterAdd_apply, zeros_count, zero_add]
  simp only [gid_int_count, ones_nodes]

/-- The readout's sums accumulate into zeros. -/
theorem zeros_readout (g : Fin 100) (j : Fin 64) : val_main_v56 (F := Ideal) (ix2 g j) = 0 := by
  rw [val_main_v56_apply, val_main_cst_11_apply]; exact Ideal.ofBits_zero_f32

/-- The start index of node `r` in the readout's sum is its graph word, read signed. -/
theorem gid_int_readout (r : Fin 100000) :
    (val_main_v57 (F := Ideal) x7 (ix2 r (0 : Fin 1))).toInt = sInt x7 r := by
  have h : idx_main_v57 (ix2 r (0 : Fin 1)) = ix1 r := funext fun a => by match a with | ⟨0, _⟩ => rfl
  rw [val_main_v57_apply, h]; rfl

/-- THE READOUT'S SUM: graph `g` collects the output rows of its nodes. -/
theorem sums_at (g : Fin 100) (j : Fin 64) :
    val_main_v58 (F := Ideal) x0 x1 x2 x3 x4 x5 x6 x7 (ix2 g j)
      = ∑ r ∈ Finset.univ.filter (fun r : Fin 100000 => sInt x7 r = (g.val : Int)), outRef (srow x5) (sInt x6) (mat x0) (mat x1) (vec x2) (mat x3) (vec x4) (nrm (sInt x5)) (nrm (sInt x6)) r j := by
  unfold val_main_v58
  rw [scatterAdd_row_eq _ _ dims_readout, rowScatterAdd_apply, zeros_readout, zero_add]
  simp only [gid_int_readout, out_at]

/-- The lower bound of the last clip: the word 1.0 at every graph. -/
theorem one_clip_count (g : Fin 100) : val_main_call3_v1 (F := Ideal) (ix1 g) = one := by
  rw [val_main_call3_v1_apply]; rfl

/-- The divisor: the node count raised to at least 1.0, spread along the 64 columns. -/
theorem divisor_at (g : Fin 100) (j : Fin 64) :
    val_main_v61 (F := Ideal) x7 (ix2 g j)
      = max one (∑ _r ∈ Finset.univ.filter (fun r : Fin 100000 => sInt x7 r = (g.val : Int)), one) := by
  have h : idx_main_v60 (idx_main_v61 (ix2 g j)) = ix1 g := funext fun a => by match a with | ⟨0, _⟩ => rfl
  rw [val_main_v61_apply, val_main_v60_apply, h, val_main_v59_apply, one_clip_count, count_at]; rfl

/-- THE REFERENCE'S LAST STAGE at `(g, j)`: the specification's result. -/
theorem result_at (g : Fin 100) (j : Fin 64) :
    val_main_v62 (F := Ideal) x0 x1 x2 x3 x4 x5 x6 x7 (ix2 g j)
      = resultRef (srow x5) (sInt x6) (sInt x7) (mat x0) (mat x1) (vec x2) (mat x3) (vec x4)
          (nrm (sInt x5)) (nrm (sInt x6)) g j := by
  rw [val_main_v62_apply, sums_at, divisor_at]; rfl

end Cert.ReferenceIdeal.RefValue

end
-- ==== Proof.RefValue.lean ====
/-
  What the reference computes, in the words of the specification.

  The run of the reference leaves, in its result buffer, the composed term of its operations over the launch contents
  of its eight arguments. Read at the entry `(g, j)` that term is the specification's `resultRef` of the arguments read
  as matrices, vectors and signed integers: the features, the two weight matrices and the two biases entry by entry;
  the edges' source words as the rows a gather takes; the edges' destination words and the nodes' graph words as signed
  integers; the two normalisers as the reciprocal square roots of the source and destination degrees.
-/
import proofs.«404963_j59098749993497_3_alg».proof.Proof.RefSide
import proofs.«404963_j59098749993497_3_alg».proof.Proof.Spec
import proofs.«404963_j59098749993497_3_alg».proof.Proof.Args
import proofs.«404963_j59098749993497_3_alg».proof.Proof.RefStages2
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.ValueIdx

variable (m : (ℓ : Loc Cert.ReferenceIdeal.nD Cert.ReferenceIdeal.τ Cert.ReferenceIdeal.sig) → Buf (Elt Ideal) ℓ)
  (c : Dev Cert.ReferenceIdeal.nD)

/-- THE REFERENCE IS THE SPECIFICATION: the result buffer's term at `(g, j)` is `resultRef` of the arguments. -/
theorem ref_value (g : Fin 100) (j : Fin 64) :
    (Cert.ReferenceIdeal.Value.res_main_v62 m c : S100x64.Idx → EReal) (ix2 g j)
      = Cert.Spec.resultRef (Cert.Args.srow (m ((c.tc : Thread nD τ).loc main_arg5))) (Cert.Args.sInt (m ((c.tc : Thread nD τ).loc main_arg6))) (Cert.Args.sInt (m ((c.tc : Thread nD τ).loc main_arg7)))
          (Cert.Args.mat (m ((c.tc : Thread nD τ).loc main_arg0))) (Cert.Args.mat (m ((c.tc : Thread nD τ).loc main_arg1))) (Cert.Args.vec (m ((c.tc : Thread nD τ).loc main_arg2)))
          (Cert.Args.mat (m ((c.tc : Thread nD τ).loc main_arg3))) (Cert.Args.vec (m ((c.tc : Thread nD τ).loc main_arg4)))
          (Cert.Spec.nrm (Cert.Args.sInt (m ((c.tc : Thread nD τ).loc main_arg5)))) (Cert.Spec.nrm (Cert.Args.sInt (m ((c.tc : Thread nD τ).loc main_arg6)))) g j := by
  rw [Cert.ReferenceIdeal.Read.val_main_v62_eq]
  exact result_at _ _ _ _ _ _ _ _ g j

end Cert.ReferenceIdeal.RefValue

end
-- ==== Proof.Law.lean ====
/-
  The algebra that joins the two programs, over the extended reals.

  The reference multiplies by a weight matrix and then sums over incoming edges; the kernel sums over incoming edges
  and then multiplies (layer one), and scales the rows of a product afterwards where the reference scales them before
  it (layer two). Both rearrangements are distributivity of a product over a finite sum together with an exchange of
  two finite sums. Distributivity fails at the infinities of the extended reals, so each law is stated for matrices
  whose entries are real numbers and proved in the reals: the real witnesses are chosen, the embedding is pushed out
  of products and finite sums, and the identity left is one of real finite sums.

  The readout needs no finiteness: a membership weight is 1 or 0, so the weighted sum over the node tiles is the sum
  over the nodes of the graph, once the tiles are seen to enumerate every node exactly once.
-/
import proofs.«404963_j59098749993497_3_alg».proof.Proof.Spec

noncomputable section

namespace Cert.Spec

open Idealize.ShloMosaic

/-! ### The word 1.0, and real numbers inside the extended reals -/

/-- The float word `0x3F800000` denotes the real number one. -/
theorem one_eq : Cert.Spec.one = ((1 : ℝ) : EReal) := by
  rw [EReal.coe_one]
  unfold Cert.Spec.one
  simp [Ideal.ofBits, Ideal.ieee, -EReal.coe_mul]; norm_num

/-- A finite sum of reals, embedded term by term, is the embedded sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two embedded reals is the embedded maximum (the embedding is monotone). -/
theorem coe_max (a b : ℝ) : max (a : EReal) (b : EReal) = ((max a b : ℝ) : EReal) :=
  (EReal.coe_strictMono.monotone.map_max).symm

theorem real_mul {x y : EReal} (hx : ∃ a : ℝ, x = a) (hy : ∃ b : ℝ, y = b) : ∃ c : ℝ, x * y = c := by
  obtain ⟨a, rfl⟩ := hx
  obtain ⟨b, rfl⟩ := hy
  exact ⟨a * b, (EReal.coe_mul a b).symm⟩

theorem real_add {x y : EReal} (hx : ∃ a : ℝ, x = a) (hy : ∃ b : ℝ, y = b) : ∃ c : ℝ, x + y = c := by
  obtain ⟨a, rfl⟩ := hx
  obtain ⟨b, rfl⟩ := hy
  exact ⟨a + b, (EReal.coe_add a b).symm⟩

theorem real_max {x y : EReal} (hx : ∃ a : ℝ, x = a) (hy : ∃ b : ℝ, y = b) : ∃ c : ℝ, max x y = c := by
  obtain ⟨a, rfl⟩ := hx
  obtain ⟨b, rfl⟩ := hy
  exact ⟨max a b, coe_max a b⟩

theorem real_sum {ι : Type*} (s : Finset ι) {f : ι → EReal} (h : ∀ i, ∃ a : ℝ, f i = a) :
    ∃ c : ℝ, ∑ i ∈ s, f i = c := by
  choose fr hfr using h
  exact ⟨∑ i ∈ s, fr i, by rw [← coe_sum]; exact Finset.sum_congr rfl fun i _ => hfr i⟩

/-! ### The degree normaliser is a real number -/

/-- The degree is a finite sum of ones, a real number at least zero; raised to at least one it is positive, and
    the reciprocal square root of a positive real is a real. -/
theorem nrm_real (endI : Fin 1600000 → Int) (n : Fin 100000) : ∃ r : ℝ, nrm endI n = (r : EReal) := by
  unfold nrm deg
  rw [one_eq, coe_sum, coe_max, Ideal.rsqrt_coe]
  have h : (0 : ℝ) < max 1 (∑ _e ∈ Finset.univ.filter (fun e : Fin 1600000 => endI e = (n.val : Int)), (1 : ℝ)) :=
    lt_of_lt_of_le one_pos (le_max_left _ _)
  rw [if_neg (not_lt.mpr h.le), if_neg h.ne']
  exact ⟨_, rfl⟩

/-! ### Products and edge sums of real matrices -/

theorem mm_coe {N K C : Nat} (A : Fin N → Fin K → ℝ) (B : Fin K → Fin C → ℝ) (i : Fin N) (j : Fin C) :
    mm (fun i k => ((A i k : ℝ) : EReal)) (fun k j => ((B k j : ℝ) : EReal)) i j
      = ((∑ k : Fin K, A i k * B k j : ℝ) : EReal) := by
  show ∑ k : Fin K, ((A i k : ℝ) : EReal) * ((B k j : ℝ) : EReal) = _
  rw [← coe_sum]
  exact Finset.sum_congr rfl fun k _ => (EReal.coe_mul _ _).symm

theorem mm_real {N K C : Nat} {A : Fin N → Fin K → EReal} {B : Fin K → Fin C → EReal}
    (hA : ∀ i k, ∃ a : ℝ, A i k = a) (hB : ∀ k j, ∃ a : ℝ, B k j = a) (i : Fin N) (j : Fin C) :
    ∃ a : ℝ, mm A B i j = a :=
  real_sum _ fun k => real_mul (hA i k) (hB k j)

section Graph
variable (srow : Fin 1600000 → Fin 100000) (dstI : Fin 1600000 → Int) (gidI : Fin 100000 → Int)

theorem agg_coe {C : Nat} (M : Fin 100000 → Fin C → ℝ) (n : Fin 100000) (j : Fin C) :
    agg srow dstI (fun r k => ((M r k : ℝ) : EReal)) n j
      = ((∑ e ∈ Finset.univ.filter (fun e : Fin 1600000 => dstI e = (n.val : Int)), M (srow e) j : ℝ) : EReal) :=
  coe_sum _ fun e => M (srow e) j

theorem agg_real {C : Nat} {M : Fin 100000 → Fin C → EReal} (hM : ∀ r k, ∃ a : ℝ, M r k = a)
    (n : Fin 100000) (j : Fin C) : ∃ a : ℝ, agg srow dstI M n j = a :=
  real_sum _ fun e => hM (srow e) j

/-- The edge sum commutes with a product on the right: summing the rows of `M` over the edges into `n` and then
    multiplying by `W` is multiplying every row by `W` and then summing over those edges. Over the reals this is
    distributivity and an exchange of two finite sums. -/
theorem mm_agg {K C : Nat} {M : Fin 100000 → Fin K → EReal} {W : Fin K → Fin C → EReal}
    (hM : ∀ r k, ∃ a : ℝ, M r k = a) (hW : ∀ k j, ∃ a : ℝ, W k j = a) (n : Fin 100000) (j : Fin C) :
    mm (agg srow dstI M) W n j = agg srow dstI (mm M W) n j := by
  choose Mr hMr using hM
  choose Wr hWr using hW
  obtain rfl : M = fun r k => ((Mr r k : ℝ) : EReal) := funext fun r => funext fun k => hMr r k
  obtain rfl : W = fun k j => ((Wr k j : ℝ) : EReal) := funext fun k => funext fun j => hWr k j
  have e1 : agg srow dstI (fun r k => ((Mr r k : ℝ) : EReal))
      = fun n k => ((∑ e ∈ Finset.univ.filter (fun e : Fin 1600000 => dstI e = (n.val : Int)), Mr (srow e) k : ℝ) : EReal) :=
    funext fun n => funext fun k => agg_coe srow dstI Mr n k
  have e2 : mm (fun r k => ((Mr r k : ℝ) : EReal)) (fun k j => ((Wr k j : ℝ) : EReal))
      = fun r j => ((∑ k : Fin K, Mr r k * Wr k j : ℝ) : EReal) :=
    funext fun r => funext fun j => mm_coe Mr Wr r j
  rw [e1, e2, mm_coe, agg_coe]
  refine congrArg Real.toEReal ?_
  simp only [Finset.sum_mul]
  exact Finset.sum_comm

end Graph

/-- Scaling the rows of a product is scaling the rows of its left factor. -/
theorem mm_scale_rows {N K C : Nat} {h : Fin N → Fin K → EReal} {W : Fin K → Fin C → EReal} {s : Fin N → EReal}
    (hh : ∀ r k, ∃ a : ℝ, h r k = a) (hW : ∀ k j, ∃ a : ℝ, W k j = a) (hs : ∀ r, ∃ a : ℝ, s r = a)
    (n : Fin N) (j : Fin C) :
    mm h W n j * s n = mm (fun r k => h r k * s r) W n j := by
  choose hr hhr using hh
  choose Wr hWr using hW
  choose sr hsr using hs
  obtain rfl : h = fun r k => ((hr r k : ℝ) : EReal) := funext fun r => funext fun k => hhr r k
  obtain rfl : W = fun k j => ((Wr k j : ℝ) : EReal) := funext fun k => funext fun j => hWr k j
  obtain rfl : s = fun r => ((sr r : ℝ) : EReal) := funext fun r => hsr r
  have e : (fun (r : Fin N) (k : Fin K) => ((hr r k : ℝ) : EReal) * ((sr r : ℝ) : EReal))
      = fun r k => ((hr r k * sr r : ℝ) : EReal) :=
    funext fun r => funext fun k => (EReal.coe_mul _ _).symm
  beta_reduce
  rw [e, mm_coe, mm_coe, ← EReal.coe_mul]
  refine congrArg Real.toEReal ?_
  rw [Finset.sum_mul]
  exact Finset.sum_congr rfl fun k _ => by ring

/-! ### The readout: node tiles against the whole node range -/

/-- Tiles of 4000 rows enumerate the 100000 nodes exactly once. -/
def tileEquiv : Fin 25 × Fin 4000 ≃ Fin 100000 where
  toFun p := tileRow p.1 p.2
  invFun r := (⟨r.val / 4000, by omega⟩, ⟨r.val % 4000, by omega⟩)
  left_inv p := by
    obtain ⟨⟨t, ht⟩, ⟨q, hq⟩⟩ := p
    refine Prod.ext (Fin.ext ?_) (Fin.ext ?_)
    · show (4000 * t + q) / 4000 = t
      omega
    · show (4000 * t + q) % 4000 = q
      omega
  right_inv r := by
    apply Fin.ext
    show 4000 * (r.val / 4000) + r.val % 4000 = r.val
    omega

/-- A sum tile by tile is the sum over all nodes. -/
theorem sum_tiles (f : Fin 100000 → EReal) : ∑ t : Fin 25, ∑ q : Fin 4000, f (tileRow t q) = ∑ r, f r :=
  (Fintype.sum_prod_type' fun t q => f (tileRow t q)).symm.trans (Equiv.sum_comp tileEquiv f)

section Readout
variable (gidI : Fin 100000 → Int)

/-- The membership-weighted sum over the tiles is the sum over the graph's own nodes: membership is 1 or 0. -/
theorem readout_sum (o : Fin 100000 → Fin 64 → EReal) (g : Fin 100) (j : Fin 64) :
    ∑ t : Fin 25, ∑ q : Fin 4000, member gidI (tileRow t q) g * o (tileRow t q) j
      = ∑ r ∈ Finset.univ.filter (fun r : Fin 100000 => gidI r = (g.val : Int)), o r j := by
  rw [sum_tiles fun r => member gidI r g * o r j, Finset.sum_filter]
  refine Finset.sum_congr rfl fun r _ => ?_
  unfold member
  by_cases h : gidI r = (g.val : Int)
  · rw [if_pos h, if_pos h, one_mul]
  · rw [if_neg h, if_neg h, zero_mul]

/-- The membership counts over the tiles are the number of the graph's nodes, each counted as the word 1.0. -/
theorem readout_count (g : Fin 100) :
    ∑ t : Fin 25, ∑ q : Fin 4000, member gidI (tileRow t q) g
      = ∑ _r ∈ Finset.univ.filter (fun r : Fin 100000 => gidI r = (g.val : Int)), one := by
  rw [sum_tiles fun r => member gidI r g, Finset.sum_filter]
  refine Finset.sum_congr rfl fun r _ => ?_
  unfold member
  rw [one_eq, EReal.coe_one]

end Readout

/-! ### The two programs compute the same readout -/

section Graph
variable (srow : Fin 1600000 → Fin 100000) (dstI : Fin 1600000 → Int) (gidI : Fin 100000 → Int)
variable (x : Fin 100000 → Fin 128 → EReal) (W1 : Fin 128 → Fin 128 → EReal) (b1 : Fin 128 → EReal)
  (W2 : Fin 128 → Fin 64 → EReal) (b2 : Fin 64 → EReal) (sn dn : Fin 100000 → EReal)

/-- Layer one: the kernel's product of the edge sum is the reference's edge sum of the product. -/
theorem h1Ker_eq_h1Ref (hx : ∀ n k, ∃ r : ℝ, x n k = (r : EReal)) (hW1 : ∀ k j, ∃ r : ℝ, W1 k j = r)
    (hsn : ∀ n, ∃ r : ℝ, sn n = r) :
    h1Ker W1 b1 dn (agg0Ker srow dstI x sn) = h1Ref srow dstI x W1 b1 sn dn := by
  funext n j
  show max (mm (agg srow dstI fun r k => x r k * sn r) W1 n j * dn n + b1 j) 0 = _
  rw [mm_agg srow dstI (fun r k => real_mul (hx r k) (hsn r)) hW1]
  rfl

/-- Layer one's output is real-valued: the maximum of a real and zero. -/
theorem h1Ref_real (hx : ∀ n k, ∃ r : ℝ, x n k = (r : EReal)) (hW1 : ∀ k j, ∃ r : ℝ, W1 k j = r)
    (hb1 : ∀ j, ∃ r : ℝ, b1 j = r) (hsn : ∀ n, ∃ r : ℝ, sn n = r) (hdn : ∀ n, ∃ r : ℝ, dn n = r)
    (n : Fin 100000) (j : Fin 128) : ∃ r : ℝ, h1Ref srow dstI x W1 b1 sn dn n j = r :=
  real_max
    (real_add (real_mul (agg_real srow dstI (mm_real (fun r k => real_mul (hx r k) (hsn r)) hW1) n j) (hdn n)) (hb1 j))
    ⟨0, EReal.coe_zero.symm⟩

/-- Layer two before the edge sum: scaling the rows after the product is the reference's scaling before it. -/
theorem hw2Ker_eq (hx : ∀ n k, ∃ r : ℝ, x n k = (r : EReal)) (hW1 : ∀ k j, ∃ r : ℝ, W1 k j = r)
    (hb1 : ∀ j, ∃ r : ℝ, b1 j = r) (hW2 : ∀ k j, ∃ r : ℝ, W2 k j = r)
    (hsn : ∀ n, ∃ r : ℝ, sn n = r) (hdn : ∀ n, ∃ r : ℝ, dn n = r) :
    hw2Ker W1 b1 W2 sn dn (agg0Ker srow dstI x sn)
      = mm (fun r k => h1Ref srow dstI x W1 b1 sn dn r k * sn r) W2 := by
  funext n j
  show mm (h1Ker W1 b1 dn (agg0Ker srow dstI x sn)) W2 n j * sn n = _
  rw [h1Ker_eq_h1Ref srow dstI x W1 b1 sn dn hx hW1 hsn]
  exact mm_scale_rows (h1Ref_real srow dstI x W1 b1 sn dn hx hW1 hb1 hsn hdn) hW2 hsn n j

/-- The node outputs agree. -/
theorem outKer_eq_outRef (hx : ∀ n k, ∃ r : ℝ, x n k = (r : EReal)) (hW1 : ∀ k j, ∃ r : ℝ, W1 k j = r)
    (hb1 : ∀ j, ∃ r : ℝ, b1 j = r) (hW2 : ∀ k j, ∃ r : ℝ, W2 k j = r)
    (hsn : ∀ n, ∃ r : ℝ, sn n = r) (hdn : ∀ n, ∃ r : ℝ, dn n = r) :
    outKer b2 dn (agg srow dstI (hw2Ker W1 b1 W2 sn dn (agg0Ker srow dstI x sn)))
      = outRef srow dstI x W1 b1 W2 b2 sn dn := by
  rw [hw2Ker_eq srow dstI x W1 b1 W2 sn dn hx hW1 hb1 hW2 hsn hdn]
  rfl

/-- The kernel's result is the reference's result, entry by entry, when every float input is a real number. -/
theorem resultKer_eq_resultRef (hx : ∀ n k, ∃ r : ℝ, x n k = (r : EReal)) (hW1 : ∀ k j, ∃ r : ℝ, W1 k j = r)
    (hb1 : ∀ j, ∃ r : ℝ, b1 j = r) (hW2 : ∀ k j, ∃ r : ℝ, W2 k j = r) (hb2 : ∀ j, ∃ r : ℝ, b2 j = r)
    (hsn : ∀ n, ∃ r : ℝ, sn n = r) (hdn : ∀ n, ∃ r : ℝ, dn n = r) (g : Fin 100) (j : Fin 64) :
    resultKer srow dstI gidI x W1 b1 W2 b2 sn dn g j = resultRef srow dstI gidI x W1 b1 W2 b2 sn dn g j := by
  unfold resultKer readoutKer resultRef
  rw [readout_sum, readout_count, outKer_eq_outRef srow dstI x W1 b1 W2 b2 sn dn hx hW1 hb1 hW2 hsn hdn]

end Graph

end Cert.Spec

end
-- ==== Proof.Finite.lean ====
/-
  From the stated precondition to "every entry of the five float inputs is a real number".
  The precondition is the conjunction, over the five float inputs a, of "every entry of |a| is below +∞", each printed
  as a comparison with the splat of the word of +∞ followed by a reduction by "and" over all axes, and it is claimed to
  be the bit 1. Read back: the conjunction's bit is 1 only if each conjunct's is; a reduction by "and" into one bit
  that is 1 met a 1 at every entry; the comparison's bit at an entry is 1 only if max(x, −x) < +∞ there; and an
  extended real with max(x, −x) < +∞ is neither infinity, so it is a real number.
-/
import proofs.«404963_j59098749993497_3_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance subsingleton_scalarIdx : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max(x, −x) is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry of one conjunct: where the comparison of |a| with the splat of +∞ gives the bit 1, the entry is real. -/
theorem real_of_cmp {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  have h' : BitVec.ofBool (decide (max (a i) (-(a i)) < Ideal.ofBits .f32 0x7F800000#32)) = 1#1 := h
  rw [ofBits_inf] at h'
  by_contra hn
  rw [decide_eq_false hn] at h'
  exact absurd h' (by decide)

/-- THE PRECONDITION READ BACK: if the printed predicate gives the bit 1, every entry of each of the five float inputs
    is a real number. -/
theorem finite_of_pre [hP : Cert.Pre_finite_inputs.Facts]
    (a0 : FVec Ideal S100000x128 .f32) (a1 : FVec Ideal S128x128 .f32) (a2 : FVec Ideal S128 .f32)
    (a3 : FVec Ideal S128x64 .f32) (a4 : FVec Ideal S64 .f32) (a5 : IVec S1600000 32) (a6 : IVec S1600000 32)
    (a7 : IVec S100000 32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have hbit := congrFun h ix0
  dsimp only [Cert.Pre_finite_inputs.fn, Cert.Pre_finite_inputs.fn_part1] at hbit
  obtain ⟨h0123, h4⟩ := IntOp.andi_eq_one.1 hbit
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_cmp a0 _ i (Host.reduce_andi_all _ _ _ _ ix0 h0 i),
    fun i => real_of_cmp a1 _ i (Host.reduce_andi_all _ _ _ _ ix0 h1 i),
    fun i => real_of_cmp a2 _ i (Host.reduce_andi_all _ _ _ _ ix0 h2 i),
    fun i => real_of_cmp a3 _ i (Host.reduce_andi_all _ _ _ _ ix0 h3 i),
    fun i => real_of_cmp a4 _ i (Host.reduce_andi_all _ _ _ _ ix0 h4 i)⟩

end Cert.Finite

end
-- ==== Proof.lean ====
/-
  The certificate's claims, assembled.

  Both programs compute a two-layer graph convolution followed by a per-graph mean. Each runs to the end without a
  fault and leaves its arguments unchanged: the kernel's program by its run segment by segment (at the word level and at
  the ideal instance alike), the reference by its run as a list of host operations. The idealization rewrote no
  operation, so it preserves the kernel trivially. At the ideal instance the kernel's result entry is the
  membership-weighted tile sums over the membership counts of its own edge-sum-then-multiply arrangement, the
  reference's the per-graph sums over counts of its multiply-then-edge-sum arrangement; with every float argument a
  real number (the precondition) the two arrangements agree entry by entry: the edge sum commutes with the product by
  a matrix, scaling rows commutes with it too, and a 0/1-weighted sum over tiles is the sum over the members.
-/
import proofs.«404963_j59098749993497_3_alg».proof.Defs
import proofs.«404963_j59098749993497_3_alg».proof.Proof.Gen.Kernel
import proofs.«404963_j59098749993497_3_alg».proof.Proof.Gen.KernelIdeal
import proofs.«404963_j59098749993497_3_alg».proof.Proof.Gen.ReferenceIdeal
import proofs.«404963_j59098749993497_3_alg».proof.Proof.Gen.Pre_finite_inputs
import proofs.«404963_j59098749993497_3_alg».proof.Proof.Gen.ReferenceIdeal.Run
import proofs.«404963_j59098749993497_3_alg».proof.Proof.K.Frame
import proofs.«404963_j59098749993497_3_alg».proof.Proof.KI.Frame
import proofs.«404963_j59098749993497_3_alg».proof.Proof.KernelValue
import proofs.«404963_j59098749993497_3_alg».proof.Proof.RefValue
import proofs.«404963_j59098749993497_3_alg».proof.Proof.Law
import proofs.«404963_j59098749993497_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments unchanged. -/
theorem frame_k [Cert.Kernel.Facts] [Cert.Pre_finite_inputs.Facts] : Cert.frame_Kernel :=
  fun m ρ _ => Cert.Kernel.Hand.frame m ρ

/-- So does its idealization. -/
theorem frame_ki [Cert.KernelIdeal.Facts] [Cert.Pre_finite_inputs.Facts] : Cert.frame_KernelIdeal :=
  fun m ρ _ => Cert.KernelIdeal.Hand.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Kernel and reference end with the same result, entry by entry, from memories that agree on the arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (Cert.KernelIdeal.Hand.dat1 (F := Ideal) (Cert.KernelIdeal.Hand.U7 m) c).arrAt 3 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  -- both results, entry by entry, in the words of the specification
  funext i
  obtain ⟨g, j, rfl⟩ : ∃ (g : Fin 100) (j : Fin 64), i = ix2 g j := ⟨i 0, i 1, eq_ix2 i⟩
  obtain ⟨h0, h1, h2, h3, h4, h5, h6, h7⟩ := hagree c
  obtain ⟨f0, f1, f2, f3, f4⟩ := Cert.Finite.finite_of_pre _ _ _ _ _ _ _ _ (hpre c)
  refine (Cert.ReferenceIdeal.RefValue.ref_value m' c g j).trans ?_
  refine Eq.trans ?_ (Cert.KernelIdeal.KernelValue.result_value m c g j).symm
  rw [h0, h1, h2, h3, h4, h5, h6, h7]
  exact (Cert.Spec.resultKer_eq_resultRef _ _ _ _ _ _ _ _ _ _
    (fun n k => f0 (ix2 n k)) (fun k j => f1 (ix2 k j)) (fun j => f2 (ix1 j)) (fun k j => f3 (ix2 k j)) (fun j => f4 (ix1 j))
    (fun n => Cert.Spec.nrm_real _ n) (fun n => Cert.Spec.nrm_real _ n) g j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
